-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S192x64 : Shape := ⟨2, ![192, 64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg2 : IVec S50000 32) (main_arg16 : FVec F S64x10 .f32) (main_arg17 : FVec F S10 .f32) (main_v63 : IVec S_ 1) (main_v67 : IVec S_ 1) : IVec S_ 1 :=
  let main_v68 : IVec S_ 1 := andi main_v63 main_v67
  let main_v69 : FVec F S64x10 .f32 := Host.absf main_arg16
  let main_cst_26 : FVec F S_ .f32 := constant S_ .f32 0x7F800000#32
  let main_v70 : FVec F S64x10 .f32 := broadcastInDim S64x10 ![] bcast_S_S64x10 main_cst_26
  let main_v71 : IVec S64x10 1 := cmpf .olt main_v69 main_v70
  let main_c_27 : IVec S_ 1 := constantI S_ 1 1#1
  let main_v72 : IVec S_ 1 := (fun x v => Host.reduce IntOp.andi x v reducesTo_S64x10_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_c_30 : IVec S_ 32 := constantI S_ 32 0#32
  let main_v79 : IVec S50000 32 := broadcastInDim S50000 ![] bcast_S_S50000 main_c_30
  let main_v80 : IVec S50000 1 := cmpi .sge main_arg2 main_v79
  let main_c_31 : IVec S_ 1 := constantI S_ 1 1#1
  let main_v81 : IVec S_ 1 := (fun x v => Host.reduce IntOp.andi x v reducesTo_S50000_S_d0 h_S_) main_v80 main_c_31
  let main_v82 : IVec S_ 1 := andi main_v78 main_v81
  main_v82

def fn_part3 {F : FTy → Type} [FloatOps F] (main_arg2 : IVec S50000 32) (main_arg13 : FVec F S64 .f32) (main_arg14 : FVec F S192x64 .f32) (main_arg15 : FVec F S64 .f32) (main_arg16 : FVec F S64x10 .f32) (main_arg17 : FVec F S10 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S192x64 .f32 := Host.absf main_arg14
  let main_cst_22 : FVec F S_ .f32 := constant S_ .f32 0x7F800000#32
  let main_v60 : FVec F S192x64 .f32 := broadcastInDim S192x64 ![] bcast_S_S192x64 main_cst_22
  let main_v61 : IVec S192x64 1 := cmpf .olt main_v59 main_v60
  let main_c_23 : IVec S_ 1 := constantI S_ 1 1#1
  let main_v62 : IVec S_ 1 := (fun x v => Host.reduce IntOp.andi x v reducesTo_S192x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg16 main_arg17 main_v63 main_v67

def fn_part2 {F : FTy → Type} [FloatOps F] (main_arg2 : IVec S50000 32) (main_arg9 : FVec F S64x64 .f32) (main_arg10 : FVec F S64 .f32) (main_arg11 : FVec F S64x64 .f32) (main_arg12 : FVec F S64x64 .f32) (main_arg13 : FVec F S64 .f32) (main_arg14 : FVec F S192x64 .f32) (main_arg15 : FVec F S64 .f32) (main_arg16 : FVec F S64x10 .f32) (main_arg17 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg2 main_arg13 main_arg14 main_arg15 main_arg16 main_arg17 main_v48 main_v49 main_v50

def fn_part1 {F : FTy → Type} [FloatOps F] (main_arg2 : IVec S50000 32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S192x64 .f32) (main_arg15 : FVec F S64 .f32) (main_arg16 : FVec F S64x10 .f32) (main_arg17 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S192x64 .f32) (main_arg15 : FVec F S64 .f32) (main_arg16 : FVec F S64x10 .f32) (main_arg17 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S192x64 : Shape := ⟨2, ![192, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S5000x64 : Shape := ⟨2, ![5000, 64]⟩
abbrev S50000x192 : Shape := ⟨2, ![50000, 192]⟩
abbrev S512x192 : Shape := ⟨2, ![512, 192]⟩
abbrev S1000x192 : Shape := ⟨2, ![1000, 192]⟩
abbrev S1000x1 : Shape := ⟨2, ![1000, 1]⟩
abbrev S1000x512 : Shape := ⟨2, ![1000, 512]⟩
abbrev S512 : Shape := ⟨1, ![512]⟩
abbrev S512x1 : Shape := ⟨2, ![512, 1]⟩
abbrev S1x10 : Shape := ⟨2, ![1, 10]⟩
abbrev S512x10 : Shape := ⟨2, ![512, 10]⟩
abbrev S512x64 : Shape := ⟨2, ![512, 64]⟩

abbrev nBuf : Space → Nat
  | .hbm => 127
  | .vmem => 45
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S192x64, .f32⟩
  | .hbm, ⟨15, _⟩ => ⟨S64, .f32⟩
  | .hbm, ⟨16, _⟩ => ⟨S64x10, .f32⟩
  | .hbm, ⟨17, _⟩ => ⟨S10, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S1x64, .f32⟩
  | .hbm, ⟨75, _⟩ => ⟨S50000x64, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S_, .f32⟩
  | .hbm, ⟨90, _⟩ => ⟨S50000, .f32⟩
  | .hbm, ⟨91, _⟩ => ⟨S800000x1, .i32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x64, .f32⟩
  | .hbm, ⟨98, _⟩ => ⟨S50000x64, .f32⟩
  | .hbm, ⟨99, _⟩ => ⟨S1x64, .f32⟩
  | .hbm, ⟨100, _⟩ => ⟨S1x64, .f32⟩
  | .hbm, ⟨101, _⟩ => ⟨S50000x64, .f32⟩
  | .hbm, ⟨102, _⟩ => ⟨S50000x192, .f32⟩
  | .hbm, ⟨103, _⟩ => ⟨S50000x1, .i32⟩
  | .hbm, ⟨104, _⟩ => ⟨S512x192, .f32⟩
  | .hbm, ⟨105, _⟩ => ⟨S_, .i32⟩
  | .hbm, ⟨106, _⟩ => ⟨S512, .i32⟩
  | .hbm, ⟨107, _⟩ => ⟨S_, .i32⟩
  | .hbm, ⟨108, _⟩ => ⟨S_, .i32⟩
  | .hbm, ⟨109, _⟩ => ⟨S50000, .i32⟩
  | .hbm, ⟨110, _⟩ => ⟨S50000, .i32⟩
  | .hbm, ⟨111, _⟩ => ⟨S_, .i32⟩
  | .hbm, ⟨112, _⟩ => ⟨S50000, .i32⟩
  | .hbm, ⟨113, _⟩ => ⟨S50000, .i1⟩
  | .hbm, ⟨114, _⟩ => ⟨S_, .i32⟩
  | .hbm, ⟨115, _⟩ => ⟨S50000, .i32⟩
  | .hbm, ⟨116, _⟩ => ⟨S50000, .i32⟩
  | .hbm, ⟨117, _⟩ => ⟨S50000, .i32⟩
  | .hbm, ⟨118, _⟩ => ⟨S50000x1, .i32⟩
  | .hbm, ⟨119, _⟩ => ⟨S_, .i32⟩
  | .hbm, ⟨120, _⟩ => ⟨S50000, .i32⟩
  | .hbm, ⟨121, _⟩ => ⟨S512, .i32⟩
  | .hbm, ⟨122, _⟩ => ⟨S512, .f32⟩
  | .hbm, ⟨123, _⟩ => ⟨S512x1, .f32⟩
  | .hbm, ⟨124, _⟩ => ⟨S1x64, .f32⟩
  | .hbm, ⟨125, _⟩ => ⟨S1x10, .f32⟩
  | .hbm, ⟨126, _⟩ => ⟨S512x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S1000x192, .f32⟩
  | .local _ .vmem, ⟨34, _⟩ => ⟨S1000x192, .f32⟩
  | .local _ .vmem, ⟨35, _⟩ => ⟨S1000x1, .i32⟩
  | .local _ .vmem, ⟨36, _⟩ => ⟨S1000x1, .i32⟩
  | .local _ .vmem, ⟨37, _⟩ => ⟨S512x192, .f32⟩
  | .local _ .vmem, ⟨38, _⟩ => ⟨S512x192, .f32⟩
  | .local _ .vmem, ⟨39, _⟩ => ⟨S512x1, .f32⟩
  | .local _ .vmem, ⟨40, _⟩ => ⟨S192x64, .f32⟩
  | .local _ .vmem, ⟨41, _⟩ => ⟨S1x64, .f32⟩
  | .local _ .vmem, ⟨42, _⟩ => ⟨S64x10, .f32⟩
  | .local _ .vmem, ⟨43, _⟩ => ⟨S1x10, .f32⟩
  | .local _ .vmem, ⟨44, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_9 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_c_15 : Ref sig .tc := ⟨.hbm, 107, rfl⟩
abbrev main_call0_v0 : Ref sig .tc := ⟨.hbm, 108, rfl⟩
abbrev main_call0_v1 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc4_stg0_0 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc4_sem0_0 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S192x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S50000x64_S50000x64_S50000x64_S50000x192_d1 : Shape.Concatenates [S50000x64, S50000x64, S50000x64] S50000x192 1
  shapeCasts_S50000_S50000x1 : S50000.ShapeCasts S50000x1
  inb_S512x192_S512x192_0_0 : ∀ a, (![0, 0] : Fin 2 → Nat) a + S512x192.size a ≤ S512x192.size a
  h_S512x192 : 0 < S512x192.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S1000x192_S1000x192_0_0 : ∀ a, (![0, 0] : Fin 2 → Nat) a + S1000x192.size a ≤ S1000x192.size a
  h_S1000x192 : 0 < S1000x192.numel
  shapeCasts_S1000x192_S1000x192 : S1000x192.ShapeCasts S1000x192
  shapeCasts_S512x192_S512x192 : S512x192.ShapeCasts S512x192
  bcast_S_S512 : S_.BroadcastsInDim S512 (![] : Fin 0 → Fin S512.rank)
  shapeCasts_S512_S512x1 : S512.ShapeCasts S512x1
  shapeCasts_S10_S1x10 : S10.ShapeCasts S1x10
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x192 : S512x1.Broadcasts S512x192
  inb_S192x64_S192x64_0_0 : ∀ a, (![0, 0] : Fin 2 → Nat) a + S192x64.size a ≤ S192x64.size a
  h_S192x64 : 0 < S192x64.numel
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  dot_S1000x512_S1000x192_S512x192_0_0_1_1_n_n_wf : DotDims.WF S1000x512 S1000x192 S512x192 [0] [0] [1] [1] [] []
  scatter_S512_S50000x1_S50000_n_0_0_1_wf : ScatterDims.WF S512 S50000x1 S50000 [] [0] [0] 1
  dot_S512x192_S192x64_S512x64_1_0_0_1_n_n_wf : DotDims.WF S512x192 S192x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x192.size a ≤ S50000x192.size a
  hwx3_0 : ∀ i : grid3.Coords, EltTy.bits .f32 = 32 ∨ (Rect.block (s := S50000x192) S1000x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .i32 = 32 ∨ (Rect.block (s := S50000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x192.size a ≤ S512x192.size a
  hwx3_2 : ∀ i : grid3.Coords, EltTy.bits .f32 = 32 ∨ (Rect.block (s := S512x192) S512x192.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x192.size a ≤ S512x192.size a
  hwx4_0 : ∀ i : grid4.Coords, EltTy.bits .f32 = 32 ∨ (Rect.block (s := S512x192) S512x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S192x64.size a ≤ S192x64.size a
  hwx4_2 : ∀ i : grid4.Coords, EltTy.bits .f32 = 32 ∨ (Rect.block (s := S192x64) S192x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x10.size a ≤ S64x10.size a
  hwx4_4 : ∀ i : grid4.Coords, EltTy.bits .f32 = 32 ∨ (Rect.block (s := S64x10) S64x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x10.size a ≤ S512x10.size a
  hwx4_6 : ∀ i : grid4.Coords, EltTy.bits .f32 = 32 ∨ (Rect.block (s := S512x10) S512x10.size (cc4_transform_6 i) (hinb4_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x512_S1000x192_S512x192_0_0_1_1_n_n : DotDims S1000x512 S1000x192 S512x192 where
  lhsContracting := [0]
  rhsContracting := [0]
  lhsNonContracting := [1]
  rhsNonContracting := [1]
  lhsBatch := []
  rhsBatch := []
  wf := dot_S1000x512_S1000x192_S512x192_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x192_S192x64_S512x64_1_0_0_1_n_n : DotDims S512x192 S192x64 S512x64 where
  lhsContracting := [1]
  rhsContracting := [0]
  lhsNonContracting := [0]
  rhsNonContracting := [1]
  lhsBatch := []
  rhsBatch := []
  wf := dot_S512x192_S192x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v68) S1000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S512x192.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S512x192.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v82) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S192x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S64x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S512x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S192x64 : Shape := ⟨2, ![192, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S50000x192 : Shape := ⟨2, ![50000, 192]⟩
abbrev S512x192 : Shape := ⟨2, ![512, 192]⟩
abbrev S512 : Shape := ⟨1, ![512]⟩
abbrev S512x1 : Shape := ⟨2, ![512, 1]⟩
abbrev S512x64 : Shape := ⟨2, ![512, 64]⟩
abbrev S512x10 : Shape := ⟨2, ![512, 10]⟩
abbrev S1x10 : Shape := ⟨2, ![1, 10]⟩

abbrev nBuf : Space → Nat
  | .hbm => 164
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S192x64, .f32⟩
  | 15 => ⟨S64, .f32⟩
  | 16 => ⟨S64x10, .f32⟩
  | 17 => ⟨S10, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x192, .f32⟩
  | 9 => ⟨S_, .f32⟩
  | 10 => ⟨S512x192, .f32⟩
  | 11 => ⟨S50000x1, .i32⟩
  | 12 => ⟨S512x192, .f32⟩
  | 13 => ⟨S_, .f32⟩
  | 14 => ⟨S50000, .f32⟩
  | 15 => ⟨S_, .f32⟩
  | 16 => ⟨S512, .f32⟩
  | 17 => ⟨S50000x1, .i32⟩
  | 18 => ⟨S512, .f32⟩
  | 19 => ⟨S_, .f32⟩
  | 20 => ⟨S512, .f32⟩
  | 21 => ⟨S512, .f32⟩
  | 22 => ⟨S512x1, .f32⟩
  | 23 => ⟨S512x192, .f32⟩
  | 24 => ⟨S512x192, .f32⟩
  | 25 => ⟨S512x64, .f32⟩
  | 26 => ⟨S1x64, .f32⟩
  | 27 => ⟨S512x64, .f32⟩
  | 28 => ⟨S512x64, .f32⟩
  | 29 => ⟨S_, .f32⟩
  | 30 => ⟨S512x64, .f32⟩
  | 31 => ⟨S512x64, .f32⟩
  | 32 => ⟨S512x10, .f32⟩
  | 33 => ⟨S1x10, .f32⟩
  | 34 => ⟨S512x10, .f32⟩
  | 35 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call1_cst : Ref sig .tc := ⟨.hbm, 95, rfl⟩
abbrev main_call1_v0 : Ref sig .tc := ⟨.hbm, 96, rfl⟩
abbrev main_v63 : Ref sig .tc := ⟨.hbm, 97, rfl⟩
abbrev main_c_10 : Ref sig .tc := ⟨.hbm, 98, rfl⟩
abbrev main_v64 : Ref sig .tc := ⟨.hbm, 99, rfl⟩
abbrev main_v65 : Ref sig .tc := ⟨.hbm, 100, rfl⟩
abbrev main_c_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call2_cst : Ref sig .tc := ⟨.hbm, 133, rfl⟩
abbrev main_call2_v0 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_17 : Ref sig .tc := ⟨.hbm, 141, rfl⟩
abbrev main_v98 : Ref sig .tc := ⟨.hbm, 142, rfl⟩
abbrev main_cst_18 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_19 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call3_cst : Ref sig .tc := ⟨.hbm, 157, rfl⟩
abbrev main_call3_v0 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x64_S50000x192_d1 : Shape.Concatenates [S50000x64, S50000x64, S50000x64] S50000x192 1
  bcast_S_S512x192 : S_.BroadcastsInDim S512x192 (![] : Fin 0 → Fin S512x192.rank)
  bcast_S_S512 : S_.BroadcastsInDim S512 (![] : Fin 0 → Fin S512.rank)
  bcast_S512_S512x1_0 : S512.BroadcastsInDim S512x1 (![0] : Fin 1 → Fin S512x1.rank)
  bcast_S512x1_S512x192_0_1 : S512x1.BroadcastsInDim S512x192 (![0, 1] : Fin 2 → Fin S512x192.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  scatter_S512x192_S50000x1_S50000x192_1_0_0_1_wf : ScatterDims.WF S512x192 S50000x1 S50000x192 [1] [0] [0] 1
  scatter_S512_S50000x1_S50000_n_0_0_1_wf : ScatterDims.WF S512 S50000x1 S50000 [] [0] [0] 1
  dot_S512x192_S192x64_S512x64_1_0_0_1_n_n_wf : DotDims.WF S512x192 S192x64 S512x64 [1] [0] [0] [1] [] []
  dot_S512x64_S64x10_S512x10_1_0_0_1_n_n_wf : DotDims.WF S512x64 S64x10 S512x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x192_S50000x1_S50000x192_1_0_0_1 : ScatterDims S512x192 S50000x1 S50000x192 where
  updateWindowDims := [1]
  insertedWindowDims := [0]
  scatterDimsToOperandDims := [0]
  indexVectorDim := 1
  wf := scatter_S512x192_S50000x1_S50000x192_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x192_S192x64_S512x64_1_0_0_1_n_n : DotDims S512x192 S192x64 S512x64 where
  lhsContracting := [1]
  rhsContracting := [0]
  lhsNonContracting := [0]
  rhsNonContracting := [1]
  lhsBatch := []
  rhsBatch := []
  wf := dot_S512x192_S192x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KI.RunCond.lean ====
/- The several-region run with the result named: the launch of the list of host stretches and kernel regions, read at the
   end for every argument array AND for the program's result array. -/
import proofs.«415135_j5574867550247_1_alg».proof.Proof.Gen.KernelIdeal.Regions
import Idealize.ShloMosaic.Lib.Pipeline.Frame
import Idealize.ShloMosaic.Lib.Pipeline.Regions

-- decided memberships and the launch kit's enumerations over 172 references recurse past the default depth
set_option maxRecDepth 1200

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given one segment record per kernel region, entered from and left at the thread states of the
    conditional frame: every weakly fair execution from memory `m` with zero counters terminates; the result array
    `main_v85` ends at what the last valuation holds for it, and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      r.2.mem ((c.tc : Thread nD τ).loc main_v85) = V12 m outs c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, hpre0 c, hpost0 c, hpre1 c, hpost1 c, hpre2 c, hpost2 c, hpre3 c, hpost3 c, .rfl, .rfl, hpre4 c, (hpost4 c).trans (sep_mono .rfl (hE5 c))⟩)
    (hinit := ?_) (QY := fun c s => s.mem ((c.tc : Thread nD τ).loc main_v85) = V12 m outs c main_v85 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact ⟨h (Proc.devRef .tc main_v85) (Finset.mem_filter.mpr ⟨StableHlo.devRef_mem_tcRefs main_v85, by decide⟩),
        (h (Proc.devRef .tc main_arg0) (Finset.mem_filter.mpr ⟨StableHlo.devRef_mem_tcRefs main_arg0, by decide⟩)).trans (V12_main_arg0 m outs c),
        (h (Proc.devRef .tc main_arg1) (Finset.mem_filter.mpr ⟨StableHlo.devRef_mem_tcRefs main_arg1, by decide⟩)).trans (V12_main_arg1 m outs c),
        (h (Proc.devRef .tc main_arg2) (Finset.mem_filter.mpr ⟨StableHlo.devRef_mem_tcRefs main_arg2, by decide⟩)).trans (V12_main_arg2 m outs c),
        (h (Proc.devRef .tc main_arg3) (Finset.mem_filter.mpr ⟨StableHlo.devRef_mem_tcRefs main_arg3, by decide⟩)).trans (V12_main_arg3 m outs c),
        (h (Proc.devRef .tc main_arg4) (Finset.mem_filter.mpr ⟨StableHlo.devRef_mem_tcRefs main_arg4, by decide⟩)).trans (V12_main_arg4 m outs c),
        (h (Proc.devRef .tc main_arg5) (Finset.mem_filter.mpr ⟨StableHlo.devRef_mem_tcRefs main_arg5, by decide⟩)).trans (V12_main_arg5 m outs c),
        (h (Proc.devRef .tc main_arg6) (Finset.mem_filter.mpr ⟨StableHlo.devRef_mem_tcRefs main_arg6, by decide⟩)).trans (V12_main_arg6 m outs c),
        (h (Proc.devRef .tc main_arg7) (Finset.mem_filter.mpr ⟨StableHlo.devRef_mem_tcRefs main_arg7, by decide⟩)).trans (V12_main_arg7 m outs c),
        (h (Proc.devRef .tc main_arg8) (Finset.mem_filter.mpr ⟨StableHlo.devRef_mem_tcRefs main_arg8, by decide⟩)).trans (V12_main_arg8 m outs c),
        (h (Proc.devRef .tc main_arg9) (Finset.mem_filter.mpr ⟨StableHlo.devRef_mem_tcRefs main_arg9, by decide⟩)).trans (V12_main_arg9 m outs c),
        (h (Proc.devRef .tc main_arg10) (Finset.mem_filter.mpr ⟨StableHlo.devRef_mem_tcRefs main_arg10, by decide⟩)).trans (V12_main_arg10 m outs c),
        (h (Proc.devRef .tc main_arg11) (Finset.mem_filter.mpr ⟨StableHlo.devRef_mem_tcRefs main_arg11, by decide⟩)).trans (V12_main_arg11 m outs c),
        (h (Proc.devRef .tc main_arg12) (Finset.mem_filter.mpr ⟨StableHlo.devRef_mem_tcRefs main_arg12, by decide⟩)).trans (V12_main_arg12 m outs c),
        (h (Proc.devRef .tc main_arg13) (Finset.mem_filter.mpr ⟨StableHlo.devRef_mem_tcRefs main_arg13, by decide⟩)).trans (V12_main_arg13 m outs c),
        (h (Proc.devRef .tc main_arg14) (Finset.mem_filter.mpr ⟨StableHlo.devRef_mem_tcRefs main_arg14, by decide⟩)).trans (V12_main_arg14 m outs c),
        (h (Proc.devRef .tc main_arg15) (Finset.mem_filter.mpr ⟨StableHlo.devRef_mem_tcRefs main_arg15, by decide⟩)).trans (V12_main_arg15 m outs c),
        (h (Proc.devRef .tc main_arg16) (Finset.mem_filter.mpr ⟨StableHlo.devRef_mem_tcRefs main_arg16, by decide⟩)).trans (V12_main_arg16 m outs c),
        (h (Proc.devRef .tc main_arg17) (Finset.mem_filter.mpr ⟨StableHlo.devRef_mem_tcRefs main_arg17, by decide⟩)).trans (V12_main_arg17 m outs c)⟩
    · iexact HSI

end Cert.KernelIdeal.Gen

end
-- ==== Proof.KI.Reg0.lean ====
/- REGION 0 of @main (custom_call 0, kernel `cc0__sage_layer_kernel`, pipeline 0) at a parameter `V`, the TensorCore's
   buffer contents when the region is entered: each window's block at a grid point, what the body leaves in the
   output window's staging buffer as a function of the seven input blocks, the body's triple, the pipeline's proof
   data and the body obligation at every grid point; and the output buffer read back as the payload of its one
   whole-block store. -/
import proofs.«415135_j5574867550247_1_alg».proof.Proof.Gen.KernelIdeal.Launch
import proofs.«415135_j5574867550247_1_alg».proof.Proof.Gen.KernelIdeal.Skeleton
import proofs.«415135_j5574867550247_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, and the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is not
    fetched its block index has not moved, and the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is not
    fetched its block index has not moved, and the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): where the window is not
    fetched its block index has not moved, and the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-block rectangles the body loads and stores through: all offsets zero, the sizes the buffer's own. -/
abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in the output window's buffer -/

/-- Window 7's staging buffer after the body, from the input windows' blocks `xW` (window `W`'s): its one store as a
    piece. The payload reads, in the order the body loads them, windows 0, 1, 2, 4, 5, 3, 6. -/
def out0_7 (x0 : Vec F S5000x64 .f32) (x1 : Vec F S5000x64 .f32) (x2 : Vec F S64x64 .f32) (x3 : Vec F S1x64 .f32) (x4 : Vec F S64x64 .f32) (x5 : Vec F S64x64 .f32) (x6 : Vec F S1x64 .f32) : Vec F S5000x64 .f32 :=
  View.canon [⟨r0_0, k0_pay1 (View.ld x0 r0_0) (View.ld x1 r0_0) (View.ld x2 r0_1) (View.ld x4 r0_1) (View.ld x5 r0_1) (View.ld x3 r0_2) (View.ld x6 r0_2)⟩]

/-- Its store tiles the buffer, so it covers it. -/
theorem cover0_7 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple -/

set_option maxHeartbeats 1000000 in
/-- The kernel body on whole staging memrefs, the inputs' at read contents `xW` and the output's at anything, runs to
    the continuation holding the inputs' as they were and the output's at `out0_7` of the inputs': the printed function
    is its skeleton of memory operations, run operation by operation (the load of the output buffer before the store
    reads contents nothing depends on). -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__sage_layer_kernel i arg1 harg1 arg2 harg2 arg3 harg3 arg4 harg4 arg5 harg5 arg6 harg6 arg7 harg7 arg8 harg8) K := by
  simp only [cc0__sage_layer_kernel_eq_skeleton]; unfold cc0__sage_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output buffer read back -/

/-- The offsets of the whole-block rectangles are zero. -/
private theorem zeros0 : (![0, 0] : Fin 2 → Nat) = fun _ => 0 := funext fun a => by fin_cases a <;> rfl

/-- The output buffer after the body is the payload of its one store at the input blocks themselves: a load through the
    whole-block rectangle reads the buffer, and one store through it leaves its payload. -/
theorem out0_7_eq (x0 : Vec F S5000x64 .f32) (x1 : Vec F S5000x64 .f32) (x2 : Vec F S64x64 .f32) (x3 : Vec F S1x64 .f32) (x4 : Vec F S64x64 .f32) (x5 : Vec F S64x64 .f32) (x6 : Vec F S1x64 .f32) :
    out0_7 x0 x1 x2 x3 x4 x5 x6 = k0_pay1 x0 x1 x2 x4 x5 x3 x6 := by
  unfold out0_7
  rw [View.canon_unit_zero (S := S5000x64) zeros0 inb_S5000x64_S5000x64_0_0,
    View.ld_unit_zero (S := S5000x64) zeros0 inb_S5000x64_S5000x64_0_0 x0,
    View.ld_unit_zero (S := S5000x64) zeros0 inb_S5000x64_S5000x64_0_0 x1,
    View.ld_unit_zero (S := S64x64) zeros0 inb_S64x64_S64x64_0_0 x2,
    View.ld_unit_zero (S := S64x64) zeros0 inb_S64x64_S64x64_0_0 x4,
    View.ld_unit_zero (S := S64x64) zeros0 inb_S64x64_S64x64_0_0 x5,
    View.ld_unit_zero (S := S1x64) zeros0 inb_S1x64_S1x64_0_0 x3,
    View.ld_unit_zero (S := S1x64) zeros0 inb_S1x64_S1x64_0_0 x6]

end Cert.KernelIdeal.Hand

end
-- ==== Proof.KI.Reg3.lean ====
/-
  REGION 3 of @main: the pooling accumulator (custom_call 3, `cc3__pool_sum_kernel`, pipeline 3), at the buffer
  contents `V` the region is entered with.

  The grid has 50 points. Windows 0 and 1 are row blocks of the two inputs (f32 [1000,192] and i32 [1000,1]), fetched at
  every point. Window 2 is the whole [512,192] result array: its index map is constant, so its staging buffer is carried
  from point to point and written back once, after the last point. At the first point the body stores the zero block, and
  at every point it loads the inputs' blocks, loads the output block back (the zeros just stored, or what the point before
  left), adds the product of the one-hot matrix of window 1's block with window 0's block, and stores the sum.

  So there are two control cases — A: the first point (zero, then accumulate); B: every later point (accumulate over what
  the point before left) — and what the output's staging buffer holds after point `n` is defined by recursion on `n`
  (`outsAt3`). The module gives: each case's run of the body (`kernelRun3_A`, `kernelRun3_B`) with the value its last
  covering store leaves (`out3_A`, `out3_B`), the proof data of the pipeline (`dat3`), the body obligation
  (`body_obligation3`), and the result array after the region (`arrAt3_2`): what the last point leaves.
-/
import proofs.«415135_j5574867550247_1_alg».proof.Proof.Gen.KernelIdeal.Launch
import proofs.«415135_j5574867550247_1_alg».proof.Proof.Gen.KernelIdeal.Skeleton
import proofs.«415135_j5574867550247_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is `V`'s
    and whose body leaves the block in place: the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional: the grid coordinate is zero (the scalar chain of the body substituted). -/
abbrev cond3_0 (i : grid3.Coords) : Prop := (Scalar.cmpi .ne (Scalar.extui (Scalar.cmpi .eq (BitVec.ofNat 32 (i 0).val) 0#32)) 0#32) = 1#1
/-- It holds at the first point only — decided over the 50 points of the grid. -/
theorem hcond3_0 : ∀ t : Fin cfg3.N, cond3_0 (grid3.coords t) ↔ t.val = 0 :=
  (by decide +kernel : ∀ t : Fin grid3.N, cond3_0 (grid3.coords t) ↔ t.val = 0)

/-- The offsets of every access of the body are zero. -/
theorem hz3 : (![0, 0] : Fin 2 → Nat) = fun _ => 0 := funext fun a => by fin_cases a <;> rfl

/-! ## The kernel body on any staging memrefs, case by case -/

set_option maxHeartbeats 1000000 in
/-- CASE A (the first point: the conditional taken). What the body's stores leave in the output's staging memref, as
    pieces (last first), WITH the proof that on whole staging memrefs — the inputs' at their contents `x0`, `x1`, the
    output's at anything — the body runs to the continuation holding the inputs' as they were and the output's buffer
    with those pieces written. -/
noncomputable def kernelRun3_A (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : cond3_0 i) (x0 : Vec F S1000x192 .f32) (x1 : Vec F S1000x1 .i32) :
    { L2 : List (View.Piece (Elt F) S512x192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_sum_kernel i arg1 harg1 arg2 harg2 arg3 harg3) K } := by
  refine ⟨?_, fun E K => ?run⟩
  case run =>
    simp only [cc3__pool_sum_kernel_eq_skeleton]; unfold cc3__pool_sum_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- CASE B (every later point: the conditional not taken). The same, the output's staging memref entered at the
    running contents `xo` the body reads before its one covering store. -/
noncomputable def kernelRun3_B (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : ¬cond3_0 i) (x0 : Vec F S1000x192 .f32) (x1 : Vec F S1000x1 .i32) (xo : Vec F S512x192 .f32) :
    { L2 : List (View.Piece (Elt F) S512x192 .f32) //
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc3__pool_sum_kernel i arg1 harg1 arg2 harg2 arg3 harg3) K } := by
  refine ⟨?_, fun E K => ?run⟩
  case run =>
    simp only [cc3__pool_sum_kernel_eq_skeleton]; unfold cc3__pool_sum_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-! ## What each case leaves in the output's staging buffer -/

/-- Case A's pieces tile the output's block (its stores are of the whole block), so they cover it. -/
theorem cover3_A (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : cond3_0 i) (x0 : Vec F S1000x192 .f32) (x1 : Vec F S1000x1 .i32) (y : S512x192.Idx) :
    ∃ pc ∈ (kernelRun3_A c i arg1 harg1 arg2 harg2 arg3 harg3 hc0 x0 x1).1, y ∈ pc.1.set :=
  View.cover_of_tiledL (kernelRun3_A c i arg1 harg1 arg2 harg2 arg3 harg3 hc0 x0 x1).1 S512x192.size (by sl_kernel_rfl) y

/-- Case B's one piece is the whole block. -/
theorem cover3_B (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : ¬cond3_0 i) (x0 : Vec F S1000x192 .f32) (x1 : Vec F S1000x1 .i32) (xo : Vec F S512x192 .f32) (y : S512x192.Idx) :
    ∃ pc ∈ (kernelRun3_B c i arg1 harg1 arg2 harg2 arg3 harg3 hc0 x0 x1 xo).1, y ∈ pc.1.set :=
  View.cover_of_tiledL (kernelRun3_B c i arg1 harg1 arg2 harg2 arg3 harg3 hc0 x0 x1 xo).1 S512x192.size (by sl_kernel_rfl) y

/-- What case A leaves in the output's staging buffer: the zero block plus the pooled product of the inputs' blocks. -/
def out3_A (x0 : Vec F S1000x192 .f32) (x1 : Vec F S1000x1 .i32) : Vec F S512x192 .f32 :=
  k3_pay2 x1 x0 k3_pay1

/-- What case B leaves: what the point before left (`xo`) plus the pooled product of the inputs' blocks. -/
def out3_B (x0 : Vec F S1000x192 .f32) (x1 : Vec F S1000x1 .i32) (xo : Vec F S512x192 .f32) : Vec F S512x192 .f32 :=
  k3_pay2 x1 x0 xo

theorem out3_A_eq (x0 : Vec F S1000x192 .f32) (x1 : Vec F S1000x1 .i32) : out3_A x0 x1 = k3_pay2 x1 x0 k3_pay1 := rfl
theorem out3_B_eq (x0 : Vec F S1000x192 .f32) (x1 : Vec F S1000x1 .i32) (xo : Vec F S512x192 .f32) :
    out3_B x0 x1 xo = k3_pay2 x1 x0 xo := rfl

/-- CASE A's value: the pieces the run found, read as contents, are `out3_A` of the inputs' contents — the last store
    covers the block, its payload's loads read the whole input buffers and, of the output, the zero block the same run
    stored. -/
theorem canon3_A (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : cond3_0 i) (x0 : Vec F S1000x192 .f32) (x1 : Vec F S1000x1 .i32) :
    View.canon (kernelRun3_A c i arg1 harg1 arg2 harg2 arg3 harg3 hc0 x0 x1).1 = out3_A x0 x1 := by
  unfold kernelRun3_A out3_A
  dsimp only
  sl_unfold_words
  rw [View.canon_cons_unit_zero (S := S512x192) hz3, View.readCov_unit_zero (S := S512x192) _ hz3]
  simp only [View.readAt_eq_ld, harg1.read_unread, harg2.read_unread, View.ld_unit_zero (S := S1000x192) hz3,
    View.ld_unit_zero (S := S1000x1) hz3]

/-- CASE B's value: its one covering store's payload, whose loads read the whole buffers. -/
theorem canon3_B (c : Dev nD) (i : grid3.Coords) (arg1 : Memref sig .tc .vmem S1000x192 .f32) (harg1 : arg1.IsWhole)
    (arg2 : Memref sig .tc .vmem S1000x1 .i32) (harg2 : arg2.IsWhole) (arg3 : Memref sig .tc .vmem S512x192 .f32) (harg3 : arg3.IsWhole)
    (hc0 : ¬cond3_0 i) (x0 : Vec F S1000x192 .f32) (x1 : Vec F S1000x1 .i32) (xo : Vec F S512x192 .f32) :
    View.canon (kernelRun3_B c i arg1 harg1 arg2 harg2 arg3 harg3 hc0 x0 x1 xo).1 = out3_B x0 x1 xo := by
  unfold kernelRun3_B out3_B
  dsimp only
  sl_unfold_words
  rw [View.canon_unit_zero hz3]
  simp only [View.readAt_eq_ld, harg1.read_unread, harg2.read_unread, harg3.read_unread, View.ld_unit_zero (S := S1000x192) hz3,
    View.ld_unit_zero (S := S1000x1) hz3, View.ld_unit_zero (S := S512x192) hz3]

/-! ## What the output holds after each point -/

/-- THE ACCUMULATION. What the output's staging buffer holds after the body at point `n`: at the first point case A at
    that point's input blocks; at a later point case B at that point's input blocks over what the point before left
    (the buffer is not written back between: `before3_2_B`). -/
def outsAt3 (c : Dev nD) : (n : ℕ) → n < cfg3.N → Vec F S512x192 .f32
  | 0, hn => out3_A (iblk3 V c 0 ⟨0, hn⟩) (iblk3 V c 1 ⟨0, hn⟩)
  | n + 1, hn => out3_B (iblk3 V c 0 ⟨n + 1, hn⟩) (iblk3 V c 1 ⟨n + 1, hn⟩) (outsAt3 c n (Nat.lt_of_succ_lt hn))

theorem outsAt3_zero (c : Dev nD) (h : 0 < cfg3.N) :
    outsAt3 V c 0 h = out3_A (iblk3 V c 0 ⟨0, h⟩) (iblk3 V c 1 ⟨0, h⟩) := rfl

theorem outsAt3_succ (c : Dev nD) (n : ℕ) (h : n + 1 < cfg3.N) :
    outsAt3 V c (n + 1) h = out3_B (iblk3 V c 0 ⟨n + 1, h⟩) (iblk3 V c 1 ⟨n + 1, h⟩) (outsAt3 V c n (Nat.lt_of_succ_lt h)) := rfl

/-- `outsAt3` at the first point: case A's contents. -/
theorem outsAt3_A (c : Dev nD) (t : Fin cfg3.N) (h0 : t.val = 0) :
    outsAt3 V c t.val t.isLt = out3_A (iblk3 V c 0 t) (iblk3 V c 1 t) := by
  obtain ⟨n, hn⟩ := t
  cases n with
  | zero => rfl
  | succ n => exact absurd h0 (Nat.succ_ne_zero n)

/-- `outsAt3` at a later point: case B's contents, over what the point before left. -/
theorem outsAt3_B (c : Dev nD) (t : Fin cfg3.N) (h0 : ¬t.val = 0) :
    outsAt3 V c t.val t.isLt
      = out3_B (iblk3 V c 0 t) (iblk3 V c 1 t) (outsAt3 V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of pipeline 3 on core `c`: the arrays as the region finds them (`V`); after the body at point `t`
    each input's buffer at its block and the output's at `outsAt3`; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outsAt3 V c t.val t.isLt
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outsAt3 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- At a later point the output's staging buffer holds what the body left at the point before: the point is not the
    first, the buffer was not written back between (it is written back after the last point only), and the window is
    live and uncut. -/
theorem before3_2_B (c : Dev nD) (t : Fin cfg3.N) (h0 : ¬t.val = 0) (d) :
    (dat3 V c).before 2 t d = outsAt3 V c (t.val - 1) (Nat.lt_of_le_of_lt (Nat.sub_le _ _) t.isLt) := by
  have hN : t.val < 50 := lt_of_lt_of_eq t.isLt (show cfg3.N = 50 from N_3)
  rw [Dat.before_out_kept _ 2 rfl t h0 (Bool.eq_false_iff.mpr fun h => by have := (flush3_2 _).mp h; dsimp only at this; omega)
    (fun _ => rfl) (fun _ _ => rfl)]
  dsimp only [dat3]

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 800000 in
/-- The body at any point: the inputs' memrefs hold their blocks; the point is the first or a later one; at a later one
    the output's memref holds what the point before left; so that case's run applies, and what its pieces leave is the
    case's value. The invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  by_cases h0 : t.val = 0
  · rw [outsAt3_A V c t h0]
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t) (iblk3 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (cover3_A c _ _ _ _ _ _ _ _ _ _)).trans (canon3_A c _ _ _ _ _ _ _ _ _ _)
  · rw [outsAt3_B V c t h0]
    simp only [before3_2_B V c t h0]
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) (iblk3 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (cover3_B c _ _ _ _ _ _ _ _ _ _ _)).trans (canon3_B c _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The result array after the region -/

/-- The last point of the grid. -/
def t3_last : Fin cfg3.N := ⟨49, by rw [show cfg3.N = 50 from N_3]; decide⟩

/-- What the last point leaves in the output's staging buffer, as contents of the result array (the one block IS the
    array). -/
abbrev result3 (c : Dev nD) : Buf (Elt F) ((c : Thread nD τ).loc main_v70) :=
  outsAt3 V c 49 (by rw [show cfg3.N = 50 from N_3]; decide)

/-- The one write-back, after the last point, writes it: the block at index (0, 0) of the [512,192] array, read through
    zero offsets, is the array. -/
theorem flushed3_2 (c : Dev nD) (t : Fin cfg3.N) (hf : (cfg3.win 2).flush t = true) :
    (dat3 V c).flushed 2 t = ((cfg3.win 2).blk t).view.read (Elt F) (result3 V c) := by
  have hN : cfg3.N = 50 := N_3
  have h49 : t.val = 49 := by have := (flush3_2 t).mp hf; have := t.isLt; omega
  obtain rfl : t = t3_last := Fin.ext h49
  show (cfg3.win 2).cut (grid3.coords t3_last) ((dat3 V c).after 2 t3_last) = _
  rw [after3_2]
  have hz' : (fun a => win3_2.index t3_last a * main_v70.ty.shape.size a) = fun _ => 0 := funext fun a => by fin_cases a <;> decide
  exact (Memref.read_access_unit_zero (Elt F) main_v70 hz' (fun a => by rw [congrFun hz' a]; simp) (result3 V c)).symm

/-- So the result array ends holding what the last point leaves: that point's block covers the array. -/
theorem arrAt3_2 (c : Dev nD) :
    (dat3 V c).arrAt 2 cfg3.N = outsAt3 V c 49 (by rw [show cfg3.N = 50 from N_3]; decide) :=
  (dat3 V c).arrAt_eq_of_cover 2 (result3 V c) (flushed3_2 V c) fun i =>
    ⟨t3_last, (flush3_2 t3_last).mpr rfl, by
      show i ∈ ((View.whole main_v70).slice (win3_2.rect t3_last)).set
      rw [View.set_slice_whole, Rect.mem_set_unit]
      intro a
      have h0 : (i 0 : Nat) < 512 := (i 0).isLt
      have h1 : (i 1 : Nat) < 192 := (i 1).isLt
      match a with
      | ⟨0, _⟩ => show win3_2.index t3_last 0 * win3_2.size 0 ≤ (i 0 : Nat) ∧ (i 0 : Nat) < win3_2.index t3_last 0 * win3_2.size 0 + win3_2.xsize (grid3.coords t3_last) 0
                  rw [show win3_2.index t3_last 0 * win3_2.size 0 = 0 from by decide +kernel, show win3_2.xsize (grid3.coords t3_last) 0 = 512 from by decide +kernel]; omega
      | ⟨1, _⟩ => show win3_2.index t3_last 1 * win3_2.size 1 ≤ (i 1 : Nat) ∧ (i 1 : Nat) < win3_2.index t3_last 1 * win3_2.size 1 + win3_2.xsize (grid3.coords t3_last) 1
                  rw [show win3_2.index t3_last 1 * win3_2.size 1 = 0 from by decide +kernel, show win3_2.xsize (grid3.coords t3_last) 1 = 192 from by decide +kernel]; omega⟩

end Cert.KernelIdeal.Hand

end
-- ==== Proof.KI.Reg4.lean ====
/- REGION 4 of @main: custom_call 4, `cc4__mlp_head_kernel` (pipeline 4), a grid of one point over 7 windows
   (inputs 0..5, output 6), every block its whole array. At a parameter `V` — the TensorCore's buffer contents when
   the region is entered —: each window's block at the point, the output's buffer after the body as one whole-block
   piece, the body's triple, the pipeline's proof data and its body obligation; then the value facts: the piece read
   back is the payload itself, each block is its whole array, and the output array after the region. -/
import proofs.«415135_j5574867550247_1_alg».proof.Proof.Gen.KernelIdeal.Launch
import proofs.«415135_j5574867550247_1_alg».proof.Proof.Gen.KernelIdeal.Skeleton
import proofs.«415135_j5574867550247_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 4 of @main: custom_call 4, `cc4__mlp_head_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the index has
    not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the index has
    not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the index has
    not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x192 := Rect.unit (s := S512x192) ![0, 0] S512x192.size inb_S512x192_S512x192_0_0
abbrev r4_1 : Rect S512x1 := Rect.unit (s := S512x1) ![0, 0] S512x1.size inb_S512x1_S512x1_0_0
abbrev r4_2 : Rect S192x64 := Rect.unit (s := S192x64) ![0, 0] S192x64.size inb_S192x64_S192x64_0_0
abbrev r4_3 : Rect S1x64 := Rect.unit (s := S1x64) ![0, 0] S1x64.size inb_S1x64_S1x64_0_0
abbrev r4_4 : Rect S64x10 := Rect.unit (s := S64x10) ![0, 0] S64x10.size inb_S64x10_S64x10_0_0
abbrev r4_5 : Rect S1x10 := Rect.unit (s := S1x10) ![0, 0] S1x10.size inb_S1x10_S1x10_0_0
abbrev r4_6 : Rect S512x10 := Rect.unit (s := S512x10) ![0, 0] S512x10.size inb_S512x10_S512x10_0_0

/-! ## What the body leaves in the output window's buffer -/

/-- Window 6's staging buffer after the body, from the input windows' blocks: its one store as a piece; the payload
    is the skeleton's, at the loads of windows 1, 0, 2, 3, 4, 5 in the order the body reads them. -/
def out4_6 (x0 : Vec F S512x192 .f32) (x1 : Vec F S512x1 .f32) (x2 : Vec F S192x64 .f32) (x3 : Vec F S1x64 .f32) (x4 : Vec F S64x10 .f32) (x5 : Vec F S1x10 .f32) : Vec F S512x10 .f32 :=
  View.canon [⟨r4_6, k4_pay1 (View.ld x1 r4_1) (View.ld x0 r4_0) (View.ld x2 r4_2) (View.ld x3 r4_3) (View.ld x4 r4_4) (View.ld x5 r4_5)⟩]

/-- Its store tiles the buffer (checked by evaluation), so it covers it. -/
theorem cover4_6 (p0 : Vec F S512x10 .f32) (y : S512x10.Idx) :
    ∃ pc ∈ ([⟨r4_6, p0⟩] : List (View.Piece (Elt F) S512x10 .f32)), y ∈ pc.1.set :=
  View.cover_of_tiled [⟨r4_6, p0⟩] S512x10.size (by rfl) y

/-! ## The body's triple -/

set_option maxHeartbeats 4000000 in
/-- The kernel body on whole staging memrefs, the inputs' at read contents `xW` and the output's at anything, runs to
    the continuation holding the inputs' as they were and the output's at `out4_6` of the inputs': the printed function
    is its skeleton, run operation by operation; the load of the output's unknown contents before the store is dead. -/
theorem sound_kernel4 (c : Dev nD) (E : Set ℕ) (i : grid4.Coords) (arg1 : Memref sig .tc .vmem S512x192 .f32) (harg1 : arg1.IsWhole) (arg2 : Memref sig .tc .vmem S512x1 .f32) (harg2 : arg2.IsWhole) (arg3 : Memref sig .tc .vmem S192x64 .f32) (harg3 : arg3.IsWhole) (arg4 : Memref sig .tc .vmem S1x64 .f32) (harg4 : arg4.IsWhole) (arg5 : Memref sig .tc .vmem S64x10 .f32) (harg5 : arg5.IsWhole) (arg6 : Memref sig .tc .vmem S1x10 .f32) (harg6 : arg6.IsWhole) (arg7 : Memref sig .tc .vmem S512x10 .f32) (harg7 : arg7.IsWhole)
    (x0 : Vec F S512x192 .f32) (x1 : Vec F S512x1 .f32) (x2 : Vec F S192x64 .f32) (x3 : Vec F S1x64 .f32) (x4 : Vec F S64x10 .f32) (x5 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_head_kernel i arg1 harg1 arg2 harg2 arg3 harg3 arg4 harg4 arg5 harg5 arg6 harg6 arg7 harg7) K := by
  simp only [cc4__mlp_head_kernel_eq_skeleton]; unfold cc4__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of pipeline 4 on core `c`: the arrays as the region finds them (`V`); after the body at
    point `t` each input's buffer at its block and the output's at `out4_6` of the input blocks; the invariant the
    class's (the scoped rest and the pseudo-random register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

set_option maxHeartbeats 1000000 in
/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The value: the piece read back, each block as its whole array, the output array after the region -/

/-- Every access of the body is at offsets zero. -/
theorem offsets_zero4 : (![0, 0] : Fin 2 → Nat) = fun _ => 0 := funext fun a => by fin_cases a <;> rfl

/-- The output's buffer after the body is the payload itself at the inputs' buffers: one store through the whole
    block leaves its payload, and a load through the whole block reads the contents. -/
theorem out4_6_eq (x0 : Vec F S512x192 .f32) (x1 : Vec F S512x1 .f32) (x2 : Vec F S192x64 .f32) (x3 : Vec F S1x64 .f32) (x4 : Vec F S64x10 .f32) (x5 : Vec F S1x10 .f32) :
    out4_6 x0 x1 x2 x3 x4 x5 = k4_pay1 x1 x0 x2 x3 x4 x5 := by
  unfold out4_6
  rw [View.canon_unit_zero offsets_zero4]
  simp only [View.ld_unit_zero (S := S512x192) offsets_zero4, View.ld_unit_zero (S := S512x1) offsets_zero4, View.ld_unit_zero (S := S192x64) offsets_zero4, View.ld_unit_zero (S := S1x64) offsets_zero4, View.ld_unit_zero (S := S64x10) offsets_zero4, View.ld_unit_zero (S := S1x10) offsets_zero4]

/-- The printed index maps, decided over the grid: every window's block index is zero on both axes. -/
theorem index_zero4 : ∀ t : Fin cfg4.N,
    win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0 :=
  (by decide +kernel : ∀ t : Fin grid4.N, _)

/-! Each input block is its whole array: a block's coordinate is index × size + 1 × the coordinate inside the block,
    and the index is zero. -/

theorem iblk4_0_eq (c : Dev nD) (t : Fin cfg4.N) :
    (iblk4 V c 0 t : Vec F S512x192 .f32) = (V c main_v70 : S512x192.Idx → Elt F .f32) := by
  obtain ⟨e00, e01, e10, e11, e20, e21, e30, e31, e40, e41, e50, e51, e60, e61⟩ := index_zero4 t
  funext y
  show V c main_v70 (((cfg4.win 0).blk t).view.emb y) = V c main_v70 y
  refine congrArg _ ?_
  funext a; apply Fin.ext
  match a with
  | ⟨0, _⟩ => show win4_0.index t (0 : Fin 2) * 512 + 1 * (y 0).val = (y 0).val; omega
  | ⟨1, _⟩ => show win4_0.index t (1 : Fin 2) * 192 + 1 * (y 1).val = (y 1).val; omega

theorem iblk4_1_eq (c : Dev nD) (t : Fin cfg4.N) :
    (iblk4 V c 1 t : Vec F S512x1 .f32) = (V c main_v82 : S512x1.Idx → Elt F .f32) := by
  obtain ⟨e00, e01, e10, e11, e20, e21, e30, e31, e40, e41, e50, e51, e60, e61⟩ := index_zero4 t
  funext y
  show V c main_v82 (((cfg4.win 1).blk t).view.emb y) = V c main_v82 y
  refine congrArg _ ?_
  funext a; apply Fin.ext
  match a with
  | ⟨0, _⟩ => show win4_1.index t (0 : Fin 2) * 512 + 1 * (y 0).val = (y 0).val; omega
  | ⟨1, _⟩ => show win4_1.index t (1 : Fin 2) * 1 + 1 * (y 1).val = (y 1).val; omega

theorem iblk4_2_eq (c : Dev nD) (t : Fin cfg4.N) :
    (iblk4 V c 2 t : Vec F S192x64 .f32) = (V c main_arg14 : S192x64.Idx → Elt F .f32) := by
  obtain ⟨e00, e01, e10, e11, e20, e21, e30, e31, e40, e41, e50, e51, e60, e61⟩ := index_zero4 t
  funext y
  show V c main_arg14 (((cfg4.win 2).blk t).view.emb y) = V c main_arg14 y
  refine congrArg _ ?_
  funext a; apply Fin.ext
  match a with
  | ⟨0, _⟩ => show win4_2.index t (0 : Fin 2) * 192 + 1 * (y 0).val = (y 0).val; omega
  | ⟨1, _⟩ => show win4_2.index t (1 : Fin 2) * 64 + 1 * (y 1).val = (y 1).val; omega

theorem iblk4_3_eq (c : Dev nD) (t : Fin cfg4.N) :
    (iblk4 V c 3 t : Vec F S1x64 .f32) = (V c main_v83 : S1x64.Idx → Elt F .f32) := by
  obtain ⟨e00, e01, e10, e11, e20, e21, e30, e31, e40, e41, e50, e51, e60, e61⟩ := index_zero4 t
  funext y
  show V c main_v83 (((cfg4.win 3).blk t).view.emb y) = V c main_v83 y
  refine congrArg _ ?_
  funext a; apply Fin.ext
  match a with
  | ⟨0, _⟩ => show win4_3.index t (0 : Fin 2) * 1 + 1 * (y 0).val = (y 0).val; omega
  | ⟨1, _⟩ => show win4_3.index t (1 : Fin 2) * 64 + 1 * (y 1).val = (y 1).val; omega

theorem iblk4_4_eq (c : Dev nD) (t : Fin cfg4.N) :
    (iblk4 V c 4 t : Vec F S64x10 .f32) = (V c main_arg16 : S64x10.Idx → Elt F .f32) := by
  obtain ⟨e00, e01, e10, e11, e20, e21, e30, e31, e40, e41, e50, e51, e60, e61⟩ := index_zero4 t
  funext y
  show V c main_arg16 (((cfg4.win 4).blk t).view.emb y) = V c main_arg16 y
  refine congrArg _ ?_
  funext a; apply Fin.ext
  match a with
  | ⟨0, _⟩ => show win4_4.index t (0 : Fin 2) * 64 + 1 * (y 0).val = (y 0).val; omega
  | ⟨1, _⟩ => show win4_4.index t (1 : Fin 2) * 10 + 1 * (y 1).val = (y 1).val; omega

theorem iblk4_5_eq (c : Dev nD) (t : Fin cfg4.N) :
    (iblk4 V c 5 t : Vec F S1x10 .f32) = (V c main_v84 : S1x10.Idx → Elt F .f32) := by
  obtain ⟨e00, e01, e10, e11, e20, e21, e30, e31, e40, e41, e50, e51, e60, e61⟩ := index_zero4 t
  funext y
  show V c main_v84 (((cfg4.win 5).blk t).view.emb y) = V c main_v84 y
  refine congrArg _ ?_
  funext a; apply Fin.ext
  match a with
  | ⟨0, _⟩ => show win4_5.index t (0 : Fin 2) * 1 + 1 * (y 0).val = (y 0).val; omega
  | ⟨1, _⟩ => show win4_5.index t (1 : Fin 2) * 10 + 1 * (y 1).val = (y 1).val; omega

/-- What the one point writes back is the whole of `out4_6` of the input blocks, read as its block. -/
theorem flushed4_6_eq (c : Dev nD) (t : Fin cfg4.N) :
    (dat4 V c).flushed 6 t = ((cfg4.win 6).blk t).view.read (Elt F) (out4_6 (iblk4 V c 0 t4_0) (iblk4 V c 1 t4_0) (iblk4 V c 2 t4_0) (iblk4 V c 3 t4_0) (iblk4 V c 4 t4_0) (iblk4 V c 5 t4_0)) := by
  obtain rfl := fin_N4 t
  obtain ⟨e00, e01, e10, e11, e20, e21, e30, e31, e40, e41, e50, e51, e60, e61⟩ := index_zero4 t4_0
  show (cfg4.win 6).cut (grid4.coords t4_0) ((dat4 V c).after 6 t4_0) = _
  rw [after4_6]
  funext j
  show out4_6 (iblk4 V c 0 t4_0) (iblk4 V c 1 t4_0) (iblk4 V c 2 t4_0) (iblk4 V c 3 t4_0) (iblk4 V c 4 t4_0) (iblk4 V c 5 t4_0) ((cfg4.win 6).xinj (grid4.coords t4_0) j)
    = out4_6 (iblk4 V c 0 t4_0) (iblk4 V c 1 t4_0) (iblk4 V c 2 t4_0) (iblk4 V c 3 t4_0) (iblk4 V c 4 t4_0) (iblk4 V c 5 t4_0) (((cfg4.win 6).blk t4_0).view.emb j)
  refine congrArg _ ?_
  funext a; apply Fin.ext
  match a with
  | ⟨0, _⟩ => show (j 0).val = win4_6.index t4_0 (0 : Fin 2) * 512 + 1 * (j 0).val; omega
  | ⟨1, _⟩ => show (j 1).val = win4_6.index t4_0 (1 : Fin 2) * 10 + 1 * (j 1).val; omega

/-- Every index of the output array is in the one point's block. -/
theorem mem_blk4_6 (i : S512x10.Idx) : i ∈ ((cfg4.win 6).blk t4_0).view.set := by
  obtain ⟨e00, e01, e10, e11, e20, e21, e30, e31, e40, e41, e50, e51, e60, e61⟩ := index_zero4 t4_0
  show i ∈ ((View.whole main_v85).slice (win4_6.rect t4_0)).set
  rw [View.set_slice_whole, Rect.mem_set_unit]
  intro a
  match a with
  | ⟨0, _⟩ => show win4_6.index t4_0 (0 : Fin 2) * 512 ≤ (i 0).val ∧ (i 0).val < win4_6.index t4_0 (0 : Fin 2) * 512 + 512; have hi : (i 0).val < 512 := (i 0).isLt; omega
  | ⟨1, _⟩ => show win4_6.index t4_0 (1 : Fin 2) * 10 ≤ (i 1).val ∧ (i 1).val < win4_6.index t4_0 (1 : Fin 2) * 10 + 10; have hi : (i 1).val < 10 := (i 1).isLt; omega

/-- The output array after the region: one point, one whole-array block written back. -/
theorem arrAt4_6 (c : Dev nD) :
    (dat4 V c).arrAt 6 cfg4.N = out4_6 (iblk4 V c 0 t4_0) (iblk4 V c 1 t4_0) (iblk4 V c 2 t4_0) (iblk4 V c 3 t4_0) (iblk4 V c 4 t4_0) (iblk4 V c 5 t4_0) :=
  (dat4 V c).arrAt_eq_of_cover 6 _ (fun t _ => flushed4_6_eq V c t) (fun i => ⟨t4_0, flush4_6 t4_0, mem_blk4_6 i⟩)

end Regions

end Cert.KernelIdeal.Hand

end
-- ==== Proof.KI.Outs.lean ====
/- The buffer contents between @main's items, with every region's result named: the launch contents carried through the
   host stretches, each region's result array replaced by what its pipeline's write-backs leave, the pipeline's data
   taken at the contents the region is entered with; the family of all five pipelines' proof data; and the agreement of
   these contents with the conditional frame's, once the contents the regions leave are chosen to be these. -/
import proofs.«415135_j5574867550247_1_alg».proof.Proof.KI.RunCond
import proofs.«415135_j5574867550247_1_alg».proof.Proof.KI.Reg0
import proofs.«415135_j5574867550247_1_alg».proof.Proof.KI.Reg1
import proofs.«415135_j5574867550247_1_alg».proof.Proof.KI.Reg2
import proofs.«415135_j5574867550247_1_alg».proof.Proof.KI.Reg3
import proofs.«415135_j5574867550247_1_alg».proof.Proof.KI.Reg4

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

/-- A valuation of core `c`'s buffers read at the TensorCore's references. -/
abbrev atTc (W : Dev nD → Valuation τ sig (Elt F)) : (c : Dev nD) → (b : Ref sig .tc) → Buf (Elt F) ((c : Thread nD τ).loc b) :=
  fun c b => W c b

/-- After the first host stretch (region 0's entry). -/
def U1 (c : Dev nD) : Valuation τ sig (Elt F) := V1 m c
/-- Region 0's result array after its pipeline. -/
def res0 (c : Dev nD) : Buf (Elt F) ((c : Thread nD τ).loc main_v25) :=
  Pipeline.withArrays spec0 c (U1 m c) (fun w => (dat0 (atTc (U1 m)) c).arrAt w cfg0.N) (Proc.devRef .tc main_v25)
/-- After region 0. -/
def U2 (c : Dev nD) : Valuation τ sig (Elt F) := Function.update (U1 m c) main_v25 (res0 m c)
/-- After the second host stretch (region 1's entry). -/
def U3 (c : Dev nD) : Valuation τ sig (Elt F) := StableHlo.after hostOps1 (U2 m c)
def res1 (c : Dev nD) : Buf (Elt F) ((c : Thread nD τ).loc main_v46) :=
  Pipeline.withArrays spec1 c (U3 m c) (fun w => (dat1 (atTc (U3 m)) c).arrAt w cfg1.N) (Proc.devRef .tc main_v46)
def U4 (c : Dev nD) : Valuation τ sig (Elt F) := Function.update (U3 m c) main_v46 (res1 m c)
def U5 (c : Dev nD) : Valuation τ sig (Elt F) := StableHlo.after hostOps2 (U4 m c)
def res2 (c : Dev nD) : Buf (Elt F) ((c : Thread nD τ).loc main_v67) :=
  Pipeline.withArrays spec2 c (U5 m c) (fun w => (dat2 (atTc (U5 m)) c).arrAt w cfg2.N) (Proc.devRef .tc main_v67)
def U6 (c : Dev nD) : Valuation τ sig (Elt F) := Function.update (U5 m c) main_v67 (res2 m c)
def U7 (c : Dev nD) : Valuation τ sig (Elt F) := StableHlo.after hostOps3 (U6 m c)
def res3 (c : Dev nD) : Buf (Elt F) ((c : Thread nD τ).loc main_v70) :=
  Pipeline.withArrays spec3 c (U7 m c) (fun w => (dat3 (atTc (U7 m)) c).arrAt w cfg3.N) (Proc.devRef .tc main_v70)
def U8 (c : Dev nD) : Valuation τ sig (Elt F) := Function.update (U7 m c) main_v70 (res3 m c)
def U9 (c : Dev nD) : Valuation τ sig (Elt F) := StableHlo.after hostOps4 (U8 m c)
def U10 (c : Dev nD) : Valuation τ sig (Elt F) := StableHlo.after hostOps4_1 (U9 m c)
def U11 (c : Dev nD) : Valuation τ sig (Elt F) := StableHlo.after hostOps4_2 (U10 m c)
def res4 (c : Dev nD) : Buf (Elt F) ((c : Thread nD τ).loc main_v85) :=
  Pipeline.withArrays spec4 c (U11 m c) (fun w => (dat4 (atTc (U11 m)) c).arrAt w cfg4.N) (Proc.devRef .tc main_v85)
def U12 (c : Dev nD) : Valuation τ sig (Elt F) := Function.update (U11 m c) main_v85 (res4 m c)

/-- The contents the regions leave, as the conditional frame asks for them: after item J−1 the contents `UJ`. -/
def outsAll : Outs (F := F) := fun j r c =>
  match j with
  | 2 => U2 m c r
  | 4 => U4 m c r
  | 6 => U6 m c r
  | 8 => U8 m c r
  | _ => U12 m c r

/-! With that choice the conditional frame's contents between items are these. -/

theorem V1U (c : Dev nD) : V1 m c = U1 m c := rfl
theorem V2U (c : Dev nD) : V2 m (outsAll m) c = U2 m c := by
  show Function.update (V1 m c) main_v25 (U2 m c main_v25) = U2 m c
  unfold U2; rw [Function.update_self]; rfl
theorem V3U (c : Dev nD) : V3 m (outsAll m) c = U3 m c := by
  show StableHlo.after hostOps1 (V2 m (outsAll m) c) = _; rw [V2U]; rfl
theorem V4U (c : Dev nD) : V4 m (outsAll m) c = U4 m c := by
  show Function.update (V3 m (outsAll m) c) main_v46 (U4 m c main_v46) = U4 m c
  rw [V3U]; unfold U4; rw [Function.update_self]
theorem V5U (c : Dev nD) : V5 m (outsAll m) c = U5 m c := by
  show StableHlo.after hostOps2 (V4 m (outsAll m) c) = _; rw [V4U]; rfl
theorem V6U (c : Dev nD) : V6 m (outsAll m) c = U6 m c := by
  show Function.update (V5 m (outsAll m) c) main_v67 (U6 m c main_v67) = U6 m c
  rw [V5U]; unfold U6; rw [Function.update_self]
theorem V7U (c : Dev nD) : V7 m (outsAll m) c = U7 m c := by
  show StableHlo.after hostOps3 (V6 m (outsAll m) c) = _; rw [V6U]; rfl
theorem V8U (c : Dev nD) : V8 m (outsAll m) c = U8 m c := by
  show Function.update (V7 m (outsAll m) c) main_v70 (U8 m c main_v70) = U8 m c
  rw [V7U]; unfold U8; rw [Function.update_self]
theorem V9U (c : Dev nD) : V9 m (outsAll m) c = U9 m c := by
  show StableHlo.after hostOps4 (V8 m (outsAll m) c) = _; rw [V8U]; rfl
theorem V10U (c : Dev nD) : V10 m (outsAll m) c = U10 m c := by
  show StableHlo.after hostOps4_1 (V9 m (outsAll m) c) = _; rw [V9U]; rfl
theorem V11U (c : Dev nD) : V11 m (outsAll m) c = U11 m c := by
  show StableHlo.after hostOps4_2 (V10 m (outsAll m) c) = _; rw [V10U]; rfl
theorem V12U (c : Dev nD) : V12 m (outsAll m) c = U12 m c := by
  show Function.update (V11 m (outsAll m) c) main_v85 (U12 m c main_v85) = U12 m c
  rw [V11U]; unfold U12; rw [Function.update_self]

/-- No variant is needed, no core owes another anything: no level is assigned. -/
abbrev 𝒱z : Variants := Variants.none
abbrev Lz : GSem nD τ sig → Finset Unit := fun _ => ∅
abbrev lvz : GSem nD τ sig → Unit → ℕ := fun _ _ => 0

/-- What rides beside the buffers through every segment: the core's generator register at some state and its
    dues, which are none. -/
abbrev Rr (c : Dev nD) : sProp (MT nD τ sig Unit (Elt F) ℕ (UR sig nD τ) ℕ) :=
  iprop((∃ r, prngReg c r) ∗ ∃ W, owes (c : Thread nD τ) (0 : CellTallies nD τ sig Unit) W)

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U11 m)) c

end Cert.KernelIdeal.Hand

end
-- ==== Proof.KI.Run.lean ====
/- THE RUN of the program with its result named: the launch of @main's host stretches and five kernel regions over the
   regions' segment records; every weakly fair execution terminates, the argument arrays end as launched, and the result
   array ends at what the last region's pipeline leaves. -/
import proofs.«415135_j5574867550247_1_alg».proof.Proof.KI.RegSeg0
import proofs.«415135_j5574867550247_1_alg».proof.Proof.KI.RegSeg1
import proofs.«415135_j5574867550247_1_alg».proof.Proof.KI.RegSeg2
import proofs.«415135_j5574867550247_1_alg».proof.Proof.KI.RegSeg3
import proofs.«415135_j5574867550247_1_alg».proof.Proof.KI.RegSeg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from memory `m` with zero counters terminates; every argument array ends as
    launched; the result array ends at the contents the last boundary holds for it. -/
theorem run_main : θ_run defs (onTc (τ := τ) (main (F := F))) ⟨m, fun _ => 0, ρ⟩ (fun r => ∀ c : Dev nD,
      r.2.mem ((c.tc : Thread nD τ).loc main_v85) = V12 m (outsAll m) c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_cond m (Ix := Unit) (U := UR sig nD τ) (Lvl := ℕ) emb₁ () 𝒱z Lz lvz (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m) (fun c => by rw [V1U]; exact .rfl) (fun c => by rw [V2U]; exact .rfl)
    (reg1 m) (fun c => by rw [V3U]; exact .rfl) (fun c => by rw [V4U]; exact .rfl)
    (reg2 m) (fun c => by rw [V5U]; exact .rfl) (fun c => by rw [V6U]; exact .rfl)
    (reg3 m) (fun c => by rw [V7U]; exact .rfl) (fun c => by rw [V8U]; exact .rfl)
    (reg4 m) (fun c => by rw [V11U]; exact .rfl) (fun c => by rw [V12U]; exact .rfl)

/-- What the last boundary holds for the result array: the last region's output array after its pipeline. -/
theorem result_eq (c : Dev nD) :
    V12 m (outsAll m) c main_v85 = (dat4 (atTc (U11 m)) c).arrAt 6 cfg4.N := by
  rw [V12U]; exact (hF4 m c 6).symm

end Cert.KernelIdeal.Hand

end
-- ==== Proof.Spec.lean ====
/-
  What the program computes, as functions of coordinates over the extended reals.

  A graph network: three rounds of "average the neighbours' rows, mix with the node's own row by two 64×64
  matrices and a bias, apply a shared 64×64 matrix and bias, take the positive part"; the three results side by
  side (192 columns); their rows summed per graph label and divided by the label's count (at least 1); a two-layer
  perceptron on each of the 512 graphs. Every function here is over explicit coordinates (row, column), so that a
  statement about an array reads `arr (ix2 p q) = f … p q`.
-/
import Idealize.ShloMosaic.PureOps.Ideal
import Idealize.ShloMosaic.Lib.ValueIdx

noncomputable section

open scoped BigOperators

namespace Cert.Spec

open Idealize.ShloMosaic

/-- The zero and the one of the programs, as the binary words they are printed with. -/
abbrev z32 : EReal := Ideal.ofBits .f32 0x00000000#32
abbrev o32 : EReal := Ideal.ofBits .f32 0x3F800000#32

/-- One round on ONE row, column `q`: from the row `mr` of neighbour means and the node's own row `xr`, with
    `a = mr·wl + bl + xr·wr` (a row of 64), the positive part of `a·wm + bm`. -/
def sageRow (mr xr : Fin 64 → EReal) (wl : Fin 64 → Fin 64 → EReal) (bl : Fin 64 → EReal)
    (wr wm : Fin 64 → Fin 64 → EReal) (bm : Fin 64 → EReal) (q : Fin 64) : EReal :=
  max ((∑ k : Fin 64, ((∑ j : Fin 64, mr j * wl j k) + bl k + ∑ j : Fin 64, xr j * wr j k) * wm k q) + bm q) z32

/-- One round on the whole arrays: row `p` of the result depends on row `p` of `mean` and of `x` only. -/
def sage (mean x : Fin 50000 → Fin 64 → EReal) (wl : Fin 64 → Fin 64 → EReal) (bl : Fin 64 → EReal)
    (wr wm : Fin 64 → Fin 64 → EReal) (bm : Fin 64 → EReal) (p : Fin 50000) (q : Fin 64) : EReal :=
  sageRow (mean p) (x p) wl bl wr wm bm q

/-- Three 64-column arrays side by side. -/
def cat3 (a b c : Fin 50000 → Fin 64 → EReal) (p : Fin 50000) (d : Fin 192) : EReal :=
  if h : d.val < 64 then a p ⟨d.val, h⟩
  else if h2 : d.val < 128 then b p ⟨d.val - 64, by omega⟩
  else c p ⟨d.val - 128, by omega⟩

/-- The rows whose label is `g`, summed column by column. A label outside [0, 512) names no graph. -/
def pool (h : Fin 50000 → Fin 192 → EReal) (lab : Fin 50000 → Int) (g : Fin 512) (d : Fin 192) : EReal :=
  ∑ n : Fin 50000, if lab n = (g.val : Int) then h n d else 0

/-- How many rows carry the label `g`. -/
def count (lab : Fin 50000 → Int) (g : Fin 512) : EReal :=
  ∑ n : Fin 50000, if lab n = (g.val : Int) then (1 : EReal) else 0

/-- The perceptron on graph `g`, output `o`: the pooled row divided by the count (at least one), a 192×64 layer with
    bias and positive part, a 64×10 layer with bias. -/
def head (gs : Fin 512 → Fin 192 → EReal) (cnt : Fin 512 → EReal) (w1 : Fin 192 → Fin 64 → EReal) (b1 : Fin 64 → EReal)
    (w2 : Fin 64 → Fin 10 → EReal) (b2 : Fin 10 → EReal) (g : Fin 512) (o : Fin 10) : EReal :=
  (∑ k : Fin 64, max ((∑ j : Fin 192, Ideal.div (gs g j) (max (cnt g) o32) * w1 j k) + b1 k) z32 * w2 k o) + b2 o

end Cert.Spec

end
-- ==== Proof.KI.SagePay.lean ====
/-
  One round of the graph network on one block of 5000 rows, read at an element.

  The body of each of the three rounds' kernels computes, from a block `m` of neighbour means and the block `x` of the
  nodes' own rows (5000 × 64 each), three 64 × 64 matrices `wl`, `wr`, `wm` and two rows `bl`, `bm` of 64,
      h   = m · wl + bl + x · wr          (the row `bl` repeated down the 5000 rows)
      out = max (h · wm + bm, 0).
  Over the extended reals every product is the plain sum over the 64 contracted coordinates and a change of number
  format is the identity, so the element (p, q) of `out` is `Cert.Spec.sageRow` of row `p` of `m` and of `x`.
-/
import proofs.«415135_j5574867550247_1_alg».proof.Proof.Gen.KernelIdeal.Skeleton
import proofs.«415135_j5574867550247_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-! ## The product of a 5000 × 64 block with a 64 × 64 matrix, read at an element -/

/-- The left operand's index at output index `i` and contraction index `c`: its row is the output's row … -/
theorem lhs_sageDot_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and its column the contracted coordinate. -/
theorem lhs_sageDot_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index: its row is the contracted coordinate … -/
theorem rhs_sageDot_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … and its column the output's column. -/
theorem rhs_sageDot_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at (p, q): the sum over the 64 contracted coordinates `k` of the left
    operand at (p, k) times the right operand at (k, q). -/
theorem sageDot_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs_sageDot_0 _ _
    | ⟨1, _⟩ => exact (lhs_sageDot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs_sageDot_0 _ _).trans hk
    | ⟨1, _⟩ => exact rhs_sageDot_1 _ _)
  rw [el, er]

/-! ## The three rounds' payloads at an element -/

/-- The first round's payload at (p, q). -/
theorem sagePay0_apply (x0 x1 : Vec Ideal S5000x64 .f32) (x2 x4 x5 : Vec Ideal S64x64 .f32) (x3 x6 : Vec Ideal S1x64 .f32) (p : Fin 5000) (q : Fin 64) :
    k0_pay1 (F := Ideal) x0 x1 x2 x4 x5 x3 x6 (ix2 p q)
      = Cert.Spec.sageRow (fun j => x0 (ix2 p j)) (fun j => x1 (ix2 p j)) (fun j k => x2 (ix2 j k)) (fun k => x3 (ix2 (0 : Fin 1) k))
          (fun j k => x4 (ix2 j k)) (fun j k => x5 (ix2 j k)) (fun k => x6 (ix2 (0 : Fin 1) k)) q := by
  unfold k0_pay1 Cert.Spec.sageRow
  simp only [shapeCast_self]
  rw [maximumf_apply, addf_apply, sageDot_apply, broadcastTo_1b_ab_apply, broadcast_apply]
  simp only [truncf_apply, addf_apply, sageDot_apply, broadcastTo_1b_ab_apply]
  rfl

/-- The second round's payload at (p, q). -/
theorem sagePay1_apply (x0 x1 : Vec Ideal S5000x64 .f32) (x2 x4 x5 : Vec Ideal S64x64 .f32) (x3 x6 : Vec Ideal S1x64 .f32) (p : Fin 5000) (q : Fin 64) :
    k1_pay1 (F := Ideal) x0 x1 x2 x4 x5 x3 x6 (ix2 p q)
      = Cert.Spec.sageRow (fun j => x0 (ix2 p j)) (fun j => x1 (ix2 p j)) (fun j k => x2 (ix2 j k)) (fun k => x3 (ix2 (0 : Fin 1) k))
          (fun j k => x4 (ix2 j k)) (fun j k => x5 (ix2 j k)) (fun k => x6 (ix2 (0 : Fin 1) k)) q := by
  unfold k1_pay1 Cert.Spec.sageRow
  simp only [shapeCast_self]
  rw [maximumf_apply, addf_apply, sageDot_apply, broadcastTo_1b_ab_apply, broadcast_apply]
  simp only [truncf_apply, addf_apply, sageDot_apply, broadcastTo_1b_ab_apply]
  rfl

/-- The third round's payload at (p, q). -/
theorem sagePay2_apply (x0 x1 : Vec Ideal S5000x64 .f32) (x2 x4 x5 : Vec Ideal S64x64 .f32) (x3 x6 : Vec Ideal S1x64 .f32) (p : Fin 5000) (q : Fin 64) :
    k2_pay1 (F := Ideal) x0 x1 x2 x4 x5 x3 x6 (ix2 p q)
      = Cert.Spec.sageRow (fun j => x0 (ix2 p j)) (fun j => x1 (ix2 p j)) (fun j k => x2 (ix2 j k)) (fun k => x3 (ix2 (0 : Fin 1) k))
          (fun j k => x4 (ix2 j k)) (fun j k => x5 (ix2 j k)) (fun k => x6 (ix2 (0 : Fin 1) k)) q := by
  unfold k2_pay1 Cert.Spec.sageRow
  simp only [shapeCast_self]
  rw [maximumf_apply, addf_apply, sageDot_apply, broadcastTo_1b_ab_apply, broadcast_apply]
  simp only [truncf_apply, addf_apply, sageDot_apply, broadcastTo_1b_ab_apply]
  rfl

end Cert.KernelIdeal.Hand

end
-- ==== Proof.KI.SageVal0.lean ====
/- The first round's output array after REGION 0, read at an element: the ten blocks of 5000 rows the region writes back
   tile the 50000 × 64 array, and block `t` holds, at (y, q), one round of the graph network on row 5000·t + y of the two
   50000 × 64 input arrays with the five small arrays whole. So the array at (p, q) is `Cert.Spec.sage` of the region-entry
   arrays at (p, q). -/
import proofs.«415135_j5574867550247_1_alg».proof.Proof.KI.Reg0
import proofs.«415135_j5574867550247_1_alg».proof.Proof.KI.SagePay
import proofs.«415135_j5574867550247_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## One block of the round, over plain arrays -/

/-- One round on the whole arrays as ONE function of the array index. -/
def sageArr (a0 a1 : Vec Ideal S50000x64 .f32) (a2 : Vec Ideal S64x64 .f32) (a3 : Vec Ideal S1x64 .f32)
    (a4 a5 : Vec Ideal S64x64 .f32) (a6 : Vec Ideal S1x64 .f32) : Vec Ideal S50000x64 .f32 :=
  fun i => Cert.Spec.sage (fun p j => a0 (ix2 p j)) (fun p j => a1 (ix2 p j)) (fun j k => a2 (ix2 j k)) (fun k => a3 (ix2 (0 : Fin 1) k))
    (fun j k => a4 (ix2 j k)) (fun j k => a5 (ix2 j k)) (fun k => a6 (ix2 (0 : Fin 1) k)) (i 0) (i 1)

/-- It reads at (p, q) as the specification does. -/
theorem sageArr_apply (a0 a1 : Vec Ideal S50000x64 .f32) (a2 : Vec Ideal S64x64 .f32) (a3 : Vec Ideal S1x64 .f32)
    (a4 a5 : Vec Ideal S64x64 .f32) (a6 : Vec Ideal S1x64 .f32) (p : Fin 50000) (q : Fin 64) :
    sageArr a0 a1 a2 a3 a4 a5 a6 (ix2 p q)
      = Cert.Spec.sage (fun p j => a0 (ix2 p j)) (fun p j => a1 (ix2 p j)) (fun j k => a2 (ix2 j k)) (fun k => a3 (ix2 (0 : Fin 1) k))
          (fun j k => a4 (ix2 j k)) (fun j k => a5 (ix2 j k)) (fun k => a6 (ix2 (0 : Fin 1) k)) p q := rfl

/-- The body's payload on blocks `x0`, `x1` whose row `y` is row `P` of the arrays `a0`, `a1`, at (y, q), is the round on the
    whole arrays at (P, q): a row of the result depends on that row of the two large inputs only. -/
theorem sagePay0_block (x0 x1 : Vec Ideal S5000x64 .f32) (x2 : Vec Ideal S64x64 .f32) (x3 : Vec Ideal S1x64 .f32)
    (x4 x5 : Vec Ideal S64x64 .f32) (x6 : Vec Ideal S1x64 .f32) (a0 a1 : Vec Ideal S50000x64 .f32)
    (y : Fin 5000) (P : Fin 50000) (q : Fin 64)
    (h0 : ∀ j : Fin 64, x0 (ix2 y j) = a0 (ix2 P j)) (h1 : ∀ j : Fin 64, x1 (ix2 y j) = a1 (ix2 P j)) :
    k0_pay1 (F := Ideal) x0 x1 x2 x4 x5 x3 x6 (ix2 y q) = sageArr a0 a1 x2 x3 x4 x5 x6 (ix2 P q) := by
  rw [sagePay0_apply, sageArr_apply]
  unfold Cert.Spec.sage
  simp only [h0, h1]

/-! ## The index maps -/

/-- The printed index maps, decided over the grid: the two large inputs and the output move down the rows with the grid
    point, the five small inputs stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-! ## The input blocks at a point, read off the arrays -/

/-- Window 0's block at point `t`, at (y, j), is its array at row 5000·t + y. -/
theorem iblk0_0_apply (c : Dev nD) (t : Fin cfg0.N) (y : Fin 5000) (P : Fin 50000) (hP : P.val = 5000 * t.val + y.val) (j : Fin 64) :
    (iblk0 V c 0 t : Vec Ideal S5000x64 .f32) (ix2 y j) = (V c main_v22 : Vec Ideal S50000x64 .f32) (ix2 P j) := by
  obtain ⟨e0, e1, -⟩ := idx_facts0 t
  unfold iblk0
  rw [View.read_apply]
  show (V c main_v22 : Vec Ideal S50000x64 .f32) _ = _
  congr 1
  funext a
  apply Fin.ext
  match a with
  | ⟨0, _⟩ => show win0_0.index t (0 : Fin 2) * 5000 + 1 * y.val = P.val; omega
  | ⟨1, _⟩ => show win0_0.index t (1 : Fin 2) * 64 + 1 * j.val = j.val; omega

/-- Window 1's block at point `t`, at (y, j), is its array at row 5000·t + y. -/
theorem iblk0_1_apply (c : Dev nD) (t : Fin cfg0.N) (y : Fin 5000) (P : Fin 50000) (hP : P.val = 5000 * t.val + y.val) (j : Fin 64) :
    (iblk0 V c 1 t : Vec Ideal S5000x64 .f32) (ix2 y j) = (V c main_arg0 : Vec Ideal S50000x64 .f32) (ix2 P j) := by
  obtain ⟨-, -, e0, e1, -⟩ := idx_facts0 t
  unfold iblk0
  rw [View.read_apply]
  show (V c main_arg0 : Vec Ideal S50000x64 .f32) _ = _
  congr 1
  funext a
  apply Fin.ext
  match a with
  | ⟨0, _⟩ => show win0_1.index t (0 : Fin 2) * 5000 + 1 * y.val = P.val; omega
  | ⟨1, _⟩ => show win0_1.index t (1 : Fin 2) * 64 + 1 * j.val = j.val; omega

/-- Window 2's block at every point is its whole array. -/
theorem iblk0_2_eq (c : Dev nD) (t : Fin cfg0.N) : (iblk0 V c 2 t : Vec Ideal S64x64 .f32) = (V c main_arg3 : Vec Ideal S64x64 .f32) := by
  obtain ⟨-, -, -, -, e0, e1, -⟩ := idx_facts0 t
  funext y
  unfold iblk0
  rw [View.read_apply]
  show (V c main_arg3 : Vec Ideal S64x64 .f32) _ = _
  congr 1
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Window 3's block at every point is its whole array. -/
theorem iblk0_3_eq (c : Dev nD) (t : Fin cfg0.N) : (iblk0 V c 3 t : Vec Ideal S1x64 .f32) = (V c main_v23 : Vec Ideal S1x64 .f32) := by
  obtain ⟨-, -, -, -, -, -, e0, e1, -⟩ := idx_facts0 t
  funext y
  unfold iblk0
  rw [View.read_apply]
  show (V c main_v23 : Vec Ideal S1x64 .f32) _ = _
  congr 1
  funext a
  apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is its whole array. -/
theorem iblk0_4_eq (c : Dev nD) (t : Fin cfg0.N) : (iblk0 V c 4 t : Vec Ideal S64x64 .f32) = (V c main_arg5 : Vec Ideal S64x64 .f32) := by
  obtain ⟨-, -, -, -, -, -, -, -, e0, e1, -⟩ := idx_facts0 t
  funext y
  unfold iblk0
  rw [View.read_apply]
  show (V c main_arg5 : Vec Ideal S64x64 .f32) _ = _
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block at every point is its whole array. -/
theorem iblk0_5_eq (c : Dev nD) (t : Fin cfg0.N) : (iblk0 V c 5 t : Vec Ideal S64x64 .f32) = (V c main_arg12 : Vec Ideal S64x64 .f32) := by
  obtain ⟨-, -, -, -, -, -, -, -, -, -, e0, e1, -⟩ := idx_facts0 t
  funext y
  unfold iblk0
  rw [View.read_apply]
  show (V c main_arg12 : Vec Ideal S64x64 .f32) _ = _
  congr 1
  funext a
  apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6's block at every point is its whole array. -/
theorem iblk0_6_eq (c : Dev nD) (t : Fin cfg0.N) : (iblk0 V c 6 t : Vec Ideal S1x64 .f32) = (V c main_v24 : Vec Ideal S1x64 .f32) := by
  obtain ⟨-, -, -, -, -, -, -, -, -, -, -, -, e0, e1, -⟩ := idx_facts0 t
  funext y
  unfold iblk0
  rw [View.read_apply]
  show (V c main_v24 : Vec Ideal S1x64 .f32) _ = _
  congr 1
  funext a
  apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-! ## What a point writes back, and the array after the region -/

/-- The output array's contents after the region, as one function of the region-entry arrays. -/
abbrev sageOut0 (c : Dev nD) : Vec Ideal S50000x64 .f32 :=
  sageArr (V c main_v22) (V c main_arg0) (V c main_arg3) (V c main_v23) (V c main_arg5) (V c main_arg12) (V c main_v24)

/-- What point `t` writes back is block `t` of that function. -/
theorem flushed0_7_eq (c : Dev nD) (t : Fin cfg0.N) :
    (dat0 (F := Ideal) V c).flushed 7 t = ((cfg0.win 7).blk t).view.read (Elt Ideal) (sageOut0 V c) := by
  show (cfg0.win 7).cut (grid0.coords t) ((dat0 V c).after 7 t) = _
  rw [after0_7, out0_7_eq, iblk0_2_eq, iblk0_3_eq, iblk0_4_eq, iblk0_5_eq, iblk0_6_eq]
  obtain ⟨-, -, -, -, -, -, -, -, -, -, -, -, -, -, e0, e1⟩ := idx_facts0 t
  have hN : t.val < 10 := Nat.lt_of_lt_of_eq t.isLt (show cfg0.N = 10 from N_0)
  funext j
  obtain ⟨y, q, rfl⟩ : ∃ (y : Fin 5000) (q : Fin 64), j = ix2 y q := ⟨j 0, j 1, eq_ix2 j⟩
  rw [View.read_apply]
  have hy : y.val < 5000 := y.isLt
  have hemb : ((cfg0.win 7).blk t).view.emb (ix2 y q) = (ix2 (⟨5000 * t.val + y.val, by omega⟩ : Fin 50000) q : S50000x64.Idx) := by
    funext a
    apply Fin.ext
    match a with
    | ⟨0, _⟩ => show win0_7.index t (0 : Fin 2) * 5000 + 1 * y.val = 5000 * t.val + y.val; omega
    | ⟨1, _⟩ => show win0_7.index t (1 : Fin 2) * 64 + 1 * q.val = q.val; omega
  rw [hemb]
  exact sagePay0_block _ _ _ _ _ _ _ _ _ y ⟨5000 * t.val + y.val, by omega⟩ q
    (fun j => iblk0_0_apply V c t y _ rfl j) (fun j => iblk0_1_apply V c t y _ rfl j)

/-- An index of the array is in point `t`'s block iff each coordinate is in the block's range on its axis. -/
theorem mem_blk0_7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v25).slice (win0_7.rect t)).set ↔ _
  rw [View.set_slice_whole, Rect.mem_set_unit]
  exact Iff.rfl

/-- Every index of the array is in some point's block: row `r` is in the block of point `r / 5000`. -/
theorem cover0_7_arr (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, -, -, -, -, -, -, e0, e1⟩ := idx_facts0 t
  have ht : t.val = (i 0).val / 5000 := rfl
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The output array after the region is the round on the region-entry arrays. -/
theorem arrAt0_7_eq (c : Dev nD) : (dat0 (F := Ideal) V c).arrAt 7 cfg0.N = sageOut0 V c :=
  (dat0 (F := Ideal) V c).arrAt_eq_of_cover 7 (sageOut0 V c) (fun t _ => flushed0_7_eq V c t) cover0_7_arr

/-- The output array after the region, read at (p, q). -/
theorem arrAt0_7_apply (c : Dev nD) (p : Fin 50000) (q : Fin 64) :
    ((dat0 (F := Ideal) V c).arrAt 7 cfg0.N : Vec Ideal S50000x64 .f32) (ix2 p q)
      = Cert.Spec.sage (fun p j => (V c main_v22 : Vec Ideal S50000x64 .f32) (ix2 p j)) (fun p j => (V c main_arg0 : Vec Ideal S50000x64 .f32) (ix2 p j))
          (fun j k => (V c main_arg3 : Vec Ideal S64x64 .f32) (ix2 j k)) (fun k => (V c main_v23 : Vec Ideal S1x64 .f32) (ix2 (0 : Fin 1) k))
          (fun j k => (V c main_arg5 : Vec Ideal S64x64 .f32) (ix2 j k)) (fun j k => (V c main_arg12 : Vec Ideal S64x64 .f32) (ix2 j k))
          (fun k => (V c main_v24 : Vec Ideal S1x64 .f32) (ix2 (0 : Fin 1) k)) p q := by
  rw [arrAt0_7_eq]
  rfl

end Cert.KernelIdeal.Hand

end
-- ==== Proof.KI.Norm.lean ====
/-
  The network as ONE function of the eighteen argument arrays, over the extended reals: the normal form both programs'
  results are read as. The neighbour average of a round is the host's own operation chain (a gather of rows at the
  source words, two scatter-additions at the destination words, a division by the degree, at least one), carried here
  as one function `meanOf` that is never opened: both programs apply it to equal arguments.
-/
import proofs.«415135_j5574867550247_1_alg».proof.KernelIdeal
import proofs.«415135_j5574867550247_1_alg».proof.Proof.Gen.KernelIdeal
import proofs.«415135_j5574867550247_1_alg».proof.Proof.Spec
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- The source words (row 0 of the edge list) and the destination words (row 1), as vectors. -/
def srcOf (ei : IVec S2x800000 32) : IVec S800000 32 :=
  shapeCast _ (extractStridedSlice S1x800000 ![0, 0] ei slices_S2x800000_S1x800000_0_0) shapeCasts_S1x800000_S800000
def dstOf (ei : IVec S2x800000 32) : IVec S800000 32 :=
  shapeCast _ (extractStridedSlice S1x800000 ![1, 0] ei slices_S2x800000_S1x800000_1_0) shapeCasts_S1x800000_S800000
/-- One per edge. -/
def onesE : FVec F S800000 .f32 := broadcastInDim S800000 ![] bcast_S_S800000 (constant S_ .f32 0x3F800000#32)

/-- The neighbour average: rows of `h` at the source words (a negative word counted from the end), added at the
    destination words, divided by the number of edges arriving there, at least one. -/
def meanOf (h : FVec F S50000x64 .f32) (src dst : IVec S800000 32) (ones : FVec F S800000 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst) ones)
          (broadcastInDim S50000 ![] bcast_S_S50000 (constant S_ .f32 0x3F800000#32)))))

/-- The neighbour average of an array given by coordinates, from the edge list. -/
def MEAN (h : Fin 50000 → Fin 64 → EReal) (ei : IVec S2x800000 32) : Fin 50000 → Fin 64 → EReal :=
  fun p j => meanOf (F := Ideal) (fun i => h (i 0) (i 1)) (srcOf ei) (dstOf ei) (onesE (F := Ideal)) (ix2 p j)

/-- The three rounds' results, each from the one before. -/
def H1 (x : Fin 50000 → Fin 64 → EReal) (ei : IVec S2x800000 32) (wl0 : Fin 64 → Fin 64 → EReal) (bl0 : Fin 64 → EReal)
    (wr0 wm : Fin 64 → Fin 64 → EReal) (bm : Fin 64 → EReal) : Fin 50000 → Fin 64 → EReal :=
  Cert.Spec.sage (MEAN x ei) x wl0 bl0 wr0 wm bm

/-- The whole network at graph `g`, output `o`. `hs i` is round `i`'s result. -/
def NF (h1 h2 h3 : Fin 50000 → Fin 64 → EReal) (lab : Fin 50000 → Int) (w1 : Fin 192 → Fin 64 → EReal) (b1 : Fin 64 → EReal)
    (w2 : Fin 64 → Fin 10 → EReal) (b2 : Fin 10 → EReal) (g : Fin 512) (o : Fin 10) : EReal :=
  Cert.Spec.head (Cert.Spec.pool (Cert.Spec.cat3 h1 h2 h3) lab) (Cert.Spec.count lab) w1 b1 w2 b2 g o

end Cert.KernelIdeal.Hand

end
-- ==== Proof.KI.HostReads.lean ====
/-
  What the host stretches of the kernel program write, between the kernel regions: the edge list's two rows as
  vectors, the neighbour averages of each round, the reshaped biases, the three rounds' results side by side, the
  label column; the contents a stretch or a region leaves untouched, carried forward; and the argument arrays as
  launched at each region's entry.
-/
import proofs.«415135_j5574867550247_1_alg».proof.Proof.Gen.KernelIdeal.Regions
import proofs.«415135_j5574867550247_1_alg».proof.Proof.KI.Norm
import Idealize.ShloMosaic.Lib.StableHlo.Run

set_option maxRecDepth 1200

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (outs : Outs (F := F)) (c : Dev nD)

/-! ## The first stretch: the edge list's rows, the ones, the first neighbour average, two biases -/

/-- The source words. -/
theorem V1_v1 : V1 m c main_v1 = srcOf (m ((c : Thread nD τ).loc main_arg1)) := by
  show StableHlo.after hostOps0 (V0 m c) (Proc.devRef .tc main_v1) = _
  after_results_simp
  rfl

/-- The destination words. -/
theorem V1_v3 : V1 m c main_v3 = dstOf (m ((c : Thread nD τ).loc main_arg1)) := by
  show StableHlo.after hostOps0 (V0 m c) (Proc.devRef .tc main_v3) = _
  after_results_simp
  rfl

/-- One per edge. -/
theorem V1_v4 : V1 m c main_v4 = onesE (F := F) := by
  show StableHlo.after hostOps0 (V0 m c) (Proc.devRef .tc main_v4) = _
  after_results_simp
  rfl

/-- The neighbour average of the input rows. -/
theorem V1_v22 : V1 m c main_v22 = meanOf (m ((c : Thread nD τ).loc main_arg0)) (srcOf (m ((c : Thread nD τ).loc main_arg1))) (dstOf (m ((c : Thread nD τ).loc main_arg1))) onesE := by
  show StableHlo.after hostOps0 (V0 m c) (Proc.devRef .tc main_v22) = _
  after_results_simp
  rfl

/-- The first round's bias as a row. -/
theorem V1_v23 : V1 m c main_v23 = shapeCast _ (m ((c : Thread nD τ).loc main_arg4)) shapeCasts_S64_S1x64 := by
  show StableHlo.after hostOps0 (V0 m c) (Proc.devRef .tc main_v23) = _
  after_results_simp
  rfl

/-- The shared bias as a row. -/
theorem V1_v24 : V1 m c main_v24 = shapeCast _ (m ((c : Thread nD τ).loc main_arg13)) shapeCasts_S64_S1x64 := by
  show StableHlo.after hostOps0 (V0 m c) (Proc.devRef .tc main_v24) = _
  after_results_simp
  rfl

/-! ## The second stretch -/

/-- The neighbour average of the first round's result. -/
theorem V3_v43 : V3 m outs c main_v43 = meanOf (V2 m outs c main_v25) (srcOf (m ((c : Thread nD τ).loc main_arg1))) (dstOf (m ((c : Thread nD τ).loc main_arg1))) onesE := by
  have e1 : V2 m outs c main_v1 = srcOf (m ((c : Thread nD τ).loc main_arg1)) := ((V2_of m outs c main_v1 (by decide))).trans (V1_v1 m c)
  have e3 : V2 m outs c main_v3 = dstOf (m ((c : Thread nD τ).loc main_arg1)) := ((V2_of m outs c main_v3 (by decide))).trans (V1_v3 m c)
  have e4 : V2 m outs c main_v4 = onesE (F := F) := ((V2_of m outs c main_v4 (by decide))).trans (V1_v4 m c)
  rw [← e1, ← e3, ← e4]
  show StableHlo.after hostOps1 (V2 m outs c) (Proc.devRef .tc main_v43) = _
  after_results_simp
  rfl

/-- The second round's bias as a row. -/
theorem V3_v44 : V3 m outs c main_v44 = shapeCast _ (m ((c : Thread nD τ).loc main_arg7)) shapeCasts_S64_S1x64 := by
  have e : V2 m outs c main_arg7 = m ((c : Thread nD τ).loc main_arg7) := ((V2_of m outs c main_arg7 (by decide)).trans <| (V1_of m c main_arg7 (by decide))).trans rfl
  rw [← e]
  show StableHlo.after hostOps1 (V2 m outs c) (Proc.devRef .tc main_v44) = _
  after_results_simp
  rfl

/-- The shared bias as a row. -/
theorem V3_v45 : V3 m outs c main_v45 = shapeCast _ (m ((c : Thread nD τ).loc main_arg13)) shapeCasts_S64_S1x64 := by
  have e : V2 m outs c main_arg13 = m ((c : Thread nD τ).loc main_arg13) := ((V2_of m outs c main_arg13 (by decide)).trans <| (V1_of m c main_arg13 (by decide))).trans rfl
  rw [← e]
  show StableHlo.after hostOps1 (V2 m outs c) (Proc.devRef .tc main_v45) = _
  after_results_simp
  rfl

/-! ## The third stretch -/

/-- The neighbour average of the second round's result. -/
theorem V5_v64 : V5 m outs c main_v64 = meanOf (V4 m outs c main_v46) (srcOf (m ((c : Thread nD τ).loc main_arg1))) (dstOf (m ((c : Thread nD τ).loc main_arg1))) onesE := by
  have e1 : V4 m outs c main_v1 = srcOf (m ((c : Thread nD τ).loc main_arg1)) := ((V4_of m outs c main_v1 (by decide)).trans <| (V3_of m outs c main_v1 (by decide)).trans <| (V2_of m outs c main_v1 (by decide))).trans (V1_v1 m c)
  have e3 : V4 m outs c main_v3 = dstOf (m ((c : Thread nD τ).loc main_arg1)) := ((V4_of m outs c main_v3 (by decide)).trans <| (V3_of m outs c main_v3 (by decide)).trans <| (V2_of m outs c main_v3 (by decide))).trans (V1_v3 m c)
  have e4 : V4 m outs c main_v4 = onesE (F := F) := ((V4_of m outs c main_v4 (by decide)).trans <| (V3_of m outs c main_v4 (by decide)).trans <| (V2_of m outs c main_v4 (by decide))).trans (V1_v4 m c)
  rw [← e1, ← e3, ← e4]
  show StableHlo.after hostOps2 (V4 m outs c) (Proc.devRef .tc main_v64) = _
  after_results_simp
  rfl

/-- The third round's bias as a row. -/
theorem V5_v65 : V5 m outs c main_v65 = shapeCast _ (m ((c : Thread nD τ).loc main_arg10)) shapeCasts_S64_S1x64 := by
  have e : V4 m outs c main_arg10 = m ((c : Thread nD τ).loc main_arg10) := ((V4_of m outs c main_arg10 (by decide)).trans <| (V3_of m outs c main_arg10 (by decide)).trans <| (V2_of m outs c main_arg10 (by decide)).trans <| (V1_of m c main_arg10 (by decide))).trans rfl
  rw [← e]
  show StableHlo.after hostOps2 (V4 m outs c) (Proc.devRef .tc main_v65) = _
  after_results_simp
  rfl

/-- The shared bias as a row. -/
theorem V5_v66 : V5 m outs c main_v66 = shapeCast _ (m ((c : Thread nD τ).loc main_arg13)) shapeCasts_S64_S1x64 := by
  have e : V4 m outs c main_arg13 = m ((c : Thread nD τ).loc main_arg13) := ((V4_of m outs c main_arg13 (by decide)).trans <| (V3_of m outs c main_arg13 (by decide)).trans <| (V2_of m outs c main_arg13 (by decide)).trans <| (V1_of m c main_arg13 (by decide))).trans rfl
  rw [← e]
  show StableHlo.after hostOps2 (V4 m outs c) (Proc.devRef .tc main_v66) = _
  after_results_simp
  rfl

/-! ## The fourth stretch: the three results side by side, the labels as a column -/

/-- The three rounds' results joined along the columns. -/
theorem V7_v68 : V7 m outs c main_v68 = concatenate S50000x192 1 [⟨S50000x64, V6 m outs c main_v25⟩, ⟨S50000x64, V6 m outs c main_v46⟩, ⟨S50000x64, V6 m outs c main_v67⟩] concatenates_S50000x64_S50000x64_S50000x64_S50000x192_d1 := by
  show StableHlo.after hostOps3 (V6 m outs c) (Proc.devRef .tc main_v68) = _
  after_results
  rfl

/-- The labels as a column. -/
theorem V7_v69 : V7 m outs c main_v69 = shapeCast _ (m ((c : Thread nD τ).loc main_arg2)) shapeCasts_S50000_S50000x1 := by
  have e : V6 m outs c main_arg2 = m ((c : Thread nD τ).loc main_arg2) := ((V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))).trans rfl
  rw [← e]
  show StableHlo.after hostOps3 (V6 m outs c) (Proc.devRef .tc main_v69) = _
  after_results_simp
  rfl

/-! ## The last stretch: the perceptron's biases as rows -/

/-- The first layer's bias as a row. -/
theorem V11_v83 : V11 m outs c main_v83 = shapeCast _ (m ((c : Thread nD τ).loc main_arg15)) shapeCasts_S64_S1x64 := by
  have e : V10 m outs c main_arg15 = m ((c : Thread nD τ).loc main_arg15) := ((V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide))).trans rfl
  rw [← e]
  show StableHlo.after hostOps4_2 (V10 m outs c) (Proc.devRef .tc main_v83) = _
  after_results_simp
  rfl

/-- The second layer's bias as a row. -/
theorem V11_v84 : V11 m outs c main_v84 = shapeCast _ (m ((c : Thread nD τ).loc main_arg17)) shapeCasts_S10_S1x10 := by
  have e : V10 m outs c main_arg17 = m ((c : Thread nD τ).loc main_arg17) := ((V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide))).trans rfl
  rw [← e]
  show StableHlo.after hostOps4_2 (V10 m outs c) (Proc.devRef .tc main_v84) = _
  after_results_simp
  rfl

/-! ## Contents carried forward: what no later stretch writes and no later region may change -/

theorem V6_v25 : V6 m outs c main_v25 = V2 m outs c main_v25 :=
  (V6_of m outs c main_v25 (by decide)).trans <| (V5_of m outs c main_v25 (by decide)).trans <| (V4_of m outs c main_v25 (by decide)).trans <| (V3_of m outs c main_v25 (by decide))

theorem V6_v46 : V6 m outs c main_v46 = V4 m outs c main_v46 :=
  (V6_of m outs c main_v46 (by decide)).trans <| (V5_of m outs c main_v46 (by decide))

theorem V5_v46 : V5 m outs c main_v46 = V4 m outs c main_v46 :=
  (V5_of m outs c main_v46 (by decide))

theorem V3_v25 : V3 m outs c main_v25 = V2 m outs c main_v25 :=
  (V3_of m outs c main_v25 (by decide))

theorem V11_v70 : V11 m outs c main_v70 = V8 m outs c main_v70 :=
  (V11_of m outs c main_v70 (by decide)).trans <| (V10_of m outs c main_v70 (by decide)).trans <| (V9_of m outs c main_v70 (by decide))

/-! ## The argument arrays at each region's entry: as launched -/

theorem V1_arg0 : V1 m c main_arg0 = m ((c : Thread nD τ).loc main_arg0) :=
  ((V1_of m c main_arg0 (by decide))).trans rfl

theorem V1_arg3 : V1 m c main_arg3 = m ((c : Thread nD τ).loc main_arg3) :=
  ((V1_of m c main_arg3 (by decide))).trans rfl

theorem V1_arg5 : V1 m c main_arg5 = m ((c : Thread nD τ).loc main_arg5) :=
  ((V1_of m c main_arg5 (by decide))).trans rfl

theorem V1_arg12 : V1 m c main_arg12 = m ((c : Thread nD τ).loc main_arg12) :=
  ((V1_of m c main_arg12 (by decide))).trans rfl

theorem V3_arg6 : V3 m outs c main_arg6 = m ((c : Thread nD τ).loc main_arg6) :=
  ((V3_of m outs c main_arg6 (by decide)).trans <| (V2_of m outs c main_arg6 (by decide)).trans <| (V1_of m c main_arg6 (by decide))).trans rfl

theorem V3_arg8 : V3 m outs c main_arg8 = m ((c : Thread nD τ).loc main_arg8) :=
  ((V3_of m outs c main_arg8 (by decide)).trans <| (V2_of m outs c main_arg8 (by decide)).trans <| (V1_of m c main_arg8 (by decide))).trans rfl

theorem V3_arg12 : V3 m outs c main_arg12 = m ((c : Thread nD τ).loc main_arg12) :=
  ((V3_of m outs c main_arg12 (by decide)).trans <| (V2_of m outs c main_arg12 (by decide)).trans <| (V1_of m c main_arg12 (by decide))).trans rfl

theorem V5_arg9 : V5 m outs c main_arg9 = m ((c : Thread nD τ).loc main_arg9) :=
  ((V5_of m outs c main_arg9 (by decide)).trans <| (V4_of m outs c main_arg9 (by decide)).trans <| (V3_of m outs c main_arg9 (by decide)).trans <| (V2_of m outs c main_arg9 (by decide)).trans <| (V1_of m c main_arg9 (by decide))).trans rfl

theorem V5_arg11 : V5 m outs c main_arg11 = m ((c : Thread nD τ).loc main_arg11) :=
  ((V5_of m outs c main_arg11 (by decide)).trans <| (V4_of m outs c main_arg11 (by decide)).trans <| (V3_of m outs c main_arg11 (by decide)).trans <| (V2_of m outs c main_arg11 (by decide)).trans <| (V1_of m c main_arg11 (by decide))).trans rfl

theorem V5_arg12 : V5 m outs c main_arg12 = m ((c : Thread nD τ).loc main_arg12) :=
  ((V5_of m outs c main_arg12 (by decide)).trans <| (V4_of m outs c main_arg12 (by decide)).trans <| (V3_of m outs c main_arg12 (by decide)).trans <| (V2_of m outs c main_arg12 (by decide)).trans <| (V1_of m c main_arg12 (by decide))).trans rfl

theorem V11_arg14 : V11 m outs c main_arg14 = m ((c : Thread nD τ).loc main_arg14) :=
  ((V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide))).trans rfl

theorem V11_arg16 : V11 m outs c main_arg16 = m ((c : Thread nD τ).loc main_arg16) :=
  ((V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide))).trans rfl

end Cert.KernelIdeal.Hand

end
-- ==== Proof.KI.KSage.lean ====
/- The three rounds of the graph network chained through the host stretches between the kernel regions: each round's result
   array, read at (p, q), is one round (`Cert.Spec.sage`) of the neighbour average of the previous round's result (the
   node features for the first round), of that result itself, and of the round's weight and bias arrays as launched. -/
import proofs.«415135_j5574867550247_1_alg».proof.Proof.KI.SageVal0
import proofs.«415135_j5574867550247_1_alg».proof.Proof.KI.SageVal1
import proofs.«415135_j5574867550247_1_alg».proof.Proof.KI.SageVal2
import proofs.«415135_j5574867550247_1_alg».proof.Proof.KI.RegSeg0
import proofs.«415135_j5574867550247_1_alg».proof.Proof.KI.RegSeg1
import proofs.«415135_j5574867550247_1_alg».proof.Proof.KI.RegSeg2
import proofs.«415135_j5574867550247_1_alg».proof.Proof.KI.HostReads
import proofs.«415135_j5574867550247_1_alg».proof.Proof.KI.Norm
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## Reading arrays by coordinates -/

/-- A 50000 × 64 array is the function of its two coordinates. -/
theorem arr_coords (h : Vec Ideal S50000x64 .f32) : (fun i : S50000x64.Idx => h (ix2 (i 0) (i 1))) = h :=
  funext fun i => congrArg h (eq_ix2 i).symm

/-- The neighbour average of an array, read by coordinates, is the neighbour average of the array read by coordinates. -/
theorem mean_coords (h : Vec Ideal S50000x64 .f32) (ei : IVec S2x800000 32) :
    (fun (p : Fin 50000) (j : Fin 64) => (meanOf (F := Ideal) h (srcOf ei) (dstOf ei) onesE : Vec Ideal S50000x64 .f32) (ix2 p j))
      = MEAN (fun p j => h (ix2 p j)) ei := by
  funext p j
  show _ = meanOf (F := Ideal) (fun i : S50000x64.Idx => h (ix2 (i 0) (i 1))) (srcOf ei) (dstOf ei) onesE (ix2 p j)
  rw [arr_coords]

/-- A row of 64 reshaped to 1 × 64, read at (0, k), is the row at k. -/
theorem bias_coords (b : Vec Ideal S64 .f32) :
    (fun k : Fin 64 => (shapeCast S1x64 b shapeCasts_S64_S1x64 : Vec Ideal S1x64 .f32) (ix2 (0 : Fin 1) k)) = fun k => b (ix1 k) :=
  funext fun k => shapeCast_a_1a_apply b shapeCasts_S64_S1x64 (0 : Fin 1) k

variable (m : (ℓ : Loc nD τ sig) → Buf (Elt Ideal) ℓ)

/-! ## The three rounds' results as functions of the launch arrays -/

/-- The first round: from the node features, the edge list, and the round's weights and biases as launched. -/
def kh1 (c : Dev nD) : Fin 50000 → Fin 64 → EReal :=
  Cert.Spec.sage (MEAN (fun p j => (m ((c : Thread nD τ).loc main_arg0) : Vec Ideal S50000x64 .f32) (ix2 p j)) (m ((c : Thread nD τ).loc main_arg1) : IVec S2x800000 32)) (fun p j => (m ((c : Thread nD τ).loc main_arg0) : Vec Ideal S50000x64 .f32) (ix2 p j))
    (fun j k => (m ((c : Thread nD τ).loc main_arg3) : Vec Ideal S64x64 .f32) (ix2 j k)) (fun k => (m ((c : Thread nD τ).loc main_arg4) : Vec Ideal S64 .f32) (ix1 k)) (fun j k => (m ((c : Thread nD τ).loc main_arg5) : Vec Ideal S64x64 .f32) (ix2 j k)) (fun j k => (m ((c : Thread nD τ).loc main_arg12) : Vec Ideal S64x64 .f32) (ix2 j k)) (fun k => (m ((c : Thread nD τ).loc main_arg13) : Vec Ideal S64 .f32) (ix1 k))

/-- The second round: from the first round's result. -/
def kh2 (c : Dev nD) : Fin 50000 → Fin 64 → EReal :=
  Cert.Spec.sage (MEAN (kh1 m c) (m ((c : Thread nD τ).loc main_arg1) : IVec S2x800000 32)) (kh1 m c)
    (fun j k => (m ((c : Thread nD τ).loc main_arg6) : Vec Ideal S64x64 .f32) (ix2 j k)) (fun k => (m ((c : Thread nD τ).loc main_arg7) : Vec Ideal S64 .f32) (ix1 k)) (fun j k => (m ((c : Thread nD τ).loc main_arg8) : Vec Ideal S64x64 .f32) (ix2 j k)) (fun j k => (m ((c : Thread nD τ).loc main_arg12) : Vec Ideal S64x64 .f32) (ix2 j k)) (fun k => (m ((c : Thread nD τ).loc main_arg13) : Vec Ideal S64 .f32) (ix1 k))

/-- The third round: from the second round's result. -/
def kh3 (c : Dev nD) : Fin 50000 → Fin 64 → EReal :=
  Cert.Spec.sage (MEAN (kh2 m c) (m ((c : Thread nD τ).loc main_arg1) : IVec S2x800000 32)) (kh2 m c)
    (fun j k => (m ((c : Thread nD τ).loc main_arg9) : Vec Ideal S64x64 .f32) (ix2 j k)) (fun k => (m ((c : Thread nD τ).loc main_arg10) : Vec Ideal S64 .f32) (ix1 k)) (fun j k => (m ((c : Thread nD τ).loc main_arg11) : Vec Ideal S64x64 .f32) (ix2 j k)) (fun j k => (m ((c : Thread nD τ).loc main_arg12) : Vec Ideal S64x64 .f32) (ix2 j k)) (fun k => (m ((c : Thread nD τ).loc main_arg13) : Vec Ideal S64 .f32) (ix1 k))

/-! ## Round 1 -/

/-- Region 0's result array after the region, at (p, q), is round 1. -/
theorem kU1 (c : Dev nD) (p : Fin 50000) (q : Fin 64) :
    (U2 m c main_v25 : Vec Ideal S50000x64 .f32) (ix2 p q) = kh1 m c p q := by
  have hA : (U2 m c main_v25 : Vec Ideal S50000x64 .f32) = (dat0 (F := Ideal) (atTc (U1 m)) c).arrAt 7 cfg0.N := (hF0 m c 7).symm
  rw [hA, arrAt0_7_apply (atTc (U1 m)) c p q]
  show Cert.Spec.sage (fun p j => (U1 m c main_v22 : Vec Ideal S50000x64 .f32) (ix2 p j)) (fun p j => (U1 m c main_arg0 : Vec Ideal S50000x64 .f32) (ix2 p j))
      (fun j k => (U1 m c main_arg3 : Vec Ideal S64x64 .f32) (ix2 j k)) (fun k => (U1 m c main_v23 : Vec Ideal S1x64 .f32) (ix2 (0 : Fin 1) k))
      (fun j k => (U1 m c main_arg5 : Vec Ideal S64x64 .f32) (ix2 j k)) (fun j k => (U1 m c main_arg12 : Vec Ideal S64x64 .f32) (ix2 j k))
      (fun k => (U1 m c main_v24 : Vec Ideal S1x64 .f32) (ix2 (0 : Fin 1) k)) p q = _
  rw [← V1U, V1_v22, V1_v23, V1_v24, V1_arg0, V1_arg3, V1_arg5, V1_arg12, mean_coords, bias_coords, bias_coords]
  rfl

/-- … as an equality of arrays. -/
theorem kU1_arr (c : Dev nD) : (U2 m c main_v25 : Vec Ideal S50000x64 .f32) = fun i => kh1 m c (i 0) (i 1) :=
  funext fun i => (congrArg (U2 m c main_v25 : Vec Ideal S50000x64 .f32) (eq_ix2 i)).trans (kU1 m c (i 0) (i 1))

/-- The same over the conditional frame's contents. -/
theorem kA1 (c : Dev nD) (p : Fin 50000) (q : Fin 64) :
    (V2 m (outsAll m) c main_v25 : Vec Ideal S50000x64 .f32) (ix2 p q) = kh1 m c p q := by
  rw [V2U]; exact kU1 m c p q

/-! ## Round 2 -/

/-- Region 1's result array after the region, at (p, q), is round 2. -/
theorem kU2 (c : Dev nD) (p : Fin 50000) (q : Fin 64) :
    (U4 m c main_v46 : Vec Ideal S50000x64 .f32) (ix2 p q) = kh2 m c p q := by
  have hA : (U4 m c main_v46 : Vec Ideal S50000x64 .f32) = (dat1 (F := Ideal) (atTc (U3 m)) c).arrAt 7 cfg1.N := (hF1 m c 7).symm
  rw [hA, arrAt1_7_apply (atTc (U3 m)) c p q]
  show Cert.Spec.sage (fun p j => (U3 m c main_v43 : Vec Ideal S50000x64 .f32) (ix2 p j)) (fun p j => (U3 m c main_v25 : Vec Ideal S50000x64 .f32) (ix2 p j))
      (fun j k => (U3 m c main_arg6 : Vec Ideal S64x64 .f32) (ix2 j k)) (fun k => (U3 m c main_v44 : Vec Ideal S1x64 .f32) (ix2 (0 : Fin 1) k))
      (fun j k => (U3 m c main_arg8 : Vec Ideal S64x64 .f32) (ix2 j k)) (fun j k => (U3 m c main_arg12 : Vec Ideal S64x64 .f32) (ix2 j k))
      (fun k => (U3 m c main_v45 : Vec Ideal S1x64 .f32) (ix2 (0 : Fin 1) k)) p q = _
  rw [← V3U, V3_v43, V3_v25, V3_v44, V3_v45, V3_arg6, V3_arg8, V3_arg12, V2U, kU1_arr, mean_coords, bias_coords, bias_coords]
  rfl

/-- … as an equality of arrays. -/
theorem kU2_arr (c : Dev nD) : (U4 m c main_v46 : Vec Ideal S50000x64 .f32) = fun i => kh2 m c (i 0) (i 1) :=
  funext fun i => (congrArg (U4 m c main_v46 : Vec Ideal S50000x64 .f32) (eq_ix2 i)).trans (kU2 m c (i 0) (i 1))

/-- The same over the conditional frame's contents. -/
theorem kA2 (c : Dev nD) (p : Fin 50000) (q : Fin 64) :
    (V4 m (outsAll m) c main_v46 : Vec Ideal S50000x64 .f32) (ix2 p q) = kh2 m c p q := by
  rw [V4U]; exact kU2 m c p q

/-! ## Round 3 -/

/-- Region 2's result array after the region, at (p, q), is round 3. -/
theorem kU3 (c : Dev nD) (p : Fin 50000) (q : Fin 64) :
    (U6 m c main_v67 : Vec Ideal S50000x64 .f32) (ix2 p q) = kh3 m c p q := by
  have hA : (U6 m c main_v67 : Vec Ideal S50000x64 .f32) = (dat2 (F := Ideal) (atTc (U5 m)) c).arrAt 7 cfg2.N := (hF2 m c 7).symm
  rw [hA, arrAt2_7_apply (atTc (U5 m)) c p q]
  show Cert.Spec.sage (fun p j => (U5 m c main_v64 : Vec Ideal S50000x64 .f32) (ix2 p j)) (fun p j => (U5 m c main_v46 : Vec Ideal S50000x64 .f32) (ix2 p j))
      (fun j k => (U5 m c main_arg9 : Vec Ideal S64x64 .f32) (ix2 j k)) (fun k => (U5 m c main_v65 : Vec Ideal S1x64 .f32) (ix2 (0 : Fin 1) k))
      (fun j k => (U5 m c main_arg11 : Vec Ideal S64x64 .f32) (ix2 j k)) (fun j k => (U5 m c main_arg12 : Vec Ideal S64x64 .f32) (ix2 j k))
      (fun k => (U5 m c main_v66 : Vec Ideal S1x64 .f32) (ix2 (0 : Fin 1) k)) p q = _
  rw [← V5U, V5_v64, V5_v46, V5_v65, V5_v66, V5_arg9, V5_arg11, V5_arg12, V4U, kU2_arr, mean_coords, bias_coords, bias_coords]
  rfl

/-- … as an equality of arrays. -/
theorem kU3_arr (c : Dev nD) : (U6 m c main_v67 : Vec Ideal S50000x64 .f32) = fun i => kh3 m c (i 0) (i 1) :=
  funext fun i => (congrArg (U6 m c main_v67 : Vec Ideal S50000x64 .f32) (eq_ix2 i)).trans (kU3 m c (i 0) (i 1))

/-- The same over the conditional frame's contents. -/
theorem kA3 (c : Dev nD) (p : Fin 50000) (q : Fin 64) :
    (V6 m (outsAll m) c main_v67 : Vec Ideal S50000x64 .f32) (ix2 p q) = kh3 m c p q := by
  rw [V6U]; exact kU3 m c p q

end Cert.KernelIdeal.Hand

end
-- ==== Proof.KI.PoolPay.lean ====
/- The pooling kernel's two store payloads at the ideal instance, read at an index (g, d) of the [512, 192] block.
   The first is the zero splat. The second is the block read before plus the product (onehot)ᵀ · rows, where
   onehot[n, g] is 1 when the 32-bit label of row n, read as a signed integer, is the column number g and 0
   otherwise: the matrix product contracts axis 0 of both operands (the 1000 rows of the step), so the element at
   (g, d) is the sum over the rows n of onehot[n, g] · rows[n, d], that is the sum of the rows whose label is g. -/
import proofs.«415135_j5574867550247_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The zero payload -/

/-- The first store writes zero everywhere: the splat of the word of +0. -/
theorem poolZero_apply (g : Fin 512) (d : Fin 192) : k3_pay1 (F := Ideal) (ix2 g d) = 0 := by
  unfold k3_pay1
  show Ideal.ofBits .f32 0x00000000#32 = 0
  exact Ideal.ofBits_zero_f32

/-! ## The product's operand indices: axis 0 of both operands is contracted, axis 1 of each is kept -/

theorem lhs_pool_0 (i : S512x192.Idx) (q : dot_S1000x512_S1000x192_S512x192_0_0_1_1_n_n.contr.Idx) :
    (dot_S1000x512_S1000x192_S512x192_0_0_1_1_n_n.lhsIdx i q 0).val = (q ⟨0, by decide⟩).val :=
  dot_S1000x512_S1000x192_S512x192_0_0_1_1_n_n.lhsIdx_val_of_single rfl i q
theorem lhs_pool_1 (i : S512x192.Idx) (q : dot_S1000x512_S1000x192_S512x192_0_0_1_1_n_n.contr.Idx) :
    (dot_S1000x512_S1000x192_S512x192_0_0_1_1_n_n.lhsIdx i q 1).val = (i 0).val := by
  unfold DotDims.lhsIdx
  rw [dif_neg (show ¬(1 : Fin S1000x512.rank) ∈ dot_S1000x512_S1000x192_S512x192_0_0_1_1_n_n.lhsBatch by decide), dif_pos (show (1 : Fin S1000x512.rank) ∈ dot_S1000x512_S1000x192_S512x192_0_0_1_1_n_n.lhsNonContracting by decide)]
  rfl
theorem rhs_pool_0 (i : S512x192.Idx) (q : dot_S1000x512_S1000x192_S512x192_0_0_1_1_n_n.contr.Idx) :
    (dot_S1000x512_S1000x192_S512x192_0_0_1_1_n_n.rhsIdx i q 0).val = (q ⟨0, by decide⟩).val :=
  dot_S1000x512_S1000x192_S512x192_0_0_1_1_n_n.rhsIdx_val_of_single rfl i q
theorem rhs_pool_1 (i : S512x192.Idx) (q : dot_S1000x512_S1000x192_S512x192_0_0_1_1_n_n.contr.Idx) :
    (dot_S1000x512_S1000x192_S512x192_0_0_1_1_n_n.rhsIdx i q 1).val = (i 1).val := by
  unfold DotDims.rhsIdx
  rw [dif_neg (show ¬(1 : Fin S1000x192.rank) ∈ dot_S1000x512_S1000x192_S512x192_0_0_1_1_n_n.rhsBatch by decide), dif_pos (show (1 : Fin S1000x192.rank) ∈ dot_S1000x512_S1000x192_S512x192_0_0_1_1_n_n.rhsNonContracting by decide)]
  rfl

/-- The product into a zero accumulator at (g, d): the sum over the rows n of left[n, g] · right[n, d]. -/
theorem poolMatmul_apply (a : FVec Ideal S1000x512 .bf16) (b : FVec Ideal S1000x192 .bf16) (g : Fin 512) (d : Fin 192) :
    matmul dot_S1000x512_S1000x192_S512x192_0_0_1_1_n_n none a b (constant (F := Ideal) S512x192 .f32 0x00000000#32) (ix2 g d)
      = ∑ n : Fin 1000, a (ix2 n g) * b (ix2 n d) := by
  show FloatOps.matmul dot_S1000x512_S1000x192_S512x192_0_0_1_1_n_n none a b (constant S512x192 .f32 0x00000000#32) (ix2 g d) = _
  rw [Ideal.matmul_constant_zero_apply, ← Equiv.sum_comp (contrEquiv1 dot_S1000x512_S1000x192_S512x192_0_0_1_1_n_n 1000 rfl rfl).symm]
  refine Finset.sum_congr rfl fun k _ => ?_
  have hk := contrEquiv1_symm_val dot_S1000x512_S1000x192_S512x192_0_0_1_1_n_n 1000 rfl rfl k
  have el : dot_S1000x512_S1000x192_S512x192_0_0_1_1_n_n.lhsIdx (ix2 g d) ((contrEquiv1 dot_S1000x512_S1000x192_S512x192_0_0_1_1_n_n 1000 rfl rfl).symm k) = ix2 k g := funext fun x => Fin.ext (by
    match x with
    | ⟨0, _⟩ => exact (lhs_pool_0 _ _).trans hk
    | ⟨1, _⟩ => exact lhs_pool_1 _ _)
  have er : dot_S1000x512_S1000x192_S512x192_0_0_1_1_n_n.rhsIdx (ix2 g d) ((contrEquiv1 dot_S1000x512_S1000x192_S512x192_0_0_1_1_n_n 1000 rfl rfl).symm k) = ix2 k d := funext fun x => Fin.ext (by
    match x with
    | ⟨0, _⟩ => exact (rhs_pool_0 _ _).trans hk
    | ⟨1, _⟩ => exact rhs_pool_1 _ _)
  rw [el, er]

/-! ## The one-hot entry -/

/-- A 32-bit word is the word of a column number below 512 exactly when it reads, signed, as that number. -/
theorem word_eq_ofNat_iff (w : BitVec 32) (g : Fin 512) : w = BitVec.ofNat 32 g.val ↔ w.toInt = (g.val : Int) := by
  have hg := g.isLt
  have hw := w.isLt
  rw [← BitVec.toNat_inj, BitVec.toNat_ofNat, BitVec.toInt_eq_toNat_cond]
  split <;> omega

/-- The comparison bit, widened to a word and read as a signed integer into the extended reals: 1 where the words are
    equal, 0 where not. -/
theorem onehot_word (w : BitVec 32) (g : Fin 512) :
    FloatOps.sitofp (F := Ideal) .f32 ((IntOp.cmpi .eq w (BitVec.ofNat 32 g.val)).setWidth 32)
      = if w.toInt = (g.val : Int) then (1 : EReal) else 0 := by
  by_cases h : w = BitVec.ofNat 32 g.val
  · rw [if_pos ((word_eq_ofNat_iff w g).1 h)]
    have hc : IntOp.cmpi .eq w (BitVec.ofNat 32 g.val) = 1#1 := by
      simp only [IntOp.cmpi, h, beq_self_eq_true]; rfl
    rw [hc]
    show (((BitVec.setWidth 32 1#1).toInt : ℝ) : EReal) = 1
    have : (BitVec.setWidth 32 1#1).toInt = 1 := by decide
    rw [this]; norm_num
  · rw [if_neg (fun h' => h ((word_eq_ofNat_iff w g).2 h'))]
    have hc : IntOp.cmpi .eq w (BitVec.ofNat 32 g.val) = 0#1 := by
      have : (w == BitVec.ofNat 32 g.val) = false := by simpa using h
      simp only [IntOp.cmpi, this]; rfl
    rw [hc]
    show (((BitVec.setWidth 32 0#1).toInt : ℝ) : EReal) = 0
    have : (BitVec.setWidth 32 0#1).toInt = 0 := by decide
    rw [this]; norm_num

/-- The broadcast label column at (n, g) is the label of row n. -/
theorem poolBroadcast_apply (v : IVec S1000x1 32) (n : Fin 1000) (g : Fin 512) :
    broadcastTo S1000x512 v broadcasts_S1000x1_S1000x512 (ix2 n g) = v (ix2 n (0 : Fin 1)) :=
  broadcastTo_apply v broadcasts_S1000x1_S1000x512 (ix2 n g) (ix2 n (0 : Fin 1)) (fun x => by
    match x with
    | ⟨0, _⟩ => rfl
    | ⟨1, _⟩ => rfl)

/-- The column counter at (n, g) is the word of g. -/
theorem poolIota_apply (n : Fin 1000) (g : Fin 512) :
    iota .tc S1000x512 32 [1] iota_S1000x512_d1_w32 (ix2 n g) = BitVec.ofNat 32 g.val :=
  iota_single_apply .tc S1000x512 32 1 iota_S1000x512_d1_w32 (ix2 n g)

/-! ## The second payload -/

/-- The accumulating store writes, at (g, d), the block's value there plus the sum of the rows of the step whose label
    is g, at column d. -/
theorem poolPay_apply (v3 : Vec Ideal S1000x1 .i32) (v11 : Vec Ideal S1000x192 .f32) (v15 : Vec Ideal S512x192 .f32) (g : Fin 512) (d : Fin 192) :
    k3_pay2 (F := Ideal) v3 v11 v15 (ix2 g d)
      = v15 (ix2 g d) + ∑ n : Fin 1000, if (v3 (ix2 n (0 : Fin 1))).toInt = (g.val : Int) then v11 (ix2 n d) else 0 := by
  unfold k3_pay2
  simp only [shapeCast_self]
  rw [addf_apply, poolMatmul_apply]
  congr 1
  refine Finset.sum_congr rfl fun n _ => ?_
  rw [truncf_apply, truncf_apply, sitofp_apply, extui_apply]
  show FloatOps.sitofp (F := Ideal) .f32 ((IntOp.cmpi .eq (broadcastTo S1000x512 v3 broadcasts_S1000x1_S1000x512 (ix2 n g)) (iota .tc S1000x512 32 [1] iota_S1000x512_d1_w32 (ix2 n g))).setWidth 32) * v11 (ix2 n d) = _
  rw [poolBroadcast_apply, poolIota_apply, onehot_word]
  by_cases h : (v3 (ix2 n (0 : Fin 1))).toInt = (g.val : Int)
  · rw [if_pos h, if_pos h, one_mul]
  · rw [if_neg h, if_neg h, zero_mul]

end Cert.KernelIdeal.Hand

end
-- ==== Proof.KI.PoolVal.lean ====
/- The pooling region's fold over its 50 grid points, at the ideal instance. Point t reads rows 1000·t … 1000·t + 999 of
   the [50000,192] array and of the [50000,1] label column; what it leaves in the [512,192] block is what the point before
   left (zero before the first point) plus, at (g, d), the sum of those rows whose label is g, at column d. So after point
   n the block holds, at (g, d), the sum over the first 1000·(n + 1) rows whose label is g, and after the last point the
   sum over all 50000 rows: the pooled array. -/
import proofs.«415135_j5574867550247_1_alg».proof.Proof.KI.Reg3
import proofs.«415135_j5574867550247_1_alg».proof.Proof.KI.PoolPay
import proofs.«415135_j5574867550247_1_alg».proof.Proof.Spec
import Idealize.ShloMosaic.Lib.Pipeline.Value
import Idealize.ShloMosaic.Lib.ValueIdx
import Mathlib.Data.Fintype.BigOperators
import Mathlib.Algebra.BigOperators.Group.Finset.Basic

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The input blocks at a point, as rows of their arrays -/

section Blocks
variable {F : FTy → Type} [FloatOps F]
variable (V : (c : Dev nD) → (b : Ref sig .tc) → Buf (Elt F) ((c : Thread nD τ).loc b))

/-- The two input windows' block indices, decided over the grid: block t of the rows, block 0 of the columns. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Row r of window 0's block at point t is row 1000·t + r of the [50000,192] array. -/
theorem iblk3_0_apply (c : Dev nD) (t : Fin cfg3.N) (r : Fin 1000) (d : Fin 192) (k : Fin 50000)
    (hk : k.val = 1000 * t.val + r.val) :
    (iblk3 V c 0 t : Vec F S1000x192 .f32) (ix2 r d) = (V c main_v68 : Vec F S50000x192 .f32) (ix2 k d) := by
  obtain ⟨e0, e1, -, -⟩ := idx_facts3 t
  unfold iblk3
  rw [View.read_apply]
  show V c main_v68 _ = V c main_v68 _
  congr 1
  funext a
  apply Fin.ext
  match a with
  | ⟨0, _⟩ => show win3_0.index t 0 * 1000 + 1 * r.val = k.val; rw [e0, hk]; omega
  | ⟨1, _⟩ => show win3_0.index t 1 * 192 + 1 * d.val = d.val; rw [e1]; omega

/-- Row r of window 1's block at point t is row 1000·t + r of the [50000,1] label column. -/
theorem iblk3_1_apply (c : Dev nD) (t : Fin cfg3.N) (r : Fin 1000) (k : Fin 50000)
    (hk : k.val = 1000 * t.val + r.val) :
    (iblk3 V c 1 t : Vec F S1000x1 .i32) (ix2 r (0 : Fin 1)) = (V c main_v69 : Vec F S50000x1 .i32) (ix2 k (0 : Fin 1)) := by
  obtain ⟨-, -, e0, e1⟩ := idx_facts3 t
  unfold iblk3
  rw [View.read_apply]
  show V c main_v69 _ = V c main_v69 _
  congr 1
  funext a
  apply Fin.ext
  match a with
  | ⟨0, _⟩ => show win3_1.index t 0 * 1000 + 1 * r.val = k.val; rw [e0, hk]; omega
  | ⟨1, _⟩ => show win3_1.index t 1 * 1 + 1 * (0 : Fin 1).val = (0 : Fin 1).val; rw [e1]; rfl

end Blocks

/-! ## One point's contribution -/

/-- Row i's contribution to label g at column d, as a sequence over the naturals (zero past the array's 50000 rows). -/
def poolTerm (x : Fin 50000 → Fin 192 → EReal) (lab : Fin 50000 → Int) (g : Fin 512) (d : Fin 192) (i : ℕ) : EReal :=
  if h : i < 50000 then (if lab ⟨i, h⟩ = (g.val : Int) then x ⟨i, h⟩ d else 0) else 0

/-- The accumulating payload at point t: over blocks that are rows 1000·t … 1000·t + 999 of the arrays and a block
    holding acc at (g, d), it holds acc plus those 1000 rows' contributions. -/
theorem poolPoint_apply (x : Fin 50000 → Fin 192 → EReal) (lab : Fin 50000 → Int)
    (x0 : Vec Ideal S1000x192 .f32) (x1 : Vec Ideal S1000x1 .i32) (xo : Vec Ideal S512x192 .f32) (t : ℕ) (ht : 1000 * (t + 1) ≤ 50000)
    (h0 : ∀ (r : Fin 1000) (d : Fin 192), x0 (ix2 r d) = x ⟨1000 * t + r.val, by omega⟩ d)
    (h1 : ∀ r : Fin 1000, (x1 (ix2 r (0 : Fin 1))).toInt = lab ⟨1000 * t + r.val, by omega⟩)
    (g : Fin 512) (d : Fin 192) (acc : EReal) (hacc : xo (ix2 g d) = acc) :
    k3_pay2 (F := Ideal) x1 x0 xo (ix2 g d) = acc + ∑ r ∈ Finset.range 1000, poolTerm x lab g d (1000 * t + r) := by
  rw [poolPay_apply, hacc, ← Fin.sum_univ_eq_sum_range (fun r => poolTerm x lab g d (1000 * t + r)) 1000]
  congr 1
  refine Finset.sum_congr rfl fun r _ => ?_
  rw [h1 r, h0 r d]
  unfold poolTerm
  rw [dif_pos (show 1000 * t + r.val < 50000 by omega)]

/-! ## The fold -/

section Fold
variable (V : (c : Dev nD) → (b : Ref sig .tc) → Buf (Elt Ideal) ((c : Thread nD τ).loc b))

/-- The [50000,192] array the region pools, by coordinates. -/
abbrev rows3 (c : Dev nD) : Fin 50000 → Fin 192 → EReal := fun n d => (V c main_v68 : Vec Ideal S50000x192 .f32) (ix2 n d)
/-- The rows' labels, read as signed integers. -/
abbrev labs3 (c : Dev nD) : Fin 50000 → Int := fun n => ((V c main_v69 : Vec Ideal S50000x1 .i32) (ix2 n (0 : Fin 1))).toInt

/-- THE INVARIANT: after point n the block holds, at (g, d), the contributions of the first 1000·(n + 1) rows. -/
theorem outsAt3_prefix (c : Dev nD) (n : ℕ) (h : n < cfg3.N) (g : Fin 512) (d : Fin 192) :
    outsAt3 (F := Ideal) V c n h (ix2 g d) = ∑ i ∈ Finset.range (1000 * (n + 1)), poolTerm (rows3 V c) (labs3 V c) g d i := by
  have hN : cfg3.N = 50 := N_3
  induction n with
  | zero =>
    rw [outsAt3_zero, out3_A_eq]
    refine (poolPoint_apply (rows3 V c) (labs3 V c) (iblk3 V c 0 ⟨0, h⟩) (iblk3 V c 1 ⟨0, h⟩) (k3_pay1 (F := Ideal)) 0 (by omega)
      (fun r d => iblk3_0_apply V c ⟨0, h⟩ r d _ rfl) (fun r => congrArg BitVec.toInt (iblk3_1_apply V c ⟨0, h⟩ r _ rfl))
      g d 0 (poolZero_apply g d)).trans ?_
    rw [zero_add]
    refine Finset.sum_congr rfl fun r _ => ?_
    rw [Nat.mul_zero, Nat.zero_add]
  | succ n ih =>
    rw [outsAt3_succ, out3_B_eq]
    refine (poolPoint_apply (rows3 V c) (labs3 V c) (iblk3 V c 0 ⟨n + 1, h⟩) (iblk3 V c 1 ⟨n + 1, h⟩) _ (n + 1) (by omega)
      (fun r d => iblk3_0_apply V c ⟨n + 1, h⟩ r d _ rfl) (fun r => congrArg BitVec.toInt (iblk3_1_apply V c ⟨n + 1, h⟩ r _ rfl))
      g d _ (ih (Nat.lt_of_succ_lt h))).trans ?_
    rw [show 1000 * (n + 1 + 1) = 1000 * (n + 1) + 1000 from by omega, Finset.sum_range_add]

/-- What the last point leaves, at (g, d): the sum over all 50000 rows whose label is g, at column d. -/
theorem outsAt3_apply (c : Dev nD) (h49 : 49 < cfg3.N) (g : Fin 512) (d : Fin 192) :
    outsAt3 (F := Ideal) V c 49 h49 (ix2 g d)
      = Cert.Spec.pool (fun n d => (V c main_v68 : Vec Ideal S50000x192 .f32) (ix2 n d))
          (fun n => ((V c main_v69 : Vec Ideal S50000x1 .i32) (ix2 n (0 : Fin 1))).toInt) g d := by
  rw [outsAt3_prefix V c 49 h49 g d]
  unfold Cert.Spec.pool
  rw [show 1000 * (49 + 1) = 50000 from rfl, ← Fin.sum_univ_eq_sum_range (fun i => poolTerm (rows3 V c) (labs3 V c) g d i) 50000]
  refine Finset.sum_congr rfl fun k _ => ?_
  unfold poolTerm
  rw [dif_pos k.isLt]

/-- The result array after the region, at (g, d): the pooled sum. -/
theorem arrAt3_2_apply (c : Dev nD) (g : Fin 512) (d : Fin 192) :
    ((dat3 (F := Ideal) V c).arrAt 2 cfg3.N : Vec Ideal S512x192 .f32) (ix2 g d)
      = Cert.Spec.pool (fun n d => (V c main_v68 : Vec Ideal S50000x192 .f32) (ix2 n d))
          (fun n => ((V c main_v69 : Vec Ideal S50000x1 .i32) (ix2 n (0 : Fin 1))).toInt) g d := by
  rw [arrAt3_2]
  exact outsAt3_apply V c _ g d

end Fold

end Cert.KernelIdeal.Hand

end
-- ==== Proof.KI.HeadPay.lean ====
/-
  The perceptron head's stored value at one element, as a formula over coordinates, at the ideal instance (a float is an
  extended real, every operation exact, a change of format the identity).

  The kernel body: the 512 counts, each raised to at least one, divide the 512×192 pooled rows (the column of counts
  read across the 192 columns); the quotient times a 192×64 matrix, plus a bias row, positive part; that times a
  64×10 matrix, plus a bias row. Each product is a contraction over one axis into a zero accumulator, so at an output
  element it is the plain sum over that axis; each bias is one row read down the 512 rows.
-/
import proofs.«415135_j5574867550247_1_alg».proof.Proof.Gen.KernelIdeal.Skeleton
import proofs.«415135_j5574867550247_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## One column read across many -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first product: [512, 192] by [192, 64]

The operand indices of the contraction, axis by axis: the left operand's row is the output's row and its column the
contraction coordinate; the right operand's row is the contraction coordinate and its column the output's column. -/

theorem lhs_head1_0 (i : S512x64.Idx) (q : dot_S512x192_S192x64_S512x64_1_0_0_1_n_n.contr.Idx) :
    (dot_S512x192_S192x64_S512x64_1_0_0_1_n_n.lhsIdx i q 0).val = (i 0).val := by
  unfold DotDims.lhsIdx
  rw [dif_neg (show ¬(0 : Fin S512x192.rank) ∈ dot_S512x192_S192x64_S512x64_1_0_0_1_n_n.lhsBatch by decide), dif_pos (show (0 : Fin S512x192.rank) ∈ dot_S512x192_S192x64_S512x64_1_0_0_1_n_n.lhsNonContracting by decide)]
  rfl
theorem lhs_head1_1 (i : S512x64.Idx) (q : dot_S512x192_S192x64_S512x64_1_0_0_1_n_n.contr.Idx) :
    (dot_S512x192_S192x64_S512x64_1_0_0_1_n_n.lhsIdx i q 1).val = (q ⟨0, by decide⟩).val :=
  dot_S512x192_S192x64_S512x64_1_0_0_1_n_n.lhsIdx_val_of_single rfl i q
theorem rhs_head1_0 (i : S512x64.Idx) (q : dot_S512x192_S192x64_S512x64_1_0_0_1_n_n.contr.Idx) :
    (dot_S512x192_S192x64_S512x64_1_0_0_1_n_n.rhsIdx i q 0).val = (q ⟨0, by decide⟩).val :=
  dot_S512x192_S192x64_S512x64_1_0_0_1_n_n.rhsIdx_val_of_single rfl i q
theorem rhs_head1_1 (i : S512x64.Idx) (q : dot_S512x192_S192x64_S512x64_1_0_0_1_n_n.contr.Idx) :
    (dot_S512x192_S192x64_S512x64_1_0_0_1_n_n.rhsIdx i q 1).val = (i 1).val := by
  unfold DotDims.rhsIdx
  rw [dif_neg (show ¬(1 : Fin S192x64.rank) ∈ dot_S512x192_S192x64_S512x64_1_0_0_1_n_n.rhsBatch by decide), dif_pos (show (1 : Fin S192x64.rank) ∈ dot_S512x192_S192x64_S512x64_1_0_0_1_n_n.rhsNonContracting by decide)]
  rfl

/-- The first product into a zero accumulator, at `(g, c)`: the sum over the 192 contracted coordinates. -/
theorem matmul_head1_apply (x : FVec Ideal S512x192 .bf16) (w : FVec Ideal S192x64 .bf16) (g : Fin 512) (c : Fin 64) :
    matmul dot_S512x192_S192x64_S512x64_1_0_0_1_n_n none x w (constant (F := Ideal) S512x64 .f32 0x00000000#32) (ix2 g c)
      = ∑ j : Fin 192, x (ix2 g j) * w (ix2 j c) := by
  simp only [matmul]
  rw [Ideal.matmul_constant_zero_apply, ← Equiv.sum_comp (contrEquiv1 dot_S512x192_S192x64_S512x64_1_0_0_1_n_n 192 rfl rfl).symm]
  refine Finset.sum_congr rfl fun j _ => ?_
  have hk := contrEquiv1_symm_val dot_S512x192_S192x64_S512x64_1_0_0_1_n_n 192 rfl rfl j
  have el : dot_S512x192_S192x64_S512x64_1_0_0_1_n_n.lhsIdx (ix2 g c) ((contrEquiv1 dot_S512x192_S192x64_S512x64_1_0_0_1_n_n 192 rfl rfl).symm j) = ix2 g j := funext fun a => Fin.ext (by
    match a with
    | ⟨0, _⟩ => exact lhs_head1_0 _ _
    | ⟨1, _⟩ => exact (lhs_head1_1 _ _).trans hk)
  have er : dot_S512x192_S192x64_S512x64_1_0_0_1_n_n.rhsIdx (ix2 g c) ((contrEquiv1 dot_S512x192_S192x64_S512x64_1_0_0_1_n_n 192 rfl rfl).symm j) = ix2 j c := funext fun a => Fin.ext (by
    match a with
    | ⟨0, _⟩ => exact (rhs_head1_0 _ _).trans hk
    | ⟨1, _⟩ => exact rhs_head1_1 _ _)
  rw [el, er]

/-! ## The second product: [512, 64] by [64, 10] -/

theorem lhs_head2_0 (i : S512x10.Idx) (q : dot_S512x64_S64x10_S512x10_1_0_0_1_n_n.contr.Idx) :
    (dot_S512x64_S64x10_S512x10_1_0_0_1_n_n.lhsIdx i q 0).val = (i 0).val := by
  unfold DotDims.lhsIdx
  rw [dif_neg (show ¬(0 : Fin S512x64.rank) ∈ dot_S512x64_S64x10_S512x10_1_0_0_1_n_n.lhsBatch by decide), dif_pos (show (0 : Fin S512x64.rank) ∈ dot_S512x64_S64x10_S512x10_1_0_0_1_n_n.lhsNonContracting by decide)]
  rfl
theorem lhs_head2_1 (i : S512x10.Idx) (q : dot_S512x64_S64x10_S512x10_1_0_0_1_n_n.contr.Idx) :
    (dot_S512x64_S64x10_S512x10_1_0_0_1_n_n.lhsIdx i q 1).val = (q ⟨0, by decide⟩).val :=
  dot_S512x64_S64x10_S512x10_1_0_0_1_n_n.lhsIdx_val_of_single rfl i q
theorem rhs_head2_0 (i : S512x10.Idx) (q : dot_S512x64_S64x10_S512x10_1_0_0_1_n_n.contr.Idx) :
    (dot_S512x64_S64x10_S512x10_1_0_0_1_n_n.rhsIdx i q 0).val = (q ⟨0, by decide⟩).val :=
  dot_S512x64_S64x10_S512x10_1_0_0_1_n_n.rhsIdx_val_of_single rfl i q
theorem rhs_head2_1 (i : S512x10.Idx) (q : dot_S512x64_S64x10_S512x10_1_0_0_1_n_n.contr.Idx) :
    (dot_S512x64_S64x10_S512x10_1_0_0_1_n_n.rhsIdx i q 1).val = (i 1).val := by
  unfold DotDims.rhsIdx
  rw [dif_neg (show ¬(1 : Fin S64x10.rank) ∈ dot_S512x64_S64x10_S512x10_1_0_0_1_n_n.rhsBatch by decide), dif_pos (show (1 : Fin S64x10.rank) ∈ dot_S512x64_S64x10_S512x10_1_0_0_1_n_n.rhsNonContracting by decide)]
  rfl

/-- The second product into a zero accumulator, at `(g, c)`: the sum over the 64 contracted coordinates. -/
theorem matmul_head2_apply (x : FVec Ideal S512x64 .bf16) (w : FVec Ideal S64x10 .bf16) (g : Fin 512) (c : Fin 10) :
    matmul dot_S512x64_S64x10_S512x10_1_0_0_1_n_n none x w (constant (F := Ideal) S512x10 .f32 0x00000000#32) (ix2 g c)
      = ∑ j : Fin 64, x (ix2 g j) * w (ix2 j c) := by
  simp only [matmul]
  rw [Ideal.matmul_constant_zero_apply, ← Equiv.sum_comp (contrEquiv1 dot_S512x64_S64x10_S512x10_1_0_0_1_n_n 64 rfl rfl).symm]
  refine Finset.sum_congr rfl fun j _ => ?_
  have hk := contrEquiv1_symm_val dot_S512x64_S64x10_S512x10_1_0_0_1_n_n 64 rfl rfl j
  have el : dot_S512x64_S64x10_S512x10_1_0_0_1_n_n.lhsIdx (ix2 g c) ((contrEquiv1 dot_S512x64_S64x10_S512x10_1_0_0_1_n_n 64 rfl rfl).symm j) = ix2 g j := funext fun a => Fin.ext (by
    match a with
    | ⟨0, _⟩ => exact lhs_head2_0 _ _
    | ⟨1, _⟩ => exact (lhs_head2_1 _ _).trans hk)
  have er : dot_S512x64_S64x10_S512x10_1_0_0_1_n_n.rhsIdx (ix2 g c) ((contrEquiv1 dot_S512x64_S64x10_S512x10_1_0_0_1_n_n 64 rfl rfl).symm j) = ix2 j c := funext fun a => Fin.ext (by
    match a with
    | ⟨0, _⟩ => exact (rhs_head2_0 _ _).trans hk
    | ⟨1, _⟩ => exact rhs_head2_1 _ _)
  rw [el, er]

/-! ## The payload at an element -/

/-- The head's stored value at graph `g`, output `o`: the perceptron of the specification on the loaded arrays read by
    coordinates. -/
theorem headPay_apply (v0 : Vec Ideal S512x1 .f32) (v4 : Vec Ideal S512x192 .f32) (v9 : Vec Ideal S192x64 .f32) (v12 : Vec Ideal S1x64 .f32) (v19 : Vec Ideal S64x10 .f32) (v22 : Vec Ideal S1x10 .f32) (g : Fin 512) (o : Fin 10) :
    k4_pay1 (F := Ideal) v0 v4 v9 v12 v19 v22 (ix2 g o)
      = Cert.Spec.head (fun g j => v4 (ix2 g j)) (fun g => v0 (ix2 g (0 : Fin 1))) (fun j k => v9 (ix2 j k)) (fun k => v12 (ix2 (0 : Fin 1) k))
          (fun k o => v19 (ix2 k o)) (fun o => v22 (ix2 (0 : Fin 1) o)) g o := by
  unfold k4_pay1 Cert.Spec.head
  simp only [shapeCast_self]
  rw [addf_apply, matmul_head2_apply, broadcastTo_1b_ab_apply]
  congr 1
  refine Finset.sum_congr rfl fun k _ => ?_
  rw [truncf_apply, truncf_apply, maximumf_apply, addf_apply, broadcast_apply, matmul_head1_apply, broadcastTo_1b_ab_apply]
  congr 3
  refine Finset.sum_congr rfl fun j _ => ?_
  rw [truncf_apply, truncf_apply, divf_apply, broadcastTo_a1_ab_apply, maximumf_apply, broadcast_apply]
  rfl

end Cert.KernelIdeal.Hand

end
-- ==== Proof.KI.HeadVal.lean ====
/-
  The perceptron head's region, by values at the ideal instance: the region's output array, after the region, read at
  graph `g` and output `o`, is the perceptron of the specification on the six arrays as the region finds them.

  The region has one grid point and every block is its whole array: the output array after the region is what the
  body leaves in the output block, that is the body's stored value at the input blocks, each of which is its array; the
  stored value at an element is the perceptron's formula.
-/
import proofs.«415135_j5574867550247_1_alg».proof.Proof.KI.Reg4
import proofs.«415135_j5574867550247_1_alg».proof.Proof.KI.HeadPay
import proofs.«415135_j5574867550247_1_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Region 4's output array after the region, at `(g, o)`: the perceptron on the region-entry arrays (the pooled rows,
    the counts, the two weight matrices and the two bias rows), read by coordinates. -/
theorem arrAt4_6_apply (V : (c : Dev nD) → (b : Ref sig .tc) → Buf (Elt Ideal) ((c : Thread nD τ).loc b)) (c : Dev nD) (g : Fin 512) (o : Fin 10) :
    ((dat4 (F := Ideal) V c).arrAt 6 cfg4.N : Vec Ideal S512x10 .f32) (ix2 g o)
      = Cert.Spec.head (fun g j => (V c main_v70 : Vec Ideal S512x192 .f32) (ix2 g j)) (fun g => (V c main_v82 : Vec Ideal S512x1 .f32) (ix2 g (0 : Fin 1)))
          (fun j k => (V c main_arg14 : Vec Ideal S192x64 .f32) (ix2 j k)) (fun k => (V c main_v83 : Vec Ideal S1x64 .f32) (ix2 (0 : Fin 1) k))
          (fun k o => (V c main_arg16 : Vec Ideal S64x10 .f32) (ix2 k o)) (fun o => (V c main_v84 : Vec Ideal S1x10 .f32) (ix2 (0 : Fin 1) o)) g o := by
  rw [arrAt4_6 V c, out4_6_eq, headPay_apply,
    iblk4_0_eq V c t4_0, iblk4_1_eq V c t4_0, iblk4_2_eq V c t4_0, iblk4_3_eq V c t4_0, iblk4_4_eq V c t4_0, iblk4_5_eq V c t4_0]

end Cert.KernelIdeal.Hand

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LibScatterSum.lean ====
/-
  A scatter whose body adds, read at one element.

  The host's scatter takes the updates one at a time, in row-major order of their indices, and replaces the
  operand's element at each update's landing place by the body applied to that element and the update; an
  update that lands outside the operand is dropped. When the body is the addition of a commutative monoid (the
  integers modulo 2^w, the extended reals, …) the element `i` of the result is the operand's element plus the
  sum of all the updates that land on `i`:

      scatter d (+) x idx upd i = x i + ∑ (j with d.resultIdx? j idx = some i), upd j      (scatter_add_apply).

  Nothing is assumed of the dimension numbers, the shapes or the indices; no index set is enumerated.
-/
import Idealize.ShloMosaic.PureOps.ShapeOps
import Mathlib.Algebra.BigOperators.Fin
import Mathlib.Algebra.BigOperators.Group.Finset.Piecewise

noncomputable section

open scoped BigOperators

namespace Cert.LibScatterSum

open Idealize.ShloMosaic

variable {α : Type} [AddCommMonoid α] {s si u : Shape} {w : Nat}

/-- The fold of the scatter's step over ANY list of update positions, read at `i`: the start value at `i` plus,
    position by position, the update where it lands on `i` and `0` where it does not. (Each step changes the one
    element it lands on by adding the update on the right, so the fold adds the updates in the list's order:
    associativity is all this needs.) -/
theorem foldl_step_apply (d : ScatterDims s si u) (idx : IVec si w) (upd : u.Idx → α) (l : List (Fin u.numel))
    (x : s.Idx → α) (i : s.Idx) :
    (l.foldl (fun r n =>
        match d.resultIdx? (u.rowMajor.symm n) idx with
        | some i0 => fun i' => if i' = i0 then r i0 + upd (u.rowMajor.symm n) else r i'
        | none => r) x) i
      = x i + (l.map fun n => if d.resultIdx? (u.rowMajor.symm n) idx = some i then upd (u.rowMajor.symm n) else 0).sum := by
  induction l generalizing x with
  | nil => simp
  | cons n l ih =>
    rw [List.foldl_cons, ih, List.map_cons, List.sum_cons, ← add_assoc]
    congr 1
    cases h : d.resultIdx? (u.rowMajor.symm n) idx with
    | none => simp
    | some i0 =>
      by_cases hi : i = i0
      · subst hi; simp
      · have hi' : ¬ i0 = i := fun e => hi e.symm
        simp [hi, hi']

/-- THE ADDING SCATTER READ AT `i`: the operand's element plus the sum of the updates that land on `i`. The body
    is any function that is the monoid's addition (`hf`). -/
theorem scatter_add_apply (d : ScatterDims s si u) (f : α → α → α) (hf : ∀ a b, f a b = a + b) (x : s.Idx → α)
    (idx : IVec si w) (upd : u.Idx → α) (i : s.Idx) :
    Host.scatter d f x idx upd i
      = x i + ∑ j ∈ Finset.univ.filter (fun j => d.resultIdx? j idx = some i), upd j := by
  have hf' : f = fun a b => a + b := funext fun a => funext fun b => hf a b
  subst hf'
  refine (foldl_step_apply d idx upd (List.finRange u.numel) x i).trans ?_
  rw [Finset.sum_filter,
    ← Equiv.sum_comp u.rowMajor.symm (fun j => if d.resultIdx? j idx = some i then upd j else 0), Fin.sum_univ_def]

end Cert.LibScatterSum

end
-- ==== Proof.KI.CountVal.lean ====
/-
  How many rows carry each graph label, as the program's host computes it, read at one label.

  The host clips the 50000 integer labels below at 0, moves a negative one up by 512 (none is, after the clip),
  and adds a one, for every row, into a vector of 512 zeros at the row's label; a label from 512 on names no
  entry and its one is dropped. The 512 integer counts are then converted to numbers and laid out as a column
  [512, 1]. For labels that are not negative, entry g of the column is the number of rows whose label is g:
  `Cert.Spec.count` of the labels read as integers.
-/
import proofs.«415135_j5574867550247_1_alg».proof.KernelIdeal
import proofs.«415135_j5574867550247_1_alg».proof.Proof.Spec
import proofs.«415135_j5574867550247_1_alg».proof.Proof.LibRows
import proofs.«415135_j5574867550247_1_alg».proof.Proof.LibScatterSum
import Idealize.ShloMosaic.PureOps.Ideal
import Idealize.ShloMosaic.Lib.ValueIdx
import Idealize.ShloMosaic.Lib.Pipeline.Value
import Mathlib.Data.BitVec
import Mathlib.Algebra.BigOperators.Ring.Finset

noncomputable section

open scoped BigOperators

namespace Cert.KernelIdeal.Hand

open Cert.KernelIdeal Idealize.ShloMosaic Idealize.ShloMosaic.ValueIdx

variable [Facts₀]
open Facts₀

/-! ## The host's terms -/

/-- The labels clipped below at 0. -/
def labClip (lab : IVec S50000 32) : IVec S50000 32 :=
  maxsi (broadcastInDim S50000 ![] bcast_S_S50000 (id (constantI S_ 32 0#32))) lab

/-- The scatter's indices: a clipped label below 0 moved up by 512. -/
def labIdx (lab : IVec S50000 32) : IVec S50000 32 :=
  select (cmpi .slt (labClip lab) (broadcastInDim S50000 ![] bcast_S_S50000 (constantI S_ 32 0#32)))
    (addi (labClip lab) (broadcastInDim S50000 ![] bcast_S_S50000 (constantI S_ 32 512#32)))
    (labClip lab)

/-- The integer counts: a one per row added into 512 zeros at the row's index. -/
def counts32 (lab : IVec S50000 32) : IVec S512 32 :=
  Host.scatter scatter_S512_S50000x1_S50000_n_0_0_1 IntOp.addi
    (broadcastInDim S512 ![] bcast_S_S512 (constantI S_ 32 0#32))
    (broadcastInDim S50000x1 ![0] bcast_S50000_S50000x1_0 (labIdx lab))
    (broadcastInDim S50000 ![] bcast_S_S50000 (constantI S_ 32 1#32))

/-- The counts as numbers, laid out as a column. -/
def countsOf {F : FTy → Type} [FloatOps F] (lab : IVec S50000 32) : FVec F S512x1 .f32 :=
  shapeCast S512x1 (sitofp .f32 (counts32 lab)) shapeCasts_S512_S512x1

/-! ## Read at an element, for labels that are not negative -/

/-- A label that is not negative is its own clip … -/
theorem labClip_apply (lab : IVec S50000 32) (hlab : ∀ n : Fin 50000, 0 ≤ (lab (ix1 n)).toInt) (n : Fin 50000) :
    labClip lab (ix1 n) = lab (ix1 n) := by
  show IntOp.maxsi (0#32) (lab (ix1 n)) = lab (ix1 n)
  unfold IntOp.maxsi
  rw [if_neg]
  rw [BitVec.slt_iff_toInt_lt, BitVec.toInt_zero]
  have := hlab n
  omega

/-- … and is not moved: the scatter's index of row n is the label of row n. -/
theorem labIdx_apply (lab : IVec S50000 32) (hlab : ∀ n : Fin 50000, 0 ≤ (lab (ix1 n)).toInt) (n : Fin 50000) :
    labIdx lab (ix1 n) = lab (ix1 n) := by
  show Scalar.select (IntOp.cmpi .slt (labClip lab (ix1 n)) (0#32)) (IntOp.addi (labClip lab (ix1 n)) (512#32)) (labClip lab (ix1 n))
    = lab (ix1 n)
  rw [labClip_apply lab hlab n]
  have hs : (lab (ix1 n)).slt (0#32) = false := by
    rw [Bool.eq_false_iff]
    intro h
    rw [BitVec.slt_iff_toInt_lt, BitVec.toInt_zero] at h
    have := hlab n
    omega
  show Scalar.select (BitVec.ofBool ((lab (ix1 n)).slt (0#32))) _ _ = _
  rw [hs, BitVec.ofBool_false]
  exact select_zero _ _

/-- The index column at (n, 0) is the index of row n. -/
theorem labIdxCol_apply (lab : IVec S50000 32) (n : Fin 50000) :
    broadcastInDim S50000x1 ![0] bcast_S50000_S50000x1_0 (labIdx lab) (ix2 n (0 : Fin 1)) = labIdx lab (ix1 n) := by
  refine broadcastInDim_apply _ _ _ (ix2 n (0 : Fin 1)) (ix1 n) fun a => ?_
  match a with
  | ⟨0, _⟩ =>
    show n.val = if (50000 : ℕ) = 1 then 0 else n.val
    split
    · rename_i h; exact absurd h (by decide)
    · rfl

/-- The printed dimension numbers are those of "entries added into a vector at an index column". -/
theorem scatterRec_eq :
    scatter_S512_S50000x1_S50000_n_0_0_1 = Cert.LibRows.rowScatterDims1 512 50000 scatter_S512_S50000x1_S50000_n_0_0_1_wf := rfl

/-- THE INTEGER COUNT OF LABEL g: the number of rows whose label is g, as a 32-bit word. -/
theorem counts32_apply (lab : IVec S50000 32) (hlab : ∀ n : Fin 50000, 0 ≤ (lab (ix1 n)).toInt) (g : Fin 512) :
    counts32 lab (ix1 g)
      = BitVec.ofNat 32 (Finset.univ.filter (fun n : Fin 50000 => (lab (ix1 n)).toInt = (g.val : Int))).card := by
  unfold counts32
  rw [Cert.LibScatterSum.scatter_add_apply scatter_S512_S50000x1_S50000_n_0_0_1 IntOp.addi (fun a b => rfl), scatterRec_eq, Finset.sum_filter, Cert.LibRows.sum_idx1]
  have e1 : ∀ p : Fin 50000,
      ((Cert.LibRows.rowScatterDims1 512 50000 scatter_S512_S50000x1_S50000_n_0_0_1_wf).resultIdx? (ix1 p)
          (broadcastInDim S50000x1 ![0] bcast_S50000_S50000x1_0 (labIdx lab)) = some (ix1 g))
        ↔ (lab (ix1 p)).toInt = (g.val : Int) := by
    intro p
    rw [Cert.LibRows.rowScatter1_resultIdx, labIdxCol_apply, labIdx_apply lab hlab]
  have h0 : broadcastInDim S512 ![] bcast_S_S512 (constantI S_ 32 0#32) (ix1 g) = (0 : BitVec 32) := rfl
  have h1 : ∀ p : Fin 50000, broadcastInDim S50000 ![] bcast_S_S50000 (constantI S_ 32 1#32) (ix1 p) = (1 : BitVec 32) :=
    fun p => rfl
  simp only [e1, h0, h1]
  rw [zero_add, Finset.sum_boole, BitVec.natCast_eq_ofNat]

/-- THE COUNT OF LABEL g: the number of rows whose label is g. -/
theorem countsOf_apply (lab : IVec S50000 32) (hlab : ∀ n : Fin 50000, 0 ≤ (lab (ix1 n)).toInt) (g : Fin 512) :
    countsOf (F := Ideal) lab (ix2 g (0 : Fin 1)) = Cert.Spec.count (fun n => (lab (ix1 n)).toInt) g := by
  unfold countsOf
  have hk : (S512.rowMajor (ix1 g)).val = (S512x1.rowMajor (ix2 g (0 : Fin 1))).val := by
    rw [Shape.rowMajor_val_one, Shape.rowMajor_val_two]
    show g.val = g.val * 1 + 0
    omega
  rw [shapeCast_apply _ _ (ix2 g (0 : Fin 1)) (ix1 g) hk]
  show (((counts32 lab (ix1 g)).toInt : ℝ) : EReal) = _
  rw [counts32_apply lab hlab g]
  have hc : (Finset.univ.filter (fun n : Fin 50000 => (lab (ix1 n)).toInt = (g.val : Int))).card ≤ 50000 := by
    refine (Finset.card_filter_le _ _).trans ?_
    rw [Finset.card_univ, Fintype.card_fin]
  have hn : (BitVec.ofNat 32 (Finset.univ.filter (fun n : Fin 50000 => (lab (ix1 n)).toInt = (g.val : Int))).card).toNat
      = (Finset.univ.filter (fun n : Fin 50000 => (lab (ix1 n)).toInt = (g.val : Int))).card := by
    rw [BitVec.toNat_ofNat]
    omega
  rw [BitVec.toInt_eq_toNat_of_lt (by rw [hn]; omega), hn]
  unfold Cert.Spec.count
  rw [Finset.sum_boole, Int.cast_natCast, EReal.coe_natCast]

end Cert.KernelIdeal.Hand

end
-- ==== Proof.LibTypedRef.lean ====
/-
  Typed references: writing a value through a typed reference and reading it back is the identity.

  A typed reference carries the type of the tensor value its buffer holds together with a proof that the buffer's
  declared type is that type; contents are moved between the two types along that proof. Moving there and back
  along one proof is the identity, whatever the reference.
-/
import Idealize.ShloMosaic.Lib.StableHlo

namespace Idealize.ShloMosaic.StableHlo.TRef

variable {sig : RefSig} {Val : EltTy → Type} {T : BufTy}

/-- Contents written through a typed reference and read back through it are unchanged. -/
theorem ofBuf_toBuf (x : TRef sig T) (v : T.Contents Val) : x.ofBuf (x.toBuf v) = v := by
  obtain ⟨r, h, _, _⟩ := x
  subst h
  rfl

end Idealize.ShloMosaic.StableHlo.TRef
-- ==== Proof.KI.HostCounts.lean ====
/-
  The label counts as the kernel program's host computes them: the labels clipped below at 0, a one per row added
  into 512 integer zeros at the row's clipped label, the integer counts converted to numbers and laid out as a column.
-/
import proofs.«415135_j5574867550247_1_alg».proof.Proof.KI.HostReads
import proofs.«415135_j5574867550247_1_alg».proof.Proof.KI.CountVal
import proofs.«415135_j5574867550247_1_alg».proof.Proof.LibTypedRef
import Idealize.ShloMosaic.Lib.StableHlo.Run

set_option maxRecDepth 1200

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (outs : Outs (F := F)) (c : Dev nD)

/-! ## A clipped label vector's typed references are the references: moving contents along them changes nothing -/

theorem toBuf_v72 (v : (⟨S50000, .i32⟩ : BufTy).Contents (Elt F)) :
    (TRef.of main_v72 : TRef sig ⟨S50000, .i32⟩).toBuf v = v := rfl
theorem ofBuf_arg2 (v : main_arg2.ty.Contents (Elt F)) :
    (TRef.of main_arg2 : TRef sig ⟨S50000, .i32⟩).ofBuf v = v := rfl
theorem ofBuf_c15 (v : main_c_15.ty.Contents (Elt F)) :
    (TRef.of main_c_15 : TRef sig ⟨S_, .i32⟩).ofBuf v = v := rfl

/-! ## The label counts -/

/-- The labels reach the last region's stretches as launched. -/
theorem V8_arg2 : V8 m outs c main_arg2 = m ((c : Thread nD τ).loc main_arg2) :=
  ((V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))).trans rfl

/-- The vector the ones are added into: 512 integer zeros, still there after the clip. -/
theorem V10_v71 : V10 m outs c main_v71 = broadcastInDim S512 ![] bcast_S_S512 (constantI S_ 32 0#32) := by
  show StableHlo.after hostOps4_1 (V9 m outs c) (Proc.devRef .tc main_v71) = _
  after_results_simp

/-- The labels clipped below at 0. -/
theorem V10_v72 : V10 m outs c main_v72 = labClip (m ((c : Thread nD τ).loc main_arg2)) := by
  rw [← V8_arg2 m outs c]
  unfold labClip
  show StableHlo.after hostOps4_1 (V9 m outs c) (Proc.devRef .tc main_v72) = _
  after_results_simp
  simp only [TRef.ofBuf_toBuf, toBuf_v72, ofBuf_arg2, ofBuf_c15]

/-- The label counts, as numbers in a column. -/
theorem V11_v82 : V11 m outs c main_v82 = countsOf (m ((c : Thread nD τ).loc main_arg2)) := by
  rw [← V8_arg2 m outs c]
  unfold countsOf counts32 labIdx labClip
  show StableHlo.after hostOps4_2 (V10 m outs c) (Proc.devRef .tc main_v82) = _
  after_results_simp
  simp only [TRef.ofBuf_toBuf, toBuf_v72, ofBuf_arg2, ofBuf_c15]
  first | done | rfl

end Cert.KernelIdeal.Hand

end
-- ==== Proof.KI.ShapeReads.lean ====
/-
  The reshapes of a vector that the program's host stretches use, read at an index, for any element type: a vector of
  length `a` seen as one row `[1, a]` (the two bias vectors) or as one column `[a, 1]` (the per-node and per-graph
  counts). A reshape keeps the row-major position, and in both cases the position of `(0, i)`, respectively `(i, 0)`,
  is `i`.
-/
import proofs.«415135_j5574867550247_1_alg».proof.Proof.Gen.KernelIdeal
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

variable {α : Type}

/-- An `[a]` array cast to the column `[a, 1]` reads, at `(i, u)`, the operand at `i`, whatever the unit coordinate `u`:
    the row-major position of `(i, u)` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 64 biases as one row. -/
theorem reshape_S64_apply (v : S64.Idx → α) (k : Fin 64) :
    shapeCast S1x64 v shapeCasts_S64_S1x64 (ix2 (0 : Fin 1) k) = v (ix1 k) :=
  shapeCast_a_1a_apply v shapeCasts_S64_S1x64 0 k

/-- The 10 biases as one row. -/
theorem reshape_S10_apply (v : S10.Idx → α) (o : Fin 10) :
    shapeCast S1x10 v shapeCasts_S10_S1x10 (ix2 (0 : Fin 1) o) = v (ix1 o) :=
  shapeCast_a_1a_apply v shapeCasts_S10_S1x10 0 o

/-- The 50000 per-node values as one column. -/
theorem reshape_S50000_apply (v : S50000.Idx → α) (n : Fin 50000) :
    shapeCast S50000x1 v shapeCasts_S50000_S50000x1 (ix2 n (0 : Fin 1)) = v (ix1 n) :=
  shapeCast_a_a1_apply v shapeCasts_S50000_S50000x1 n 0

/-- The 512 per-graph values as one column. -/
theorem reshape_S512_apply (v : S512.Idx → α) (g : Fin 512) :
    shapeCast S512x1 v shapeCasts_S512_S512x1 (ix2 g (0 : Fin 1)) = v (ix1 g) :=
  shapeCast_a_a1_apply v shapeCasts_S512_S512x1 g 0

end Cert.KernelIdeal.Hand

end
-- ==== Proof.LibCat3.lean ====
/-
  Three arrays of 64 columns side by side, read at a row and a column.

  Three arrays a, b, c of shape [50000, 64] joined along the columns form an array of shape [50000, 192] whose
  entry at (p, d) is a at (p, d) when d < 64, b at (p, d − 64) when 64 ≤ d < 128, and c at (p, d − 128) otherwise.
-/
import Idealize.ShloMosaic.Lib.Pipeline.Value
import Idealize.ShloMosaic.Lib.ValueIdx
import proofs.«415135_j5574867550247_1_alg».proof.Proof.Spec

namespace Cert.LibCat3

open Idealize.ShloMosaic Idealize.ShloMosaic.ValueIdx

/-- A concatenation of three [50000, 64] arrays along the columns, read at (p, d): the piece whose span of columns
    holds d — columns 0 … 63, 64 … 127, 128 … 191 — at row p and at d less the columns before the piece. -/
theorem concat3_apply {α : Type} (a b c : (⟨2, ![50000, 64]⟩ : Shape).Idx → α)
    (h : Shape.Concatenates [(⟨2, ![50000, 64]⟩ : Shape), (⟨2, ![50000, 64]⟩ : Shape), (⟨2, ![50000, 64]⟩ : Shape)] (⟨2, ![50000, 192]⟩ : Shape) 1) (p : Fin 50000) (d : Fin 192) :
    concatenate (⟨2, ![50000, 192]⟩ : Shape) 1 [⟨(⟨2, ![50000, 64]⟩ : Shape), a⟩, ⟨(⟨2, ![50000, 64]⟩ : Shape), b⟩, ⟨(⟨2, ![50000, 64]⟩ : Shape), c⟩] h (ix2 p d)
      = if h1 : d.val < 64 then a (ix2 p ⟨d.val, h1⟩)
        else if h2 : d.val < 128 then b (ix2 p ⟨d.val - 64, by omega⟩)
        else c (ix2 p ⟨d.val - 128, by omega⟩) := by
  split
  · rename_i h1
    refine concatenate_apply_piece (t := (⟨2, ![50000, 192]⟩ : Shape)) (1 : Fin 2) [⟨(⟨2, ![50000, 64]⟩ : Shape), a⟩, ⟨(⟨2, ![50000, 64]⟩ : Shape), b⟩, ⟨(⟨2, ![50000, 64]⟩ : Shape), c⟩] h (ix2 p d)
      0 (by simp) _ a rfl rfl 0 (by simp) (ix2 p ⟨d.val, by omega⟩) (fun e he => ?_) ?_
    · match e with
      | ⟨0, _⟩ => rfl
      | ⟨1, _⟩ => exact absurd rfl he
    · show 0 + d.val = d.val
      omega
  · rename_i h1
    split
    · rename_i h2
      refine concatenate_apply_piece (t := (⟨2, ![50000, 192]⟩ : Shape)) (1 : Fin 2) [⟨(⟨2, ![50000, 64]⟩ : Shape), a⟩, ⟨(⟨2, ![50000, 64]⟩ : Shape), b⟩, ⟨(⟨2, ![50000, 64]⟩ : Shape), c⟩] h (ix2 p d)
        1 (by simp) _ b rfl rfl 64 (by simp) (ix2 p ⟨d.val - 64, by omega⟩) (fun e he => ?_) ?_
      · match e with
        | ⟨0, _⟩ => rfl
        | ⟨1, _⟩ => exact absurd rfl he
      · show 64 + (d.val - 64) = d.val
        omega
    · rename_i h2
      refine concatenate_apply_piece (t := (⟨2, ![50000, 192]⟩ : Shape)) (1 : Fin 2) [⟨(⟨2, ![50000, 64]⟩ : Shape), a⟩, ⟨(⟨2, ![50000, 64]⟩ : Shape), b⟩, ⟨(⟨2, ![50000, 64]⟩ : Shape), c⟩] h (ix2 p d)
        2 (by simp) _ c rfl rfl 128 (by simp) (ix2 p ⟨d.val - 128, by omega⟩) (fun e he => ?_) ?_
      · match e with
        | ⟨0, _⟩ => rfl
        | ⟨1, _⟩ => exact absurd rfl he
      · show 128 + (d.val - 128) = d.val
        omega

/-- The same over the extended reals, as the target formula of three arrays side by side. -/
theorem concat3_eq_cat3 (a b c : (⟨2, ![50000, 64]⟩ : Shape).Idx → EReal)
    (h : Shape.Concatenates [(⟨2, ![50000, 64]⟩ : Shape), (⟨2, ![50000, 64]⟩ : Shape), (⟨2, ![50000, 64]⟩ : Shape)] (⟨2, ![50000, 192]⟩ : Shape) 1) (p : Fin 50000) (d : Fin 192) :
    concatenate (⟨2, ![50000, 192]⟩ : Shape) 1 [⟨(⟨2, ![50000, 64]⟩ : Shape), a⟩, ⟨(⟨2, ![50000, 64]⟩ : Shape), b⟩, ⟨(⟨2, ![50000, 64]⟩ : Shape), c⟩] h (ix2 p d)
      = Cert.Spec.cat3 (fun p q => a (ix2 p q)) (fun p q => b (ix2 p q)) (fun p q => c (ix2 p q)) p d := by
  unfold Cert.Spec.cat3
  exact concat3_apply a b c h p d

end Cert.LibCat3
-- ==== Proof.SpecCongr.lean ====
/- Equal arguments give equal values: the network's functions depend on their function arguments only through the
   values those take. -/
import proofs.«415135_j5574867550247_1_alg».proof.Proof.Spec

noncomputable section

namespace Cert.Spec

theorem cat3_congr {a a' b b' c c' : Fin 50000 → Fin 64 → EReal} (ha : ∀ p q, a p q = a' p q) (hb : ∀ p q, b p q = b' p q)
    (hc : ∀ p q, c p q = c' p q) (p : Fin 50000) (d : Fin 192) : cat3 a b c p d = cat3 a' b' c' p d := by
  rw [show a = a' from funext fun p => funext fun q => ha p q, show b = b' from funext fun p => funext fun q => hb p q,
    show c = c' from funext fun p => funext fun q => hc p q]

theorem pool_congr {h h' : Fin 50000 → Fin 192 → EReal} {lab lab' : Fin 50000 → Int} (hh : ∀ n d, h n d = h' n d)
    (hl : ∀ n, lab n = lab' n) (g : Fin 512) (d : Fin 192) : pool h lab g d = pool h' lab' g d := by
  rw [show h = h' from funext fun n => funext fun d => hh n d, show lab = lab' from funext hl]

theorem count_congr {lab lab' : Fin 50000 → Int} (hl : ∀ n, lab n = lab' n) (g : Fin 512) : count lab g = count lab' g := by
  rw [show lab = lab' from funext hl]

theorem head_congr {gs gs' : Fin 512 → Fin 192 → EReal} {cnt cnt' : Fin 512 → EReal} {w1 w1' : Fin 192 → Fin 64 → EReal}
    {b1 b1' : Fin 64 → EReal} {w2 w2' : Fin 64 → Fin 10 → EReal} {b2 b2' : Fin 10 → EReal}
    (hgs : ∀ g j, gs g j = gs' g j) (hcnt : ∀ g, cnt g = cnt' g) (hw1 : ∀ j k, w1 j k = w1' j k) (hb1 : ∀ k, b1 k = b1' k)
    (hw2 : ∀ k o, w2 k o = w2' k o) (hb2 : ∀ o, b2 o = b2' o) (g : Fin 512) (o : Fin 10) :
    head gs cnt w1 b1 w2 b2 g o = head gs' cnt' w1' b1' w2' b2' g o := by
  rw [show gs = gs' from funext fun g => funext fun j => hgs g j, show cnt = cnt' from funext hcnt,
    show w1 = w1' from funext fun j => funext fun k => hw1 j k, show b1 = b1' from funext hb1,
    show w2 = w2' from funext fun k => funext fun o => hw2 k o, show b2 = b2' from funext hb2]

end Cert.Spec

end
-- ==== Proof.KI.KernelValue.lean ====
/- THE KERNEL PROGRAM'S RESULT IN NORMAL FORM, over the extended reals: the result array read at (g, o) is the
   perceptron head of the pooled rows and the label counts; the pooled rows are the sum over the rows of the three
   rounds' results side by side; the counts are the integer counts of the labels, which under non-negative labels are
   the reference's. Each step reads one region's output or one host stretch's result and rewrites the arguments of the
   network's functions. -/
import proofs.«415135_j5574867550247_1_alg».proof.Proof.KI.KSage
import proofs.«415135_j5574867550247_1_alg».proof.Proof.KI.PoolVal
import proofs.«415135_j5574867550247_1_alg».proof.Proof.KI.HeadVal
import proofs.«415135_j5574867550247_1_alg».proof.Proof.KI.CountVal
import proofs.«415135_j5574867550247_1_alg».proof.Proof.KI.HostReads
import proofs.«415135_j5574867550247_1_alg».proof.Proof.KI.HostCounts
import proofs.«415135_j5574867550247_1_alg».proof.Proof.KI.ShapeReads
import proofs.«415135_j5574867550247_1_alg».proof.Proof.KI.RegSeg3
import proofs.«415135_j5574867550247_1_alg».proof.Proof.KI.RegSeg4
import proofs.«415135_j5574867550247_1_alg».proof.Proof.KI.Norm
import proofs.«415135_j5574867550247_1_alg».proof.Proof.LibCat3
import proofs.«415135_j5574867550247_1_alg».proof.Proof.SpecCongr

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The graph labels, read signed. -/
def klab : Fin 50000 → Int := fun n => ((m ((c : Thread nD τ).loc main_arg2) : IVec S50000 32) (ix1 n)).toInt

/-- Carried contents, in the named form. -/
theorem U6_v25 : U6 m c main_v25 = U2 m c main_v25 := by
  have h := V6_v25 m (outsAll m) c; rwa [V6U, V2U] at h
theorem U6_v46 : U6 m c main_v46 = U4 m c main_v46 := by
  have h := V6_v46 m (outsAll m) c; rwa [V6U, V4U] at h
theorem U11_v70 : U11 m c main_v70 = U8 m c main_v70 := by
  have h := V11_v70 m (outsAll m) c; rwa [V11U, V8U] at h

/-- The three rounds side by side: the array the pooling region reads. -/
theorem kCat (n : Fin 50000) (d : Fin 192) :
    (U7 m c main_v68 : Vec Ideal S50000x192 .f32) (ix2 n d) = Cert.Spec.cat3 (kh1 m c) (kh2 m c) (kh3 m c) n d := by
  have h68 := V7_v68 m (outsAll m) c
  rw [V7U, V6U] at h68
  rw [h68]
  refine (Cert.LibCat3.concat3_eq_cat3 _ _ _ _ n d).trans (Cert.Spec.cat3_congr (fun p q => ?_) (fun p q => ?_) (fun p q => ?_) n d)
  · rw [U6_v25]; exact kU1 m c p q
  · rw [U6_v46]; exact kU2 m c p q
  · exact kU3 m c p q

/-- The labels as the pooling region is handed them: the label vector as a column. -/
theorem kLabCol (n : Fin 50000) : ((U7 m c main_v69 : Vec Ideal S50000x1 .i32) (ix2 n (0 : Fin 1))).toInt = klab m c n := by
  have h69 := V7_v69 m (outsAll m) c
  rw [V7U] at h69
  rw [h69, reshape_S50000_apply]
  rfl

/-- The pooled rows: region 3's result. -/
theorem kPool (g : Fin 512) (d : Fin 192) :
    (U8 m c main_v70 : Vec Ideal S512x192 .f32) (ix2 g d) = Cert.Spec.pool (Cert.Spec.cat3 (kh1 m c) (kh2 m c) (kh3 m c)) (klab m c) g d := by
  have hres : U8 m c main_v70 = (dat3 (F := Ideal) (atTc (U7 m)) c).arrAt 2 cfg3.N := (hF3 m c 2).symm
  rw [hres]
  refine (arrAt3_2_apply (atTc (U7 m)) c g d).trans (Cert.Spec.pool_congr (fun n d => ?_) (fun n => ?_) g d)
  · exact kCat m c n d
  · exact kLabCol m c n

/-- The label counts as the perceptron region is handed them, under non-negative labels. -/
theorem kCount (hlab : ∀ n : Fin 50000, 0 ≤ ((m ((c : Thread nD τ).loc main_arg2) : IVec S50000 32) (ix1 n)).toInt) (g : Fin 512) :
    (U11 m c main_v82 : Vec Ideal S512x1 .f32) (ix2 g (0 : Fin 1)) = Cert.Spec.count (klab m c) g := by
  have h82 := V11_v82 m (outsAll m) c
  rw [V11U] at h82
  rw [h82]
  exact countsOf_apply (m ((c : Thread nD τ).loc main_arg2)) hlab g

/-- THE RESULT: the perceptron head of the pooled rows and the counts. -/
theorem K_nf (hlab : ∀ n : Fin 50000, 0 ≤ ((m ((c : Thread nD τ).loc main_arg2) : IVec S50000 32) (ix1 n)).toInt)
    (g : Fin 512) (o : Fin 10) :
    (V12 m (outsAll m) c main_v85 : Vec Ideal S512x10 .f32) (ix2 g o)
      = NF (kh1 m c) (kh2 m c) (kh3 m c) (klab m c)
          (fun j k => (m ((c : Thread nD τ).loc main_arg14) : Vec Ideal S192x64 .f32) (ix2 j k))
          (fun k => (m ((c : Thread nD τ).loc main_arg15) : Vec Ideal S64 .f32) (ix1 k))
          (fun k o => (m ((c : Thread nD τ).loc main_arg16) : Vec Ideal S64x10 .f32) (ix2 k o))
          (fun o => (m ((c : Thread nD τ).loc main_arg17) : Vec Ideal S10 .f32) (ix1 o)) g o := by
  have hres : V12 m (outsAll m) c main_v85 = (dat4 (F := Ideal) (atTc (U11 m)) c).arrAt 6 cfg4.N := by
    rw [V12U]; exact (hF4 m c 6).symm
  have h14 := V11_arg14 m (outsAll m) c
  have h16 := V11_arg16 m (outsAll m) c
  have h83 := V11_v83 m (outsAll m) c
  have h84 := V11_v84 m (outsAll m) c
  rw [V11U] at h14 h16 h83 h84
  rw [hres]
  unfold NF
  refine (arrAt4_6_apply (atTc (U11 m)) c g o).trans (Cert.Spec.head_congr (fun g j => ?_) (fun g => ?_) (fun j k => ?_) (fun k => ?_) (fun k o => ?_) (fun o => ?_) g o)
  · show (U11 m c main_v70 : Vec Ideal S512x192 .f32) (ix2 g j) = _
    rw [U11_v70]; exact kPool m c g j
  · exact kCount m c hlab g
  · show (U11 m c main_arg14 : Vec Ideal S192x64 .f32) (ix2 j k) = _
    rw [h14]
  · show (U11 m c main_v83 : Vec Ideal S1x64 .f32) (ix2 (0 : Fin 1) k) = _
    rw [h83, reshape_S64_apply]
  · show (U11 m c main_arg16 : Vec Ideal S64x10 .f32) (ix2 k o) = _
    rw [h16]
  · show (U11 m c main_v84 : Vec Ideal S1x10 .f32) (ix2 (0 : Fin 1) o) = _
    rw [h84, reshape_S10_apply]

end Cert.KernelIdeal.Hand

end
-- ==== Proof.RI.RefSage.lean ====
/-
  The reference program's three rounds, each read at a row and a column: the round's result is the positive part of
  (neighbour mean · W_l + b_l + own row · W_r) · W_m + b_m, the formula of Cert.Spec.sage, with the neighbour means
  left as the reference computes them.
-/
import proofs.«415135_j5574867550247_1_alg».proof.Proof.Gen.ReferenceIdeal.Read
import proofs.«415135_j5574867550247_1_alg».proof.Proof.Spec

noncomputable section

open scoped BigOperators

namespace Cert.ReferenceIdeal.Hand

open Cert.ReferenceIdeal Cert.ReferenceIdeal.Read Idealize.ShloMosaic Idealize.ShloMosaic.ValueIdx

/-- The arrays' types: node features [50000,64], weights [64,64], biases [64], edges [2,800000]. -/
abbrev TN := (⟨S50000x64, .f32⟩ : BufTy).Contents (Elt Ideal)
abbrev TW := (⟨S64x64, .f32⟩ : BufTy).Contents (Elt Ideal)
abbrev TB := (⟨S64, .f32⟩ : BufTy).Contents (Elt Ideal)
abbrev TE := (⟨S2x800000, .i32⟩ : BufTy).Contents (Elt Ideal)

/-- The round's formula, spelled over arrays read at built indices. -/
theorem sage_eq (mean xx : TN) (wl : TW) (bl : TB) (wr wm : TW) (bm : TB) (p : Fin 50000) (q : Fin 64) :
    Cert.Spec.sage (fun p j => mean (ix2 p j)) (fun p j => xx (ix2 p j)) (fun j k => wl (ix2 j k)) (fun k => bl (ix1 k))
      (fun j k => wr (ix2 j k)) (fun j k => wm (ix2 j k)) (fun k => bm (ix1 k)) p q
    = max ((∑ k : Fin 64, ((∑ j : Fin 64, mean (ix2 p j) * wl (ix2 j k)) + bl (ix1 k)
        + ∑ j : Fin 64, xx (ix2 p j) * wr (ix2 j k)) * wm (ix2 k q)) + bm (ix1 q)) (Ideal.ofBits .f32 0x00000000#32) := rfl

/-- The product %23 at (p, q) reads its left operand at (p, k) and its right operand at (k, q). -/
theorem lidx_main_v23_ix (p : Fin 50000) (q k : Fin 64) : lidx_main_v23 (ix2 p q) k = ix2 p k :=
  funext fun a => Fin.ext (by match a with | ⟨0, _⟩ => rfl | ⟨1, _⟩ => rfl)
theorem ridx_main_v23_ix (p : Fin 50000) (q k : Fin 64) : ridx_main_v23 (ix2 p q) k = ix2 k q :=
  funext fun a => Fin.ext (by match a with | ⟨0, _⟩ => rfl | ⟨1, _⟩ => rfl)
/-- The product %27 at (p, q) reads its left operand at (p, k) and its right operand at (k, q). -/
theorem lidx_main_v27_ix (p : Fin 50000) (q k : Fin 64) : lidx_main_v27 (ix2 p q) k = ix2 p k :=
  funext fun a => Fin.ext (by match a with | ⟨0, _⟩ => rfl | ⟨1, _⟩ => rfl)
theorem ridx_main_v27_ix (p : Fin 50000) (q k : Fin 64) : ridx_main_v27 (ix2 p q) k = ix2 k q :=
  funext fun a => Fin.ext (by match a with | ⟨0, _⟩ => rfl | ⟨1, _⟩ => rfl)
/-- The product %29 at (p, q) reads its left operand at (p, k) and its right operand at (k, q). -/
theorem lidx_main_v29_ix (p : Fin 50000) (q k : Fin 64) : lidx_main_v29 (ix2 p q) k = ix2 p k :=
  funext fun a => Fin.ext (by match a with | ⟨0, _⟩ => rfl | ⟨1, _⟩ => rfl)
theorem ridx_main_v29_ix (p : Fin 50000) (q k : Fin 64) : ridx_main_v29 (ix2 p q) k = ix2 k q :=
  funext fun a => Fin.ext (by match a with | ⟨0, _⟩ => rfl | ⟨1, _⟩ => rfl)
/-- The product %53 at (p, q) reads its left operand at (p, k) and its right operand at (k, q). -/
theorem lidx_main_v53_ix (p : Fin 50000) (q k : Fin 64) : lidx_main_v53 (ix2 p q) k = ix2 p k :=
  funext fun a => Fin.ext (by match a with | ⟨0, _⟩ => rfl | ⟨1, _⟩ => rfl)
theorem ridx_main_v53_ix (p : Fin 50000) (q k : Fin 64) : ridx_main_v53 (ix2 p q) k = ix2 k q :=
  funext fun a => Fin.ext (by match a with | ⟨0, _⟩ => rfl | ⟨1, _⟩ => rfl)
/-- The product %57 at (p, q) reads its left operand at (p, k) and its right operand at (k, q). -/
theorem lidx_main_v57_ix (p : Fin 50000) (q k : Fin 64) : lidx_main_v57 (ix2 p q) k = ix2 p k :=
  funext fun a => Fin.ext (by match a with | ⟨0, _⟩ => rfl | ⟨1, _⟩ => rfl)
theorem ridx_main_v57_ix (p : Fin 50000) (q k : Fin 64) : ridx_main_v57 (ix2 p q) k = ix2 k q :=
  funext fun a => Fin.ext (by match a with | ⟨0, _⟩ => rfl | ⟨1, _⟩ => rfl)
/-- The product %59 at (p, q) reads its left operand at (p, k) and its right operand at (k, q). -/
theorem lidx_main_v59_ix (p : Fin 50000) (q k : Fin 64) : lidx_main_v59 (ix2 p q) k = ix2 p k :=
  funext fun a => Fin.ext (by match a with | ⟨0, _⟩ => rfl | ⟨1, _⟩ => rfl)
theorem ridx_main_v59_ix (p : Fin 50000) (q k : Fin 64) : ridx_main_v59 (ix2 p q) k = ix2 k q :=
  funext fun a => Fin.ext (by match a with | ⟨0, _⟩ => rfl | ⟨1, _⟩ => rfl)
/-- The product %83 at (p, q) reads its left operand at (p, k) and its right operand at (k, q). -/
theorem lidx_main_v83_ix (p : Fin 50000) (q k : Fin 64) : lidx_main_v83 (ix2 p q) k = ix2 p k :=
  funext fun a => Fin.ext (by match a with | ⟨0, _⟩ => rfl | ⟨1, _⟩ => rfl)
theorem ridx_main_v83_ix (p : Fin 50000) (q k : Fin 64) : ridx_main_v83 (ix2 p q) k = ix2 k q :=
  funext fun a => Fin.ext (by match a with | ⟨0, _⟩ => rfl | ⟨1, _⟩ => rfl)
/-- The product %87 at (p, q) reads its left operand at (p, k) and its right operand at (k, q). -/
theorem lidx_main_v87_ix (p : Fin 50000) (q k : Fin 64) : lidx_main_v87 (ix2 p q) k = ix2 p k :=
  funext fun a => Fin.ext (by match a with | ⟨0, _⟩ => rfl | ⟨1, _⟩ => rfl)
theorem ridx_main_v87_ix (p : Fin 50000) (q k : Fin 64) : ridx_main_v87 (ix2 p q) k = ix2 k q :=
  funext fun a => Fin.ext (by match a with | ⟨0, _⟩ => rfl | ⟨1, _⟩ => rfl)
/-- The product %89 at (p, q) reads its left operand at (p, k) and its right operand at (k, q). -/
theorem lidx_main_v89_ix (p : Fin 50000) (q k : Fin 64) : lidx_main_v89 (ix2 p q) k = ix2 p k :=
  funext fun a => Fin.ext (by match a with | ⟨0, _⟩ => rfl | ⟨1, _⟩ => rfl)
theorem ridx_main_v89_ix (p : Fin 50000) (q k : Fin 64) : ridx_main_v89 (ix2 p q) k = ix2 k q :=
  funext fun a => Fin.ext (by match a with | ⟨0, _⟩ => rfl | ⟨1, _⟩ => rfl)
/-- The bias broadcast %24, %25 at (p, q) reads the bias at q. -/
theorem idx_main_v25_ix (p : Fin 50000) (q : Fin 64) : idx_main_v24 (idx_main_v25 (ix2 p q)) = ix1 q :=
  funext fun a => Fin.ext (by match a with | ⟨0, _⟩ => rfl)
/-- The bias broadcast %30, %31 at (p, q) reads the bias at q. -/
theorem idx_main_v31_ix (p : Fin 50000) (q : Fin 64) : idx_main_v30 (idx_main_v31 (ix2 p q)) = ix1 q :=
  funext fun a => Fin.ext (by match a with | ⟨0, _⟩ => rfl)
/-- The bias broadcast %54, %55 at (p, q) reads the bias at q. -/
theorem idx_main_v55_ix (p : Fin 50000) (q : Fin 64) : idx_main_v54 (idx_main_v55 (ix2 p q)) = ix1 q :=
  funext fun a => Fin.ext (by match a with | ⟨0, _⟩ => rfl)
/-- The bias broadcast %60, %61 at (p, q) reads the bias at q. -/
theorem idx_main_v61_ix (p : Fin 50000) (q : Fin 64) : idx_main_v60 (idx_main_v61 (ix2 p q)) = ix1 q :=
  funext fun a => Fin.ext (by match a with | ⟨0, _⟩ => rfl)
/-- The bias broadcast %84, %85 at (p, q) reads the bias at q. -/
theorem idx_main_v85_ix (p : Fin 50000) (q : Fin 64) : idx_main_v84 (idx_main_v85 (ix2 p q)) = ix1 q :=
  funext fun a => Fin.ext (by match a with | ⟨0, _⟩ => rfl)
/-- The bias broadcast %90, %91 at (p, q) reads the bias at q. -/
theorem idx_main_v91_ix (p : Fin 50000) (q : Fin 64) : idx_main_v90 (idx_main_v91 (ix2 p q)) = ix1 q :=
  funext fun a => Fin.ext (by match a with | ⟨0, _⟩ => rfl)

/-- Round 1 before the shared matrix, at (p, k): mean · W_l + b_l + previous features · W_r. -/
theorem a1_apply (x0 : TN) (x1 : TE) (x3 : TW) (x4 : TB) (x5 : TW) (p : Fin 50000) (k : Fin 64) :
    val_main_v28 (F := Ideal) x0 x1 x3 x4 x5 (ix2 p k)
      = (∑ j : Fin 64, val_main_v22 (F := Ideal) x0 x1 (ix2 p j) * x3 (ix2 j k)) + x4 (ix1 k)
        + ∑ j : Fin 64, x0 (ix2 p j) * x5 (ix2 j k) := by
  rw [val_main_v28_apply, val_main_v26_apply, val_main_v23_apply, val_main_v25_apply, val_main_v24_apply,
    val_main_v27_apply]
  simp only [lidx_main_v23_ix, ridx_main_v23_ix, lidx_main_v27_ix, ridx_main_v27_ix, idx_main_v25_ix, Ideal.addf_def]

/-- Round 1 at (p, q): the positive part of (round 1 before the shared matrix) · W_m + b_m. -/
theorem h1_apply (x0 : TN) (x1 : TE) (x3 : TW) (x4 : TB) (x5 x12 : TW) (x13 : TB) (p : Fin 50000) (q : Fin 64) :
    val_main_v33 (F := Ideal) x0 x1 x3 x4 x5 x12 x13 (ix2 p q)
      = Cert.Spec.sage (fun p j => val_main_v22 (F := Ideal) x0 x1 (ix2 p j)) (fun p j => x0 (ix2 p j))
          (fun j k => x3 (ix2 j k)) (fun k => x4 (ix1 k)) (fun j k => x5 (ix2 j k)) (fun j k => x12 (ix2 j k))
          (fun k => x13 (ix1 k)) p q := by
  rw [sage_eq, val_main_v33_apply, val_main_v32_apply, val_main_v29_apply, val_main_v31_apply, val_main_v30_apply,
    val_main_call0_v0_apply, val_main_call0_cst_apply]
  simp only [lidx_main_v29_ix, ridx_main_v29_ix, idx_main_v31_ix, Ideal.addf_def, Ideal.maximumf_def, Ideal.ofBits_def,
    a1_apply]

/-- Round 2 before the shared matrix, at (p, k): mean · W_l + b_l + previous features · W_r. -/
theorem a2_apply (x0 : TN) (x1 : TE) (x3 : TW) (x4 : TB) (x5 x6 : TW) (x7 : TB) (x8 x12 : TW) (x13 : TB) (p : Fin 50000) (k : Fin 64) :
    val_main_v58 (F := Ideal) x0 x1 x3 x4 x5 x6 x7 x8 x12 x13 (ix2 p k)
      = (∑ j : Fin 64, val_main_v52 (F := Ideal) x0 x1 x3 x4 x5 x12 x13 (ix2 p j) * x6 (ix2 j k)) + x7 (ix1 k)
        + ∑ j : Fin 64, val_main_v33 (F := Ideal) x0 x1 x3 x4 x5 x12 x13 (ix2 p j) * x8 (ix2 j k) := by
  rw [val_main_v58_apply, val_main_v56_apply, val_main_v53_apply, val_main_v55_apply, val_main_v54_apply,
    val_main_v57_apply]
  simp only [lidx_main_v53_ix, ridx_main_v53_ix, lidx_main_v57_ix, ridx_main_v57_ix, idx_main_v55_ix, Ideal.addf_def]

/-- Round 2 at (p, q): the positive part of (round 2 before the shared matrix) · W_m + b_m. -/
theorem h2_apply (x0 : TN) (x1 : TE) (x3 : TW) (x4 : TB) (x5 x6 : TW) (x7 : TB) (x8 x12 : TW) (x13 : TB) (p : Fin 50000) (q : Fin 64) :
    val_main_v63 (F := Ideal) x0 x1 x3 x4 x5 x6 x7 x8 x12 x13 (ix2 p q)
      = Cert.Spec.sage (fun p j => val_main_v52 (F := Ideal) x0 x1 x3 x4 x5 x12 x13 (ix2 p j)) (fun p j => val_main_v33 (F := Ideal) x0 x1 x3 x4 x5 x12 x13 (ix2 p j))
          (fun j k => x6 (ix2 j k)) (fun k => x7 (ix1 k)) (fun j k => x8 (ix2 j k)) (fun j k => x12 (ix2 j k))
          (fun k => x13 (ix1 k)) p q := by
  rw [sage_eq, val_main_v63_apply, val_main_v62_apply, val_main_v59_apply, val_main_v61_apply, val_main_v60_apply,
    val_main_call1_v0_apply, val_main_call1_cst_apply]
  simp only [lidx_main_v59_ix, ridx_main_v59_ix, idx_main_v61_ix, Ideal.addf_def, Ideal.maximumf_def, Ideal.ofBits_def,
    a2_apply]

/-- Round 3 before the shared matrix, at (p, k): mean · W_l + b_l + previous features · W_r. -/
theorem a3_apply (x0 : TN) (x1 : TE) (x3 : TW) (x4 : TB) (x5 x6 : TW) (x7 : TB) (x8 x9 : TW) (x10 : TB) (x11 x12 : TW) (x13 : TB) (p : Fin 50000) (k : Fin 64) :
    val_main_v88 (F := Ideal) x0 x1 x3 x4 x5 x6 x7 x8 x9 x10 x11 x12 x13 (ix2 p k)
      = (∑ j : Fin 64, val_main_v82 (F := Ideal) x0 x1 x3 x4 x5 x6 x7 x8 x12 x13 (ix2 p j) * x9 (ix2 j k)) + x10 (ix1 k)
        + ∑ j : Fin 64, val_main_v63 (F := Ideal) x0 x1 x3 x4 x5 x6 x7 x8 x12 x13 (ix2 p j) * x11 (ix2 j k) := by
  rw [val_main_v88_apply, val_main_v86_apply, val_main_v83_apply, val_main_v85_apply, val_main_v84_apply,
    val_main_v87_apply]
  simp only [lidx_main_v83_ix, ridx_main_v83_ix, lidx_main_v87_ix, ridx_main_v87_ix, idx_main_v85_ix, Ideal.addf_def]

/-- Round 3 at (p, q): the positive part of (round 3 before the shared matrix) · W_m + b_m. -/
theorem h3_apply (x0 : TN) (x1 : TE) (x3 : TW) (x4 : TB) (x5 x6 : TW) (x7 : TB) (x8 x9 : TW) (x10 : TB) (x11 x12 : TW) (x13 : TB) (p : Fin 50000) (q : Fin 64) :
    val_main_v93 (F := Ideal) x0 x1 x3 x4 x5 x6 x7 x8 x9 x10 x11 x12 x13 (ix2 p q)
      = Cert.Spec.sage (fun p j => val_main_v82 (F := Ideal) x0 x1 x3 x4 x5 x6 x7 x8 x12 x13 (ix2 p j)) (fun p j => val_main_v63 (F := Ideal) x0 x1 x3 x4 x5 x6 x7 x8 x12 x13 (ix2 p j))
          (fun j k => x9 (ix2 j k)) (fun k => x10 (ix1 k)) (fun j k => x11 (ix2 j k)) (fun j k => x12 (ix2 j k))
          (fun k => x13 (ix1 k)) p q := by
  rw [sage_eq, val_main_v93_apply, val_main_v92_apply, val_main_v89_apply, val_main_v91_apply, val_main_v90_apply,
    val_main_call2_v0_apply, val_main_call2_cst_apply]
  simp only [lidx_main_v89_ix, ridx_main_v89_ix, idx_main_v91_ix, Ideal.addf_def, Ideal.maximumf_def, Ideal.ofBits_def,
    a3_apply]

end Cert.ReferenceIdeal.Hand

end
-- ==== Proof.RI.RefHead.lean ====
/-
  The tail of the reference program, read at explicit coordinates over the extended reals.

  The three rounds' results side by side (a concatenation along the columns, read at (p, d)); their rows summed
  per graph label (a row scatter-add into zeros, read at (g, d)); the number of rows carrying each label (a
  scatter-add of ones into zeros, read at g); and the two-layer perceptron on the pooled rows divided by the
  counts (at least one), read at (g, o).
-/
import proofs.«415135_j5574867550247_1_alg».proof.Proof.Gen.ReferenceIdeal.Read
import proofs.«415135_j5574867550247_1_alg».proof.Proof.Spec
import proofs.«415135_j5574867550247_1_alg».proof.Proof.LibRows
import proofs.«415135_j5574867550247_1_alg».proof.Proof.LibCat3
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx

/-! ## Three arrays of 64 columns side by side -/

/-- The three rounds' results side by side, read at (p, d). -/
theorem cat_apply (x0 : (⟨S50000x64, .f32⟩ : BufTy).Contents (Elt Ideal)) (x1 : (⟨S2x800000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (p : Fin 50000) (d : Fin 192) :
    val_main_v94 (F := Ideal) x0 x1 x3 x4 x5 x6 x7 x8 x9 x10 x11 x12 x13 (ix2 p d)
      = Cert.Spec.cat3 (fun p q => val_main_v33 (F := Ideal) x0 x1 x3 x4 x5 x12 x13 (ix2 p q))
          (fun p q => val_main_v63 (F := Ideal) x0 x1 x3 x4 x5 x6 x7 x8 x12 x13 (ix2 p q))
          (fun p q => val_main_v93 (F := Ideal) x0 x1 x3 x4 x5 x6 x7 x8 x9 x10 x11 x12 x13 (ix2 p q)) p d := by
  unfold val_main_v94
  exact Cert.LibCat3.concat3_eq_cat3 _ _ _ _ p d

/-! ## The rows summed per label, and the labels counted -/

/-- The index column of both scatters is the label vector: its entry (n, 0) is label n. -/
theorem idx96_at (n : Fin 50000) : idx_main_v96 (ix2 n (0 : Fin 1)) = ix1 n :=
  funext fun a => Fin.ext (by match a with | ⟨0, _⟩ => rfl)
theorem idx100_at (n : Fin 50000) : idx_main_v100 (ix2 n (0 : Fin 1)) = ix1 n :=
  funext fun a => Fin.ext (by match a with | ⟨0, _⟩ => rfl)

theorem v96_at (x2 : (⟨S50000, .i32⟩ : BufTy).Contents (Elt Ideal)) (n : Fin 50000) :
    val_main_v96 (F := Ideal) x2 (ix2 n (0 : Fin 1)) = x2 (ix1 n) := by
  rw [val_main_v96_apply, idx96_at]

theorem v100_at (x2 : (⟨S50000, .i32⟩ : BufTy).Contents (Elt Ideal)) (n : Fin 50000) :
    val_main_v100 (F := Ideal) x2 (ix2 n (0 : Fin 1)) = x2 (ix1 n) := by
  rw [val_main_v100_apply, idx100_at]

/-- The array the rows are added into is zero everywhere. -/
theorem v95_at (i : S512x192.Idx) : val_main_v95 (F := Ideal) i = 0 := by
  rw [val_main_v95_apply, val_main_cst_16_apply, Ideal.ofBits_def, Ideal.ofBits_zero_f32]

/-- The vector the ones are added into is zero everywhere. -/
theorem v99_at (i : S512.Idx) : val_main_v99 (F := Ideal) i = 0 := by
  rw [val_main_v99_apply, val_main_cst_18_apply, Ideal.ofBits_def, Ideal.ofBits_zero_f32]

/-- The vector of updates of the count is one everywhere. -/
theorem v98_at (i : S50000.Idx) : val_main_v98 (F := Ideal) i = 1 := by
  rw [val_main_v98_apply, val_main_cst_17_apply, Ideal.ofBits_def, Ideal.ofBits_one_f32]

/-- The rows of the side-by-side array summed per label, read at (g, d): the sum over all rows n of the row's
    entry d where label n is g, of 0 elsewhere. -/
theorem pool_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (g : Fin 512) (d : Fin 192) :
    val_main_v97 (F := Ideal) x0 x1 x2 x3 x4 x5 x6 x7 x8 x9 x10 x11 x12 x13 (ix2 g d)
      = Cert.Spec.pool (fun n d => val_main_v94 (F := Ideal) x0 x1 x3 x4 x5 x6 x7 x8 x9 x10 x11 x12 x13 (ix2 n d))
          (fun n => (x2 (ix1 n)).toInt) g d := by
  unfold val_main_v97 Cert.Spec.pool
  refine (Cert.LibRows.rowScatterAdd_apply (n := 512) (e := 50000) (c := 192) (w := 32)
    Facts₀.scatter_S512x192_S50000x1_S50000x192_1_0_0_1_wf (val_main_v95 (F := Ideal)) (val_main_v96 (F := Ideal) x2)
    (val_main_v94 (F := Ideal) x0 x1 x3 x4 x5 x6 x7 x8 x9 x10 x11 x12 x13) g d).trans ?_
  rw [v95_at, zero_add]
  refine Finset.sum_congr rfl fun n _ => ?_
  rw [v96_at]

/-- The number of rows carrying label g. -/
theorem count_apply (x2 : (⟨S50000, .i32⟩ : BufTy).Contents (Elt Ideal)) (g : Fin 512) :
    val_main_v101 (F := Ideal) x2 (ix1 g) = Cert.Spec.count (fun n => (x2 (ix1 n)).toInt) g := by
  unfold val_main_v101 Cert.Spec.count
  refine (Cert.LibRows.rowScatterAdd1_apply (n := 512) (e := 50000) (w := 32)
    Facts₀.scatter_S512_S50000x1_S50000_n_0_0_1_wf (val_main_v99 (F := Ideal)) (val_main_v100 (F := Ideal) x2)
    (val_main_v98 (F := Ideal)) g).trans ?_
  rw [v99_at, zero_add]
  refine Finset.sum_congr rfl fun n _ => ?_
  rw [v100_at, v98_at]

/-! ## The perceptron on the pooled rows -/

/-- The divisor at (g, j) is the count of label g, at least one: two broadcasts of the vector of counts. -/
theorem idx104_105_at (g : Fin 512) (j : Fin 192) : idx_main_v104 (idx_main_v105 (ix2 g j)) = ix1 g :=
  funext fun a => Fin.ext (by match a with | ⟨0, _⟩ => rfl)

theorem v105_at (x2 : (⟨S50000, .i32⟩ : BufTy).Contents (Elt Ideal)) (g : Fin 512) (j : Fin 192) :
    val_main_v105 (F := Ideal) x2 (ix2 g j) = max (val_main_v101 (F := Ideal) x2 (ix1 g)) Cert.Spec.o32 := by
  rw [val_main_v105_apply, val_main_v104_apply, idx104_105_at, val_main_v103_apply, val_main_v102_apply,
    val_main_cst_19_apply, Ideal.maximumf_def, Ideal.ofBits_def]

/-- The pooled row divided by the count, at (g, j). -/
theorem v106_at (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (g : Fin 512) (j : Fin 192) :
    val_main_v106 (F := Ideal) x0 x1 x2 x3 x4 x5 x6 x7 x8 x9 x10 x11 x12 x13 (ix2 g j)
      = Ideal.div (val_main_v97 (F := Ideal) x0 x1 x2 x3 x4 x5 x6 x7 x8 x9 x10 x11 x12 x13 (ix2 g j)) (max (val_main_v101 (F := Ideal) x2 (ix1 g)) Cert.Spec.o32) := by
  rw [val_main_v106_apply, v105_at, Ideal.hostDivf_def]

/-- The operand indices of the first layer's product at (g, k), term j: (g, j) on the left, (j, k) on the right. -/
theorem lidx107_at (g : Fin 512) (k : Fin 64) (j : Fin 192) : lidx_main_v107 (ix2 g k) j = ix2 g j :=
  funext fun a => Fin.ext (by match a with | ⟨0, _⟩ => rfl | ⟨1, _⟩ => rfl)
theorem ridx107_at (g : Fin 512) (k : Fin 64) (j : Fin 192) : ridx_main_v107 (ix2 g k) j = ix2 j k :=
  funext fun a => Fin.ext (by match a with | ⟨0, _⟩ => rfl | ⟨1, _⟩ => rfl)

/-- The first layer's product at (g, k). -/
theorem v107_at (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S192x64, .f32⟩ : BufTy).Contents (Elt Ideal)) (g : Fin 512) (k : Fin 64) :
    val_main_v107 (F := Ideal) x0 x1 x2 x3 x4 x5 x6 x7 x8 x9 x10 x11 x12 x13 x14 (ix2 g k)
      = ∑ j : Fin 192, Ideal.div (val_main_v97 (F := Ideal) x0 x1 x2 x3 x4 x5 x6 x7 x8 x9 x10 x11 x12 x13 (ix2 g j)) (max (val_main_v101 (F := Ideal) x2 (ix1 g)) Cert.Spec.o32)
          * x14 (ix2 j k) := by
  rw [val_main_v107_apply]
  refine Finset.sum_congr rfl fun j _ => ?_
  rw [lidx107_at, ridx107_at, v106_at]

/-- The first layer's bias at (g, k) is entry k of the bias vector: two broadcasts. -/
theorem idx108_109_at (g : Fin 512) (k : Fin 64) : idx_main_v108 (idx_main_v109 (ix2 g k)) = ix1 k :=
  funext fun a => Fin.ext (by match a with | ⟨0, _⟩ => rfl)

theorem v109_at (x15 : (⟨S64, .f32⟩ : BufTy).Contents (Elt Ideal)) (g : Fin 512) (k : Fin 64) :
    val_main_v109 (F := Ideal) x15 (ix2 g k) = x15 (ix1 k) := by
  rw [val_main_v109_apply, val_main_v108_apply, idx108_109_at]

/-- The first layer with its bias and positive part, at (g, k). -/
theorem v111_at (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S192x64, .f32⟩ : BufTy).Contents (Elt Ideal)) (x15 : (⟨S64, .f32⟩ : BufTy).Contents (Elt Ideal)) (g : Fin 512) (k : Fin 64) :
    val_main_v111 (F := Ideal) x0 x1 x2 x3 x4 x5 x6 x7 x8 x9 x10 x11 x12 x13 x14 x15 (ix2 g k)
      = max ((∑ j : Fin 192, Ideal.div (val_main_v97 (F := Ideal) x0 x1 x2 x3 x4 x5 x6 x7 x8 x9 x10 x11 x12 x13 (ix2 g j)) (max (val_main_v101 (F := Ideal) x2 (ix1 g)) Cert.Spec.o32)
          * x14 (ix2 j k)) + x15 (ix1 k)) Cert.Spec.z32 := by
  rw [val_main_v111_apply, val_main_v110_apply, v107_at, v109_at, val_main_call3_v0_apply, val_main_call3_cst_apply,
    Ideal.maximumf_def, Ideal.addf_def, Ideal.ofBits_def]

/-- The operand indices of the second layer's product at (g, o), term k: (g, k) on the left, (k, o) on the right. -/
theorem lidx112_at (g : Fin 512) (o : Fin 10) (k : Fin 64) : lidx_main_v112 (ix2 g o) k = ix2 g k :=
  funext fun a => Fin.ext (by match a with | ⟨0, _⟩ => rfl | ⟨1, _⟩ => rfl)
theorem ridx112_at (g : Fin 512) (o : Fin 10) (k : Fin 64) : ridx_main_v112 (ix2 g o) k = ix2 k o :=
  funext fun a => Fin.ext (by match a with | ⟨0, _⟩ => rfl | ⟨1, _⟩ => rfl)

/-- The second layer's bias at (g, o) is entry o of the bias vector: two broadcasts. -/
theorem idx113_114_at (g : Fin 512) (o : Fin 10) : idx_main_v113 (idx_main_v114 (ix2 g o)) = ix1 o :=
  funext fun a => Fin.ext (by match a with | ⟨0, _⟩ => rfl)

theorem v114_at (x17 : (⟨S10, .f32⟩ : BufTy).Contents (Elt Ideal)) (g : Fin 512) (o : Fin 10) :
    val_main_v114 (F := Ideal) x17 (ix2 g o) = x17 (ix1 o) := by
  rw [val_main_v114_apply, val_main_v113_apply, idx113_114_at]

/-- The program's result at (g, o): the perceptron on graph g, output o. -/
theorem out_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64x64, .f32⟩ : BufTy).Contents (Elt Ideal)) (x13 : (⟨S64, .f32⟩ : BufTy).Contents (Elt Ideal)) (x14 : (⟨S192x64, .f32⟩ : BufTy).Contents (Elt Ideal)) (x15 : (⟨S64, .f32⟩ : BufTy).Contents (Elt Ideal)) (x16 : (⟨S64x10, .f32⟩ : BufTy).Contents (Elt Ideal)) (x17 : (⟨S10, .f32⟩ : BufTy).Contents (Elt Ideal)) (g : Fin 512) (o : Fin 10) :
    val_main_v115 (F := Ideal) x0 x1 x2 x3 x4 x5 x6 x7 x8 x9 x10 x11 x12 x13 x14 x15 x16 x17 (ix2 g o)
      = Cert.Spec.head (fun g j => val_main_v97 (F := Ideal) x0 x1 x2 x3 x4 x5 x6 x7 x8 x9 x10 x11 x12 x13 (ix2 g j))
          (fun g => val_main_v101 (F := Ideal) x2 (ix1 g)) (fun j k => x14 (ix2 j k)) (fun k => x15 (ix1 k))
          (fun k o => x16 (ix2 k o)) (fun o => x17 (ix1 o)) g o := by
  rw [val_main_v115_apply, val_main_v112_apply, v114_at, Ideal.addf_def]
  unfold Cert.Spec.head
  refine congrArg (· + x17 (ix1 o)) (Finset.sum_congr rfl fun k _ => ?_)
  rw [lidx112_at, ridx112_at, v111_at]

end Cert.ReferenceIdeal.Hand

end
-- ==== Proof.RI.RefChain.lean ====
/-
  The reference program's result in normal form: the perceptron on the pooled, counted, side-by-side results of the
  three rounds, each round the formula of Cert.Spec.sage on the neighbour average of the round before. The neighbour
  average is the same composed host term in both programs and is never opened.
-/
import proofs.«415135_j5574867550247_1_alg».proof.Proof.RI.RefSage
import proofs.«415135_j5574867550247_1_alg».proof.Proof.RI.RefHead
import proofs.«415135_j5574867550247_1_alg».proof.Proof.KI.Norm

noncomputable section

open scoped BigOperators

namespace Cert.ReferenceIdeal.Hand

open Cert.ReferenceIdeal Cert.ReferenceIdeal.Read Idealize.ShloMosaic Idealize.ShloMosaic.ValueIdx

/-- The types of the remaining arguments: labels [50000], the perceptron's weights [192,64], [64,10] and bias [10]. -/
abbrev TL := (⟨S50000, .i32⟩ : BufTy).Contents (Elt Ideal)
abbrev TW1 := (⟨S192x64, .f32⟩ : BufTy).Contents (Elt Ideal)
abbrev TW2 := (⟨S64x10, .f32⟩ : BufTy).Contents (Elt Ideal)
abbrev TB2 := (⟨S10, .f32⟩ : BufTy).Contents (Elt Ideal)

/-! ## The neighbour averages are the one composed term -/

/-- Round 1's neighbour average is the average of the input features. -/
theorem mean1_eq (x0 : TN) (x1 : TE) :
    val_main_v22 (F := Ideal) x0 x1 = Cert.KernelIdeal.Hand.meanOf (F := Ideal) x0 (Cert.KernelIdeal.Hand.srcOf x1) (Cert.KernelIdeal.Hand.dstOf x1) (Cert.KernelIdeal.Hand.onesE (F := Ideal)) := rfl

/-- Round 2's neighbour average is the average of round 1's result. -/
theorem mean2_eq (x0 : TN) (x1 : TE) (x3 : TW) (x4 : TB) (x5 x12 : TW) (x13 : TB) :
    val_main_v52 (F := Ideal) x0 x1 x3 x4 x5 x12 x13 = Cert.KernelIdeal.Hand.meanOf (F := Ideal) (val_main_v33 (F := Ideal) x0 x1 x3 x4 x5 x12 x13) (Cert.KernelIdeal.Hand.srcOf x1) (Cert.KernelIdeal.Hand.dstOf x1) (Cert.KernelIdeal.Hand.onesE (F := Ideal)) := rfl

/-- Round 3's neighbour average is the average of round 2's result. -/
theorem mean3_eq (x0 : TN) (x1 : TE) (x3 : TW) (x4 : TB) (x5 x6 : TW) (x7 : TB) (x8 x12 : TW) (x13 : TB) :
    val_main_v82 (F := Ideal) x0 x1 x3 x4 x5 x6 x7 x8 x12 x13 = Cert.KernelIdeal.Hand.meanOf (F := Ideal) (val_main_v63 (F := Ideal) x0 x1 x3 x4 x5 x6 x7 x8 x12 x13) (Cert.KernelIdeal.Hand.srcOf x1) (Cert.KernelIdeal.Hand.dstOf x1) (Cert.KernelIdeal.Hand.onesE (F := Ideal)) := rfl

/-- An array is the function of its coordinates. -/
theorem coords_eq (a : TN) : (fun i : S50000x64.Idx => a (ix2 (i 0) (i 1))) = a :=
  funext fun i => congrArg a (eq_ix2 i).symm

/-- The average of an array given by its coordinates is the average of the array. -/
theorem MEAN_coords (a : TN) (x1 : TE) (p : Fin 50000) (j : Fin 64) :
    Cert.KernelIdeal.Hand.MEAN (fun p j => a (ix2 p j)) x1 p j = Cert.KernelIdeal.Hand.meanOf (F := Ideal) a (Cert.KernelIdeal.Hand.srcOf x1) (Cert.KernelIdeal.Hand.dstOf x1) (Cert.KernelIdeal.Hand.onesE (F := Ideal)) (ix2 p j) := by
  show Cert.KernelIdeal.Hand.meanOf (F := Ideal) (fun i => a (ix2 (i 0) (i 1))) (Cert.KernelIdeal.Hand.srcOf x1) (Cert.KernelIdeal.Hand.dstOf x1) (Cert.KernelIdeal.Hand.onesE (F := Ideal)) (ix2 p j) = _
  rw [coords_eq]

/-! ## The three rounds, each from the one before -/

/-- Round 1's result as a function of the arguments. -/
abbrev rh1 (x0 : TN) (x1 : TE) (x3 : TW) (x4 : TB) (x5 x12 : TW) (x13 : TB) : Fin 50000 → Fin 64 → EReal :=
  Cert.Spec.sage (Cert.KernelIdeal.Hand.MEAN (fun p j => x0 (ix2 p j)) x1) (fun p j => x0 (ix2 p j)) (fun j k => x3 (ix2 j k)) (fun k => x4 (ix1 k)) (fun j k => x5 (ix2 j k))
    (fun j k => x12 (ix2 j k)) (fun k => x13 (ix1 k))
/-- Round 2's result. -/
abbrev rh2 (x0 : TN) (x1 : TE) (x3 : TW) (x4 : TB) (x5 x6 : TW) (x7 : TB) (x8 x12 : TW) (x13 : TB) : Fin 50000 → Fin 64 → EReal :=
  Cert.Spec.sage (Cert.KernelIdeal.Hand.MEAN (rh1 x0 x1 x3 x4 x5 x12 x13) x1) (rh1 x0 x1 x3 x4 x5 x12 x13) (fun j k => x6 (ix2 j k)) (fun k => x7 (ix1 k)) (fun j k => x8 (ix2 j k))
    (fun j k => x12 (ix2 j k)) (fun k => x13 (ix1 k))
/-- Round 3's result. -/
abbrev rh3 (x0 : TN) (x1 : TE) (x3 : TW) (x4 : TB) (x5 x6 : TW) (x7 : TB) (x8 x9 : TW) (x10 : TB) (x11 x12 : TW) (x13 : TB) : Fin 50000 → Fin 64 → EReal :=
  Cert.Spec.sage (Cert.KernelIdeal.Hand.MEAN (rh2 x0 x1 x3 x4 x5 x6 x7 x8 x12 x13) x1) (rh2 x0 x1 x3 x4 x5 x6 x7 x8 x12 x13) (fun j k => x9 (ix2 j k)) (fun k => x10 (ix1 k)) (fun j k => x11 (ix2 j k))
    (fun j k => x12 (ix2 j k)) (fun k => x13 (ix1 k))

theorem r1_eq (x0 : TN) (x1 : TE) (x3 : TW) (x4 : TB) (x5 x12 : TW) (x13 : TB) :
    (fun p q => val_main_v33 (F := Ideal) x0 x1 x3 x4 x5 x12 x13 (ix2 p q)) = rh1 x0 x1 x3 x4 x5 x12 x13 := by
  funext p q
  have hm : (fun p j => val_main_v22 (F := Ideal) x0 x1 (ix2 p j)) = Cert.KernelIdeal.Hand.MEAN (fun p j => x0 (ix2 p j)) x1 :=
    funext fun p => funext fun j => by rw [MEAN_coords, mean1_eq]
  rw [h1_apply, hm]

theorem r2_eq (x0 : TN) (x1 : TE) (x3 : TW) (x4 : TB) (x5 x6 : TW) (x7 : TB) (x8 x12 : TW) (x13 : TB) :
    (fun p q => val_main_v63 (F := Ideal) x0 x1 x3 x4 x5 x6 x7 x8 x12 x13 (ix2 p q)) = rh2 x0 x1 x3 x4 x5 x6 x7 x8 x12 x13 := by
  funext p q
  have hm : (fun p j => val_main_v52 (F := Ideal) x0 x1 x3 x4 x5 x12 x13 (ix2 p j)) = Cert.KernelIdeal.Hand.MEAN (rh1 x0 x1 x3 x4 x5 x12 x13) x1 :=
    funext fun p => funext fun j => by rw [← r1_eq, MEAN_coords, mean2_eq]
  rw [h2_apply, hm, r1_eq]

theorem r3_eq (x0 : TN) (x1 : TE) (x3 : TW) (x4 : TB) (x5 x6 : TW) (x7 : TB) (x8 x9 : TW) (x10 : TB) (x11 x12 : TW) (x13 : TB) :
    (fun p q => val_main_v93 (F := Ideal) x0 x1 x3 x4 x5 x6 x7 x8 x9 x10 x11 x12 x13 (ix2 p q)) = rh3 x0 x1 x3 x4 x5 x6 x7 x8 x9 x10 x11 x12 x13 := by
  funext p q
  have hm : (fun p j => val_main_v82 (F := Ideal) x0 x1 x3 x4 x5 x6 x7 x8 x12 x13 (ix2 p j)) = Cert.KernelIdeal.Hand.MEAN (rh2 x0 x1 x3 x4 x5 x6 x7 x8 x12 x13) x1 :=
    funext fun p => funext fun j => by rw [← r2_eq, MEAN_coords, mean3_eq]
  rw [h3_apply, hm, r2_eq]

/-! ## The result -/

/-- The reference's result at graph g, output o, is the normal form on the three rounds' results. -/
theorem ref_nf (x0 : TN) (x1 : TE) (x2 : TL) (x3 : TW) (x4 : TB) (x5 x6 : TW) (x7 : TB) (x8 x9 : TW) (x10 : TB) (x11 x12 : TW)
    (x13 : TB) (x14 : TW1) (x15 : TB) (x16 : TW2) (x17 : TB2) (g : Fin 512) (o : Fin 10) :
    val_main_v115 (F := Ideal) x0 x1 x2 x3 x4 x5 x6 x7 x8 x9 x10 x11 x12 x13 x14 x15 x16 x17 (ix2 g o)
      = Cert.KernelIdeal.Hand.NF (rh1 x0 x1 x3 x4 x5 x12 x13) (rh2 x0 x1 x3 x4 x5 x6 x7 x8 x12 x13) (rh3 x0 x1 x3 x4 x5 x6 x7 x8 x9 x10 x11 x12 x13) (fun n => (x2 (ix1 n)).toInt)
          (fun j k => x14 (ix2 j k)) (fun k => x15 (ix1 k)) (fun j k => x16 (ix2 j k)) (fun k => x17 (ix1 k)) g o := by
  have hc : (fun n d => val_main_v94 (F := Ideal) x0 x1 x3 x4 x5 x6 x7 x8 x9 x10 x11 x12 x13 (ix2 n d))
      = Cert.Spec.cat3 (rh1 x0 x1 x3 x4 x5 x12 x13) (rh2 x0 x1 x3 x4 x5 x6 x7 x8 x12 x13) (rh3 x0 x1 x3 x4 x5 x6 x7 x8 x9 x10 x11 x12 x13) :=
    funext fun n => funext fun d => by rw [cat_apply, r1_eq, r2_eq, r3_eq]
  have hp : (fun g j => val_main_v97 (F := Ideal) x0 x1 x2 x3 x4 x5 x6 x7 x8 x9 x10 x11 x12 x13 (ix2 g j))
      = Cert.Spec.pool (Cert.Spec.cat3 (rh1 x0 x1 x3 x4 x5 x12 x13) (rh2 x0 x1 x3 x4 x5 x6 x7 x8 x12 x13) (rh3 x0 x1 x3 x4 x5 x6 x7 x8 x9 x10 x11 x12 x13)) (fun n => (x2 (ix1 n)).toInt) :=
    funext fun g => funext fun j => by rw [pool_apply, hc]
  have hn : (fun g => val_main_v101 (F := Ideal) x2 (ix1 g)) = Cert.Spec.count (fun n => (x2 (ix1 n)).toInt) :=
    funext fun g => count_apply x2 g
  rw [out_apply, hp, hn]
  rfl

end Cert.ReferenceIdeal.Hand

end
-- ==== Proof.PreLabels.lean ====
/- The printed precondition `finite_inputs`, decoded for the labels: it is a conjunction (an `and` of one-bit words)
   whose last conjunct is "every entry of the [50000] signed 32-bit argument is at least zero" — the reduction by
   `and`, from 1, of the signed comparison of the argument with the zero word broadcast to its shape. When the
   conjunction is 1 its last conjunct is 1; a reduction by `and` over every axis that is 1 met a 1 at every index;
   a signed `≥` that is 1 says the right operand's integer is at most the left's; the broadcast scalar reads the zero
   word everywhere. The sixteen conjuncts about the float arguments are not read. -/
import proofs.«415135_j5574867550247_1_alg».proof.Pre_finite_inputs
import proofs.«415135_j5574867550247_1_alg».proof.Proof.Gen.Pre_finite_inputs
import Idealize.ShloMosaic.Lib.ReduceAll
import Idealize.ShloMosaic.Lib.ValueIdx
import Idealize.ShloMosaic.Lib.StableHlo.Predicate
import Idealize.ShloMosaic.Lib.Affine

set_option maxRecDepth 16384

noncomputable section

namespace Cert.PreHand

open Idealize.ShloMosaic
open Cert.Pre_finite_inputs Cert.Pre_finite_inputs.Gen

/-- A rank-0 shape has one index. -/
instance subsingleton_scalar_idx : Subsingleton S_.Idx := ⟨fun a b => funext fun d => d.elim0⟩

set_option maxHeartbeats 1000000 in
/-- Under the precondition every label is non-negative as a signed integer. -/
theorem labels_nonneg {F : FTy → Type} [FloatOps F] (a0 : FVec F S50000x64 .f32) (a1 : IVec S2x800000 32) (a2 : IVec S50000 32) (a3 : FVec F S64x64 .f32) (a4 : FVec F S64 .f32) (a5 : FVec F S64x64 .f32) (a6 : FVec F S64x64 .f32) (a7 : FVec F S64 .f32) (a8 : FVec F S64x64 .f32) (a9 : FVec F S64x64 .f32) (a10 : FVec F S64 .f32) (a11 : FVec F S64x64 .f32) (a12 : FVec F S64x64 .f32) (a13 : FVec F S64 .f32) (a14 : FVec F S192x64 .f32) (a15 : FVec F S64 .f32) (a16 : FVec F S64x10 .f32) (a17 : FVec F S10 .f32)
    (h : Cert.Pre_finite_inputs.fn (F := F) a0 a1 a2 a3 a4 a5 a6 a7 a8 a9 a10 a11 a12 a13 a14 a15 a16 a17 = (fun _ => 1#1)) (n : Fin 50000) :
    0 ≤ (a2 (Idealize.ShloMosaic.ValueIdx.ix1 n)).toInt := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the outermost operation is the last `and`: its right operand is the labels' conjunct
  change IntOp.andi _ _ = 1#1 at h0
  obtain ⟨-, hl⟩ := IntOp.andi_eq_one.1 h0
  -- the reduction by `and` over the one axis met a 1 at index n
  have hn := Host.reduce_andi_all _ _ _ _ _ hl (ValueIdx.ix1 n)
  -- the signed comparison there
  change IntOp.cmpi .sge (a2 (ValueIdx.ix1 n)) _ = 1#1 at hn
  have hle := IntOp.cmpi_sge.1 hn
  -- the broadcast scalar reads the zero word, whose integer is zero
  rw [StableHlo.Predicate.bcast_scalar _ Cert.Pre_finite_inputs.Gen.h_S_] at hle
  change (0#32 : BitVec 32).toInt ≤ _ at hle
  rwa [BitVec.toInt_zero] at hle

end Cert.PreHand

end
-- ==== Proof.Bridge.lean ====
/- The two programs' results agree: from memories that agree on the eighteen arguments, with every label non-negative
   (the precondition's last conjunct), the reference's result term and the contents the kernel program's run ends with
   in its result array are one array — both read, index by index, as the same normal form of the network. -/
import proofs.«415135_j5574867550247_1_alg».proof.Defs
import proofs.«415135_j5574867550247_1_alg».proof.Proof.KI.KernelValue
import proofs.«415135_j5574867550247_1_alg».proof.Proof.RI.RefChain
import proofs.«415135_j5574867550247_1_alg».proof.Proof.PreLabels
import proofs.«415135_j5574867550247_1_alg».proof.Proof.Gen.Pre_finite_inputs

set_option maxRecDepth 16384

noncomputable section

namespace Cert.Proof.Bridge

open Idealize.ShloMosaic Idealize.ShloMosaic.TcCoe Idealize.SL.Sem Idealize.ShloMosaic.ValueIdx

theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.Value.res_main_v115 m' c
      = Cert.KernelIdeal.Gen.V12 m (Cert.KernelIdeal.Hand.outsAll m) c Cert.KernelIdeal.main_v85 := by
  have hlab : ∀ n : Fin 50000, 0 ≤ ((m ((c : Thread Cert.KernelIdeal.nD Cert.KernelIdeal.τ).loc Cert.KernelIdeal.main_arg2) : IVec Cert.KernelIdeal.S50000 32) (ix1 n)).toInt :=
    fun n => Cert.PreHand.labels_nonneg _ _ _ _ _ _ _ _ _ _ _ _ _ _ _ _ _ _ (hpre c) n
  rw [Cert.ReferenceIdeal.Read.val_main_v115_eq, h0, h1, h2, h3, h4, h5, h6, h7, h8, h9, h10, h11, h12, h13, h14, h15, h16, h17]
  funext i
  obtain ⟨g, o, rfl⟩ : ∃ (g : Fin 512) (o : Fin 10), i = ix2 g o := ⟨i 0, i 1, eq_ix2 i⟩
  rw [Cert.ReferenceIdeal.Hand.ref_nf]
  exact (Cert.KernelIdeal.Hand.K_nf m c hlab g o).symm

end Cert.Proof.Bridge

end
-- ==== Proof.lean ====
/- The certificate. A graph network — three rounds of neighbour averaging with two 64×64 mixes, a shared 64×64 map and a
   positive part; the rounds side by side; a sum of rows per graph label divided by the label's count; a two-layer
   perceptron — computed by a program of five kernel regions among host stretches, against a plain host program.
   FRAMES: the two kernel programs (the word-level one and its reading over the extended reals are one text) run as
   the launch of the list of host stretches and regions, each region's pipeline entered from the contents the items
   before it leave; the reference's run is its operations composed. VALUE: over the extended reals both results are,
   index by index, the same normal form: the rounds are row-wise sums of products (a matrix unit's product into a zero
   accumulator is the host's contraction; a change of float format is the identity), the neighbour average is the same
   host chain on both sides, the per-graph sum is a one-hot product accumulated block by block on one side and a
   scattered sum on the other (0·a = 0 and 1·a = a for every extended real a), and the counts agree once no label is
   negative — the added precondition: an integer count that sends a negative label to bin 0 against a scattered sum
   that drops it. -/
import proofs.«415135_j5574867550247_1_alg».proof.Defs
import proofs.«415135_j5574867550247_1_alg».proof.Proof.Gen.Kernel
import proofs.«415135_j5574867550247_1_alg».proof.Proof.Gen.Kernel.Skeleton
import proofs.«415135_j5574867550247_1_alg».proof.Proof.Gen.Kernel.Launch
import proofs.«415135_j5574867550247_1_alg».proof.Proof.Gen.Kernel.Regions
import proofs.«415135_j5574867550247_1_alg».proof.Proof.Gen.Kernel.Points
import proofs.«415135_j5574867550247_1_alg».proof.Proof.Gen.KernelIdeal
import proofs.«415135_j5574867550247_1_alg».proof.Proof.Gen.KernelIdeal.Skeleton
import proofs.«415135_j5574867550247_1_alg».proof.Proof.Gen.KernelIdeal.Launch
import proofs.«415135_j5574867550247_1_alg».proof.Proof.Gen.KernelIdeal.Regions
import proofs.«415135_j5574867550247_1_alg».proof.Proof.Gen.KernelIdeal.Points
import proofs.«415135_j5574867550247_1_alg».proof.Proof.Gen.ReferenceIdeal
import proofs.«415135_j5574867550247_1_alg».proof.Proof.Gen.ReferenceIdeal.Run
import proofs.«415135_j5574867550247_1_alg».proof.Proof.Gen.ReferenceIdeal.Read
import proofs.«415135_j5574867550247_1_alg».proof.Proof.Gen.Pre_finite_inputs
import proofs.«415135_j5574867550247_1_alg».proof.Proof.KB.Run
import proofs.«415135_j5574867550247_1_alg».proof.Proof.KI.Run
import proofs.«415135_j5574867550247_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end, faults nowhere, and leaves its arguments as launched. -/
theorem frame_k : Cert.frame_Kernel := fun m ρ _ =>
  (θ_run Cert.Kernel.defs _ _).mono (fun _ h c => (h c).2) (Cert.Kernel.Hand.run_main (F := Bits) m ρ)

/-- The same program read over the extended reals. -/
theorem frame_ki : Cert.frame_KernelIdeal := fun m ρ _ =>
  (θ_run Cert.KernelIdeal.defs _ _).mono (fun _ h c => (h c).2) (Cert.KernelIdeal.Hand.run_main (F := Ideal) m ρ)

/-- The reference: its operations composed, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end, with equal results: the kernel program's result array at what its last region's pipeline leaves,
    the reference's at its composed term, and the two are one array. -/
theorem algebraic : Cert.algebraic_KernelIdeal_ReferenceIdeal := by
  intro m ρ m' ρ' hpre hagree
  refine ⟨fun c => Cert.KernelIdeal.Gen.V12 m (Cert.KernelIdeal.Hand.outsAll m) c Cert.KernelIdeal.main_v85,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  exact Cert.Proof.Bridge.results_agree m m' c hpre h0 h1 h2 h3 h4 h5 h6 h7 h8 h9 h10 h11 h12 h13 h14 h15 h16 h17

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
